-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg2 : IVec S2x800000 32) (main_v48 : IVec S_ 1) (main_v50 : IVec S2x800000 1) : IVec S_ 1 :=
  let main_c_19 : IVec S_ 1 := constantI S_ 1 1#1
  let main_v51 : IVec S_ 1 := (fun x v => Host.reduce IntOp.andi x v reducesTo_S2x800000_S_d0_1 h_S_) main_v50 main_c_19
  let main_v52 : IVec S_ 1 := andi main_v48 main_v51
  let main_c_20 : IVec S_ 32 := constantI S_ 32 50000#32
  let main_v53 : IVec S2x800000 32 := broadcastInDim S2x800000 ![] bcast_S_S2x800000 main_c_20
  let main_v54 : IVec S2x800000 1 := cmpi .slt main_arg2 main_v53
  let main_c_21 : IVec S_ 1 := constantI S_ 1 1#1
  let main_v55 : IVec S_ 1 := (fun x v => Host.reduce IntOp.andi x v reducesTo_S2x800000_S_d0_1 h_S_) main_v54 main_c_21
  let main_v56 : IVec S_ 1 := andi main_v52 main_v55
  main_v56

def fn_part2 {F : FTy → Type} [FloatOps F] (main_arg2 : IVec S2x800000 32) (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S2x800000 32 := broadcastInDim S2x800000 ![] bcast_S_S2x800000 main_c_18
  let main_v50 : IVec S2x800000 1 := cmpi .sge main_arg2 main_v49
  fn_part3 (F := F) main_arg2 main_v48 main_v50

def fn_part1 {F : FTy → Type} [FloatOps F] (main_arg2 : IVec S2x800000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S50000x128 .f32) (main_arg1 : FVec F S800000x128 .f32) (main_arg2 : IVec S2x800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_v13 main_v16
-- ==== Kernel.lean ====
abbrev S50000x128 : Shape := ⟨2, ![50000, 128]⟩
abbrev S800000x128 : Shape := ⟨2, ![800000, 128]⟩
abbrev S2x800000 : Shape := ⟨2, ![2, 800000]⟩
abbrev S128x128 : Shape := ⟨2, ![128, 128]⟩
abbrev S128 : Shape := ⟨1, ![128]⟩
abbrev S50000x256 : Shape := ⟨2, ![50000, 256]⟩
abbrev S5000x128 : Shape := ⟨2, ![5000, 128]⟩
abbrev S5000x256 : Shape := ⟨2, ![5000, 256]⟩
abbrev S1x128 : Shape := ⟨2, ![1, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x256 : Shape := ⟨2, ![800000, 256]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S8x128 : Shape := ⟨2, ![8, 128]⟩
abbrev S800000x8 : Shape := ⟨2, ![800000, 8]⟩
abbrev S4000x128 : Shape := ⟨2, ![4000, 128]⟩
abbrev S4000x8 : Shape := ⟨2, ![4000, 8]⟩
abbrev S50000x8 : Shape := ⟨2, ![50000, 8]⟩
abbrev S50000x8x16 : Shape := ⟨3, ![50000, 8, 16]⟩
abbrev S50000x8x1 : Shape := ⟨3, ![50000, 8, 1]⟩

abbrev nBuf : Space → Nat
  | .hbm => 110
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S50000x128, .f32⟩
  | .hbm, ⟨12, _⟩ => ⟨S50000x256, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S1, .i32⟩
  | .hbm, ⟨26, _⟩ => ⟨S_, .i32⟩
  | .hbm, ⟨27, _⟩ => ⟨S800000x1, .i32⟩
  | .hbm, ⟨28, _⟩ => ⟨S800000x1, .i1⟩
  | .hbm, ⟨29, _⟩ => ⟨S1x1, .i32⟩
  | .hbm, ⟨30, _⟩ => ⟨S800000x1, .i32⟩
  | .hbm, ⟨31, _⟩ => ⟨S800000x1, .i1⟩
  | .hbm, ⟨32, _⟩ => ⟨S800000x1, .i1⟩
  | .hbm, ⟨33, _⟩ => ⟨S_, .i1⟩
  | .hbm, ⟨34, _⟩ => ⟨S800000, .i1⟩
  | .hbm, ⟨35, _⟩ => ⟨S800000x256, .f32⟩
  | .hbm, ⟨36, _⟩ => ⟨S800000x256, .i1⟩
  | .hbm, ⟨37, _⟩ => ⟨S_, .f32⟩
  | .hbm, ⟨38, _⟩ => ⟨S800000x256, .f32⟩
  | .hbm, ⟨39, _⟩ => ⟨S800000x256, .f32⟩
  | .hbm, ⟨40, _⟩ => ⟨S800000x128, .f32⟩
  | .hbm, ⟨41, _⟩ => ⟨S800000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S1, .i32⟩
  | .hbm, ⟨51, _⟩ => ⟨S_, .i32⟩
  | .hbm, ⟨52, _⟩ => ⟨S800000x1, .i32⟩
  | .hbm, ⟨53, _⟩ => ⟨S800000x1, .i1⟩
  | .hbm, ⟨54, _⟩ => ⟨S1x1, .i32⟩
  | .hbm, ⟨55, _⟩ => ⟨S800000x1, .i32⟩
  | .hbm, ⟨56, _⟩ => ⟨S800000x1, .i1⟩
  | .hbm, ⟨57, _⟩ => ⟨S800000x1, .i1⟩
  | .hbm, ⟨58, _⟩ => ⟨S_, .i1⟩
  | .hbm, ⟨59, _⟩ => ⟨S800000, .i1⟩
  | .hbm, ⟨60, _⟩ => ⟨S800000x128, .f32⟩
  | .hbm, ⟨61, _⟩ => ⟨S800000x128, .i1⟩
  | .hbm, ⟨62, _⟩ => ⟨S_, .f32⟩
  | .hbm, ⟨63, _⟩ => ⟨S800000x128, .f32⟩
  | .hbm, ⟨64, _⟩ => ⟨S800000x128, .f32⟩
  | .hbm, ⟨65, _⟩ => ⟨S128, .i32⟩
  | .hbm, ⟨66, _⟩ => ⟨S128x1, .i32⟩
  | .hbm, ⟨67, _⟩ => ⟨S8, .i32⟩
  | .hbm, ⟨68, _⟩ => ⟨S1x8, .i32⟩
  | .hbm, ⟨69, _⟩ => ⟨S_, .i32⟩
  | .hbm, ⟨70, _⟩ => ⟨S_, .i32⟩
  | .hbm, ⟨71, _⟩ => ⟨S128x1, .i32⟩
  | .hbm, ⟨72, _⟩ => ⟨S128x1, .i32⟩
  | .hbm, ⟨73, _⟩ => ⟨S128x1, .i32⟩
  | .hbm, ⟨74, _⟩ => ⟨S_, .i32⟩
  | .hbm, ⟨75, _⟩ => ⟨S128x1, .i32⟩
  | .hbm, ⟨76, _⟩ => ⟨S128x1, .i1⟩
  | .hbm, ⟨77, _⟩ => ⟨S128x1, .i32⟩
  | .hbm, ⟨78, _⟩ => ⟨S128x1, .i32⟩
  | .hbm, ⟨79, _⟩ => ⟨S_, .i32⟩
  | .hbm, ⟨80, _⟩ => ⟨S128x1, .i32⟩
  | .hbm, ⟨81, _⟩ => ⟨S128x1, .i1⟩
  | .hbm, ⟨82, _⟩ => ⟨S128x1, .i1⟩
  | .hbm, ⟨83, _⟩ => ⟨S_, .i32⟩
  | .hbm, ⟨84, _⟩ => ⟨S128x1, .i32⟩
  | .hbm, ⟨85, _⟩ => ⟨S128x1, .i32⟩
  | .hbm, ⟨86, _⟩ => ⟨S128x1, .i32⟩
  | .hbm, ⟨87, _⟩ => ⟨S128x8, .i32⟩
  | .hbm, ⟨88, _⟩ => ⟨S128x8, .i32⟩
  | .hbm, ⟨89, _⟩ => ⟨S128x8, .i1⟩
  | .hbm, ⟨90, _⟩ => ⟨S128x8, .f32⟩
  | .hbm, ⟨91, _⟩ => ⟨S8x128, .f32⟩
  | .hbm, ⟨92, _⟩ => ⟨S800000x128, .f32⟩
  | .hbm, ⟨93, _⟩ => ⟨S800000x8, .f32⟩
  | .hbm, ⟨94, _⟩ => ⟨S_, .f32⟩
  | .hbm, ⟨95, _⟩ => ⟨S50000x128, .f32⟩
  | .hbm, ⟨96, _⟩ => ⟨S800000x1, .i32⟩
  | .hbm, ⟨97, _⟩ => ⟨S50000x128, .f32⟩
  | .hbm, ⟨98, _⟩ => ⟨S_, .f32⟩
  | .hbm, ⟨99, _⟩ => ⟨S50000x8, .f32⟩
  | .hbm, ⟨100, _⟩ => ⟨S800000x1, .i32⟩
  | .hbm, ⟨101, _⟩ => ⟨S50000x8, .f32⟩
  | .hbm, ⟨102, _⟩ => ⟨S50000x8x16, .f32⟩
  | .hbm, ⟨103, _⟩ => ⟨S50000x8x1, .f32⟩
  | .hbm, ⟨104, _⟩ => ⟨S_, .f32⟩
  | .hbm, ⟨105, _⟩ => ⟨S50000x8x1, .f32⟩
  | .hbm, ⟨106, _⟩ => ⟨S50000x8x1, .f32⟩
  | .hbm, ⟨107, _⟩ => ⟨S50000x8x16, .f32⟩
  | .hbm, ⟨108, _⟩ => ⟨S50000x8x16, .f32⟩
  | .hbm, ⟨109, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x256, .f32⟩
  | .local _ .vmem, ⟨11, _⟩ => ⟨S5000x256, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S128x128, .f32⟩
  | .local _ .vmem, ⟨21, _⟩ => ⟨S128, .f32⟩
  | .local _ .vmem, ⟨22, _⟩ => ⟨S128x8, .f32⟩
  | .local _ .vmem, ⟨23, _⟩ => ⟨S8x128, .f32⟩
  | .local _ .vmem, ⟨24, _⟩ => ⟨S4000x128, .f32⟩
  | .local _ .vmem, ⟨25, _⟩ => ⟨S4000x128, .f32⟩
  | .local _ .vmem, ⟨26, _⟩ => ⟨S4000x8, .f32⟩
  | .local _ .vmem, ⟨27, _⟩ => ⟨S4000x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_c : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_c : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_0 : Ref sig .tc := ⟨.hbm, 83, rfl⟩
abbrev main_call2_v12 : Ref sig .tc := ⟨.hbm, 84, rfl⟩
abbrev main_call2_v13 : Ref sig .tc := ⟨.hbm, 85, rfl⟩
abbrev main_v13 : Ref sig .tc := ⟨.hbm, 86, rfl⟩
abbrev main_v14 : Ref sig .tc := ⟨.hbm, 87, rfl⟩
abbrev main_v15 : Ref sig .tc := ⟨.hbm, 88, rfl⟩
abbrev main_v16 : Ref sig .tc := ⟨.hbm, 89, rfl⟩
abbrev main_v17 : Ref sig .tc := ⟨.hbm, 90, rfl⟩
abbrev main_v18 : Ref sig .tc := ⟨.hbm, 91, rfl⟩
abbrev main_v19_0 : Ref sig .tc := ⟨.hbm, 92, rfl⟩
abbrev main_v19_1 : Ref sig .tc := ⟨.hbm, 93, rfl⟩
abbrev main_cst : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_cst_0 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_cst_1 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4000x8 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x256_S5000x128_0_0 : ∀ a, (![0, 0] : Fin 2 → Nat) a + S5000x128.size a ≤ S5000x256.size a
  inb_S5000x256_S5000x128_0_128 : ∀ a, (![0, 128] : Fin 2 → Nat) a + S5000x128.size a ≤ S5000x256.size a
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  slices_S800000x256_S800000x128_0_0 : S800000x256.Slices ![0, 0] S800000x128
  slices_S800000x256_S800000x128_0_128 : S800000x256.Slices ![0, 128] S800000x128
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S128_S128x1_0 : S128.BroadcastsInDim S128x1 (![0] : Fin 1 → Fin S128x1.rank)
  bcast_S8_S1x8_1 : S8.BroadcastsInDim S1x8 (![1] : Fin 1 → Fin S1x8.rank)
  bcast_S_S128x1 : S_.BroadcastsInDim S128x1 (![] : Fin 0 → Fin S128x1.rank)
  bcast_S128x1_S128x8_0_1 : S128x1.BroadcastsInDim S128x8 (![0, 1] : Fin 2 → Fin S128x8.rank)
  bcast_S1x8_S128x8_0_1 : S1x8.BroadcastsInDim S128x8 (![0, 1] : Fin 2 → Fin S128x8.rank)
  transposes_S128x8_S8x128_1_0 : S128x8.Transposes [1, 0] S8x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S4000x8_S4000x8_0_0 : ∀ a, (![0, 0] : Fin 2 → Nat) a + S4000x8.size a ≤ S4000x8.size a
  h_S4000x8 : 0 < S4000x8.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  bcast_S_S50000x128 : S_.BroadcastsInDim S50000x128 (![] : Fin 0 → Fin S50000x128.rank)
  bcast_S_S50000x8 : S_.BroadcastsInDim S50000x8 (![] : Fin 0 → Fin S50000x8.rank)
  shapeCasts_S50000x128_S50000x8x16 : S50000x128.ShapeCasts S50000x8x16
  shapeCasts_S50000x8_S50000x8x1 : S50000x8.ShapeCasts S50000x8x1
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S50000x8x16_S50000x128 : S50000x8x16.ShapeCasts S50000x128
  dot_S5000x128_S128x128_S5000x128_1_0_0_1_n_n_wf : DotDims.WF S5000x128 S128x128 S5000x128 [1] [0] [0] [1] [] []
  gather_S50000x256_S800000x1_S800000x256_1_0_n_n_0_1_1256_wf : GatherDims.WF S50000x256 S800000x1 S800000x256 [1] [0] [] [0] [] 1 ![1, 256]
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  dot_S4000x128_S128x8_S4000x8_1_0_0_1_n_n_wf : DotDims.WF S4000x128 S128x8 S4000x8 [1] [0] [0] [1] [] []
  dot_S4000x8_S8x128_S4000x128_1_0_0_1_n_n_wf : DotDims.WF S4000x8 S8x128 S4000x128 [1] [0] [0] [1] [] []
  scatter_S50000x128_S800000x1_S800000x128_1_0_0_1_wf : ScatterDims.WF S50000x128 S800000x1 S800000x128 [1] [0] [0] 1
  scatter_S50000x8_S800000x1_S800000x8_1_0_0_1_wf : ScatterDims.WF S50000x8 S800000x1 S800000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x256.size a ≤ S50000x256.size a
  hwx0_8 : ∀ i : grid0.Coords, EltTy.bits .f32 = 32 ∨ (Rect.block (s := S50000x256) S5000x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S800000x128.size a
  hwx1_1 : ∀ i : grid1.Coords, EltTy.bits .f32 = 32 ∨ (Rect.block (s := S800000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S800000x128.size a
  hwx1_2 : ∀ i : grid1.Coords, EltTy.bits .f32 = 32 ∨ (Rect.block (s := S800000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S800000x128.size a
  hwx1_3 : ∀ i : grid1.Coords, EltTy.bits .f32 = 32 ∨ (Rect.block (s := S800000x128) S4000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x8.size a ≤ S128x8.size a
  hwx1_6 : ∀ i : grid1.Coords, EltTy.bits .f32 = 32 ∨ (Rect.block (s := S128x8) S128x8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S8x128.size a ≤ S8x128.size a
  hwx1_7 : ∀ i : grid1.Coords, EltTy.bits .f32 = 32 ∨ (Rect.block (s := S8x128) S8x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S800000x128.size a
  hwx1_8 : ∀ i : grid1.Coords, EltTy.bits .f32 = 32 ∨ (Rect.block (s := S800000x128) S4000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x8.size a ≤ S800000x8.size a
  hwx1_9 : ∀ i : grid1.Coords, EltTy.bits .f32 = 32 ∨ (Rect.block (s := S800000x8) S4000x8.size (cc1_transform_9 i) (hinb1_9 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x8_S4000x8_1_0_0_1_n_n : DotDims S4000x128 S128x8 S4000x8 where
  lhsContracting := [1]
  rhsContracting := [0]
  lhsNonContracting := [0]
  rhsNonContracting := [1]
  lhsBatch := []
  rhsBatch := []
  wf := dot_S4000x128_S128x8_S4000x8_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S5000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v6) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S128x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S8x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19_0) S4000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v19_1) S4000x8.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S2x800000 : Shape := ⟨2, ![2, 800000]⟩
abbrev S128x128 : Shape := ⟨2, ![128, 128]⟩
abbrev S128 : Shape := ⟨1, ![128]⟩
abbrev S1x128 : Shape := ⟨2, ![1, 128]⟩
abbrev S50000x8x16 : Shape := ⟨3, ![50000, 8, 16]⟩
abbrev S800000x8x16 : Shape := ⟨3, ![800000, 8, 16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x8 : Shape := ⟨2, ![800000, 8]⟩
abbrev S800000x8x1 : Shape := ⟨3, ![800000, 8, 1]⟩
abbrev S50000x8x1 : Shape := ⟨3, ![50000, 8, 1]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S50000x128, .f32⟩
  | .hbm, ⟨12, _⟩ => ⟨S1x128, .f32⟩
  | .hbm, ⟨13, _⟩ => ⟨S50000x128, .f32⟩
  | .hbm, ⟨14, _⟩ => ⟨S50000x128, .f32⟩
  | .hbm, ⟨15, _⟩ => ⟨S50000x8x16, .f32⟩
  | .hbm, ⟨16, _⟩ => ⟨S50000x128, .f32⟩
  | .hbm, ⟨17, _⟩ => ⟨S1x128, .f32⟩
  | .hbm, ⟨18, _⟩ => ⟨S50000x128, .f32⟩
  | .hbm, ⟨19, _⟩ => ⟨S50000x128, .f32⟩
  | .hbm, ⟨20, _⟩ => ⟨S50000x8x16, .f32⟩
  | .hbm, ⟨21, _⟩ => ⟨S50000x128, .f32⟩
  | .hbm, ⟨22, _⟩ => ⟨S1x128, .f32⟩
  | .hbm, ⟨23, _⟩ => ⟨S50000x128, .f32⟩
  | .hbm, ⟨24, _⟩ => ⟨S50000x128, .f32⟩
  | .hbm, ⟨25, _⟩ => ⟨S50000x8x16, .f32⟩
  | .hbm, ⟨26, _⟩ => ⟨S800000x128, .f32⟩
  | .hbm, ⟨27, _⟩ => ⟨S1x128, .f32⟩
  | .hbm, ⟨28, _⟩ => ⟨S800000x128, .f32⟩
  | .hbm, ⟨29, _⟩ => ⟨S800000x128, .f32⟩
  | .hbm, ⟨30, _⟩ => ⟨S800000x8x16, .f32⟩
  | .hbm, ⟨31, _⟩ => ⟨S1x800000, .i32⟩
  | .hbm, ⟨32, _⟩ => ⟨S800000, .i32⟩
  | .hbm, ⟨33, _⟩ => ⟨S1x800000, .i32⟩
  | .hbm, ⟨34, _⟩ => ⟨S800000, .i32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x8x16, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x8x16, .f32⟩
  | .hbm, ⟨53, _⟩ => ⟨S800000x8x16, .f32⟩
  | .hbm, ⟨54, _⟩ => ⟨S_, .f32⟩
  | .hbm, ⟨55, _⟩ => ⟨S800000x8x16, .f32⟩
  | .hbm, ⟨56, _⟩ => ⟨S800000x8x16, .f32⟩
  | .hbm, ⟨57, _⟩ => ⟨S800000x8x16, .f32⟩
  | .hbm, ⟨58, _⟩ => ⟨S_, .f32⟩
  | .hbm, ⟨59, _⟩ => ⟨S800000x8, .f32⟩
  | .hbm, ⟨60, _⟩ => ⟨S800000x8x1, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S800000x8x1, .f32⟩
  | .hbm, ⟨65, _⟩ => ⟨S800000x8x1, .f32⟩
  | .hbm, ⟨66, _⟩ => ⟨S_, .f32⟩
  | .hbm, ⟨67, _⟩ => ⟨S800000x8x1, .f32⟩
  | .hbm, ⟨68, _⟩ => ⟨S800000x8x1, .f32⟩
  | .hbm, ⟨69, _⟩ => ⟨S800000x8x1, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x8x16, .f32⟩
  | .hbm, ⟨79, _⟩ => ⟨S800000x8x16, .f32⟩
  | .hbm, ⟨80, _⟩ => ⟨S800000x8x16, .f32⟩
  | .hbm, ⟨81, _⟩ => ⟨S_, .f32⟩
  | .hbm, ⟨82, _⟩ => ⟨S50000x8x16, .f32⟩
  | .hbm, ⟨83, _⟩ => ⟨S800000x1, .i32⟩
  | .hbm, ⟨84, _⟩ => ⟨S50000x8x16, .f32⟩
  | .hbm, ⟨85, _⟩ => ⟨S_, .f32⟩
  | .hbm, ⟨86, _⟩ => ⟨S50000x8x1, .f32⟩
  | .hbm, ⟨87, _⟩ => ⟨S800000x1, .i32⟩
  | .hbm, ⟨88, _⟩ => ⟨S50000x8x1, .f32⟩
  | .hbm, ⟨89, _⟩ => ⟨S_, .f32⟩
  | .hbm, ⟨90, _⟩ => ⟨S50000x8x1, .f32⟩
  | .hbm, ⟨91, _⟩ => ⟨S50000x8x1, .f32⟩
  | .hbm, ⟨92, _⟩ => ⟨S50000x8x16, .f32⟩
  | .hbm, ⟨93, _⟩ => ⟨S50000x8x16, .f32⟩
  | .hbm, ⟨94, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_c_0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_1 : Ref sig .tc := ⟨.hbm, 44, rfl⟩
abbrev main_v31 : Ref sig .tc := ⟨.hbm, 45, rfl⟩
abbrev main_v32 : Ref sig .tc := ⟨.hbm, 46, rfl⟩
abbrev main_c_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_3 : Ref sig .tc := ⟨.hbm, 58, rfl⟩
abbrev main_v42 : Ref sig .tc := ⟨.hbm, 59, rfl⟩
abbrev main_v43 : Ref sig .tc := ⟨.hbm, 60, rfl⟩
abbrev main_cst_4 : Ref sig .tc := ⟨.hbm, 61, rfl⟩
abbrev main_cst_5 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v44 : Ref sig .tc := ⟨.hbm, 68, rfl⟩
abbrev main_v45 : Ref sig .tc := ⟨.hbm, 69, rfl⟩
abbrev main_c_6 : Ref sig .tc := ⟨.hbm, 70, rfl⟩
abbrev main_v46 : Ref sig .tc := ⟨.hbm, 71, rfl⟩
abbrev main_v47 : Ref sig .tc := ⟨.hbm, 72, rfl⟩
abbrev main_c_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_9 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x8x16 : S50000x128.ShapeCasts S50000x8x16
  bcast_S1x128_S800000x128_0_1 : S1x128.BroadcastsInDim S800000x128 (![0, 1] : Fin 2 → Fin S800000x128.rank)
  shapeCasts_S800000x128_S800000x8x16 : S800000x128.ShapeCasts S800000x8x16
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x16 : S_.BroadcastsInDim S800000x8x16 (![] : Fin 0 → Fin S800000x8x16.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S50000x8x16_S50000x128 : S50000x8x16.ShapeCasts S50000x128
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  scatter_S50000x8x1_S800000x1_S800000x8x1_12_0_0_1_wf : ScatterDims.WF S50000x8x1 S800000x1 S800000x8x1 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf

class Facts : Prop extends Facts₀ where

variable [Facts]
-- ==== Proof.Spec.lean ====
/-
  THE FUNCTION BOTH PROGRAMS COMPUTE, over the extended reals, index by index.

  Inputs: node features `x : [50000, 128]`, edge features `ea : [800000, 128]`, an edge list `ei : [2, 800000]` of 32-bit
  words (row 0 the source, row 1 the destination of each edge), and four affine maps `(Wq, bq)`, `(Wk, bk)`, `(We, be)`,
  `(Wv, bv)` of a 128-vector.  With `Q = x·Wq + bq`, `K = x·Wk + bk`, `V = x·Wv + bv` per node and `E = ea·We + be` per edge,
  the 128 lanes are 8 heads of 16.  Edge `e` and head `h` have the score
      `score e h = exp (clip (Σ_{d<16} K[src e, 16h+d] · Q[dst e, 16h+d] · ¼ · E[e, 16h+d]) to [-5, 5])`,
  the edge's message at lane `j` is `V[src e, j] · score e (j / 16)`, and node `n` receives
      `H n j = (Σ_{e : dst e = n} msg e j) / ((Σ_{e : dst e = n} score e (j / 16)) + ε)`.
  The sums over the edges into `n` run over the edges whose destination WORD, read as a signed integer, is `n`.

  The second half states the same score and message the way a dense kernel computes them — the per-head sum as a product
  with a 0/1 matrix `G : [128, 8]`, `G[l, h] = 1` iff `l / 16 = h`, and the spread of a head's score over its 16 lanes as a
  product with the transpose — and proves that these are the score and the message above.  Over the extended reals
  `a · 0 = 0` and `a · 1 = a` for EVERY `a`, infinite or not, so no finiteness is needed.
-/
import Idealize.ShloMosaic.Lib.ValueIdx
import Idealize.ShloMosaic.PureOps.Ideal

noncomputable section

open scoped BigOperators

namespace Cert.Spec

open Idealize.ShloMosaic Idealize.ShloMosaic.ValueIdx

/-- The literal shapes. -/
abbrev SN : Shape := ⟨2, ![50000, 128]⟩
abbrev SE : Shape := ⟨2, ![800000, 128]⟩
abbrev SI : Shape := ⟨2, ![2, 800000]⟩
abbrev SW : Shape := ⟨2, ![128, 128]⟩
abbrev SB : Shape := ⟨1, ![128]⟩
abbrev SG : Shape := ⟨2, ![128, 8]⟩
abbrev SGT : Shape := ⟨2, ![8, 128]⟩

/-- The constants, as the words both programs carry: ¼, −5, 5 and ε (the float nearest 10⁻⁶). -/
abbrev quarter : EReal := Ideal.ofBits .f32 0x3E800000#32
abbrev lo : EReal := Ideal.ofBits .f32 0xC0A00000#32
abbrev hi : EReal := Ideal.ofBits .f32 0x40A00000#32
abbrev eps : EReal := Ideal.ofBits .f32 0x358637BD#32

/-- An affine map applied to row `n` of a table, read at lane `j`: `Σ_k x[n, k] · W[k, j] + b[j]`. -/
def lin {N : Nat} (x : (⟨2, ![N, 128]⟩ : Shape).Idx → EReal) (W : SW.Idx → EReal) (b : SB.Idx → EReal)
    (n : Fin N) (j : Fin 128) : EReal :=
  (∑ k : Fin 128, x (ix2 n k) * W (ix2 k j)) + b (ix1 j)

/-- The node a 32-bit word names: read signed and clamped into the table's rows. -/
def node (w : BitVec 32) : Fin 50000 := ⟨min w.toInt.toNat (50000 - 1), by omega⟩

/-- Lane `16 h + d` of head `h`. -/
def lane (h : Fin 8) (d : Fin 16) : Fin 128 := ⟨h.val * 16 + d.val, by omega⟩
/-- The head a lane belongs to. -/
def head (j : Fin 128) : Fin 8 := ⟨j.val / 16, by omega⟩

theorem head_lane (h : Fin 8) (d : Fin 16) : head (lane h d) = h := by
  apply Fin.ext; show (h.val * 16 + d.val) / 16 = h.val; omega

section
variable (x : SN.Idx → EReal) (ea : SE.Idx → EReal) (ei : SI.Idx → BitVec 32)
  (Wq : SW.Idx → EReal) (bq : SB.Idx → EReal) (Wk : SW.Idx → EReal) (bk : SB.Idx → EReal)
  (We : SW.Idx → EReal) (be : SB.Idx → EReal) (Wv : SW.Idx → EReal) (bv : SB.Idx → EReal)

/-- The source and destination words of edge `e`. -/
def srcw (e : Fin 800000) : BitVec 32 := ei (ix2 (0 : Fin 2) e)
def dstw (e : Fin 800000) : BitVec 32 := ei (ix2 (1 : Fin 2) e)

/-- The score of edge `e` at head `h`. -/
def score (e : Fin 800000) (h : Fin 8) : EReal :=
  Ideal.exp (min hi (max lo (∑ d : Fin 16,
    lin x Wk bk (node (srcw ei e)) (lane h d) * lin x Wq bq (node (dstw ei e)) (lane h d) * quarter
      * lin ea We be e (lane h d))))

/-- The message of edge `e` at lane `j`. -/
def msg (e : Fin 800000) (j : Fin 128) : EReal :=
  lin x Wv bv (node (srcw ei e)) j * score x ea ei Wq bq Wk bk We be e (head j)

/-- The edges into node `n`: those whose destination word, read signed, is `n`. -/
def into (n : Fin 50000) : Finset (Fin 800000) :=
  Finset.univ.filter (fun e : Fin 800000 => (dstw ei e).toInt = (n.val : ℤ))

/-- The result at node `n`, lane `j`. -/
def H (n : Fin 50000) (j : Fin 128) : EReal :=
  Ideal.div (∑ e ∈ into ei n, msg x ea ei Wq bq Wk bk We be Wv bv e j)
    ((∑ e ∈ into ei n, score x ea ei Wq bq Wk bk We be e (head j)) + eps)

end

/-! ## The dense forms: a per-head sum and a per-head spread as products with a 0/1 matrix -/

/-- A lane is a head and a position inside the head. -/
def laneEquiv : (Fin 8 × Fin 16) ≃ Fin 128 where
  toFun q := lane q.1 q.2
  invFun l := (head l, ⟨l.val % 16, Nat.mod_lt _ (by decide)⟩)
  left_inv q := by
    refine Prod.ext (head_lane q.1 q.2) (Fin.ext ?_)
    show (q.1.val * 16 + q.2.val) % 16 = q.2.val
    have := q.2.isLt; omega
  right_inv l := by
    refine Fin.ext ?_
    show l.val / 16 * 16 + l.val % 16 = l.val
    omega

/-- Summing 128 lanes against the indicator of head `h` is summing the 16 lanes of head `h`. -/
theorem sum_mul_indicator (p : Fin 128 → EReal) (g : Fin 128 → EReal) (h : Fin 8)
    (hg : ∀ l : Fin 128, g l = if head l = h then 1 else 0) :
    ∑ l : Fin 128, p l * g l = ∑ d : Fin 16, p (lane h d) := by
  rw [← Equiv.sum_comp laneEquiv, Fintype.sum_prod_type]
  have he : ∀ q : Fin 8 × Fin 16, laneEquiv q = lane q.1 q.2 := fun _ => rfl
  simp only [he, hg, head_lane]
  rw [Finset.sum_eq_single h]
  · simp
  · intro h' _ hne; simp [hne]
  · intro hh; exact absurd (Finset.mem_univ h) hh

/-- Summing 8 head values against the indicator of lane `j`'s head picks that head's value. -/
theorem sum_mul_indicator_head (s : Fin 8 → EReal) (g : Fin 8 → EReal) (j : Fin 128)
    (hg : ∀ h : Fin 8, g h = if head j = h then 1 else 0) :
    ∑ h : Fin 8, s h * g h = s (head j) := by
  simp only [hg]
  rw [Finset.sum_eq_single (head j)]
  · simp
  · intro h' _ hne; simp [Ne.symm hne]
  · intro hh; exact absurd (Finset.mem_univ _) hh

end Cert.Spec

end
-- ==== Proof.LibScatterRows.lean ====
/-
  AN ACCUMULATING ROW SCATTER READ AT AN INDEX, at the ideal instance. `stablehlo.scatter` with an `add` body of updates
  `upd : [E, C]` into an operand `x : [N, C]` at a column of scatter indices `idx : [E, 1]` with update_window_dims `[1]`,
  inserted_window_dims `[0]`, scatter_dims_to_operand_dims `[0]` and index_vector_dim `1` — what `x.at[idx].add(upd)` of
  a table of rows lowers to. Update element `(e, j')` lands on operand element `(idx[e, 0], j')`, the scatter index read
  as a SIGNED integer and NOT clamped: an update whose row is outside `[0, N)` is dropped. Over the extended reals the
  result at `(n, j)` is therefore `x (n, j)` plus the sum of `upd (e, j)` over the update rows `e` whose index is `n`.
  The same for a flat operand `[N]` and updates `[E]` (no window axis). General in the sizes.
-/
import Idealize.ShloMosaic.Lib.ValueIdx

noncomputable section

open scoped BigOperators

namespace Idealize.ShloMosaic.ValueIdx

open Idealize.ShloMosaic

/-! ## Where an update lands, in general -/

section General
variable {s si u : Shape}

/-- An axis is kept exactly when it is not among the removed ones. -/
theorem mem_kept_iff (axes : List (Fin s.rank)) (a : Fin s.rank) : a ∈ s.kept axes ↔ a ∉ axes := by
  simp [Shape.kept, List.mem_filter, List.mem_finRange]

/-- Update index `j` lands at operand index `i` exactly when on every axis the (signed, unclamped) start plus the
    window coordinate is `i`'s coordinate. -/
theorem resultIdx?_eq_some_iff (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hc
      have hf := Option.some.inj h
      have ha : (d.start j idx a + (d.window j a : ℤ)).toNat = (i a).val := congrArg (fun f => (f a).val) hf
      have := (hc a).1
      omega
    · exact absurd h (by simp)
  · intro h
    have hc : ∀ a, 0 ≤ d.start j idx a + (d.window j a : ℤ) ∧ d.start j idx a + (d.window j a : ℤ) < (s.size a : ℤ) := by
      intro a
      have := (i a).isLt
      rw [h a]
      omega
    rw [dif_pos hc]
    congr 1
    funext a
    refine Fin.ext ?_
    show (d.start j idx a + (d.window j a : ℤ)).toNat = (i a).val
    rw [h a]
    exact Int.toNat_natCast _

end General

/-! ## Rows: operand `[N, C]`, scatter indices `[E, 1]`, updates `[E, C]` -/

section RowsScatter

/-- The dimension numbers of an accumulating scatter of whole rows: the updates' axis 1 is the window axis (it runs
    over a row), the operand's axis 0 is the inserted one and the one a scatter index addresses, and the index vector
    lies along the scatter indices' axis 1. The conditions `wf` are decided (or assumed) on a program's literal
    shapes. -/
abbrev rowsScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (j' : Fin C)

/-- On the row axis the start of update `(e, j')` is the scatter index `idx[e, 0]`, read signed. -/
theorem rowsScatter_start_row :
    (rowsScatterDims N E C wf).start (ix2 e j') idx 0 = (idx (ix2 e (0 : Fin 1))).toInt := by
  unfold ScatterDims.start
  rw [dif_pos (show (0 : Fin 2) ∈ (rowsScatterDims N E C wf).scatterDimsToOperandDims from List.mem_singleton.mpr rfl)]
  have hsi : (rowsScatterDims N E C wf).siIdx (ix2 e j')
      ⟨List.idxOf (0 : Fin 2) (rowsScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no scatter index addresses, the start is `0`. -/
theorem rowsScatter_start_col : (rowsScatterDims N E C wf).start (ix2 e j') idx 1 = 0 := by
  unfold ScatterDims.start
  rw [dif_neg (show (1 : Fin 2) ∉ (rowsScatterDims N E C wf).scatterDimsToOperandDims from
    fun h => Nat.one_ne_zero (congrArg Fin.val (List.mem_singleton.mp h)))]

/-- The row axis is inserted: no window coordinate there. -/
theorem rowsScatter_window_row : (rowsScatterDims N E C wf).window (ix2 e j') 0 = 0 := by
  unfold ScatterDims.window
  rw [dif_neg (show (0 : Fin 2) ∉ (rowsScatterDims N E C wf).sKept from
    fun h => (mem_kept_iff _ _).mp h (List.mem_singleton.mpr rfl))]

/-- On the column axis the window coordinate of update `(e, j')` is `j'`. -/
theorem rowsScatter_window_col : (rowsScatterDims N E C wf).window (ix2 e j') 1 = j'.val := by
  unfold ScatterDims.window
  rw [dif_pos (show (1 : Fin 2) ∈ (rowsScatterDims N E C wf).sKept from
    (mem_kept_iff _ _).mpr fun h => Nat.one_ne_zero (congrArg Fin.val (List.mem_singleton.mp h)))]
  rfl

/-- WHERE A ROW UPDATE LANDS: update `(e, j')` lands on operand element `(n, j)` exactly when the scatter index
    `idx[e, 0]`, read signed, is `n`, and the columns agree. -/
theorem rowsScatter_resultIdx?_eq_some (n : Fin N) (j : Fin C) :
    (rowsScatterDims N E C wf).resultIdx? (ix2 e j') idx = some (ix2 n j)
      ↔ (idx (ix2 e (0 : Fin 1))).toInt = (n.val : ℤ) ∧ j' = j := by
  rw [resultIdx?_eq_some_iff]
  constructor
  · intro h
    have h0 := h 0
    have h1 := h 1
    rw [rowsScatter_start_row, rowsScatter_window_row] at h0
    rw [rowsScatter_start_col, rowsScatter_window_col] at h1
    have h0' : (idx (ix2 e (0 : Fin 1))).toInt + ((0 : Nat) : ℤ) = (n.val : ℤ) := h0
    have h1' : (0 : ℤ) + (j'.val : ℤ) = (j.val : ℤ) := h1
    exact ⟨by omega, Fin.ext (by omega)⟩
  · rintro ⟨h0, rfl⟩ a
    match a with
    | ⟨0, _⟩ =>
      show (rowsScatterDims N E C wf).start (ix2 e j') idx 0 + ((rowsScatterDims N E C wf).window (ix2 e j') 0 : ℤ) = (n.val : ℤ)
      rw [rowsScatter_start_row, rowsScatter_window_row, h0]
      simp
    | ⟨1, _⟩ =>
      show (rowsScatterDims N E C wf).start (ix2 e j') idx 1 + ((rowsScatterDims N E C wf).window (ix2 e j') 1 : ℤ) = (j'.val : ℤ)
      rw [rowsScatter_start_col, rowsScatter_window_col]
      simp

end RowsScatter

section RowsScatterRead

/-- THE ACCUMULATING ROW SCATTER READ AT `(n, j)`, over the extended reals: the operand's element plus the sum, over
    the update rows `e` whose scatter index `idx[e, 0]` (read signed) is `n`, of the update's element `(e, j)`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (j : Fin C) :
    Host.scatterAdd (F := Ideal) (rowsScatterDims N E C wf) x idx upd (ix2 n j)
      = x (ix2 n j)
        + ∑ e ∈ Finset.univ.filter (fun e : Fin E => (idx (ix2 e (0 : Fin 1))).toInt = (n.val : ℤ)), upd (ix2 e j) := by
  show x (ix2 n j) + ∑ v ∈ Finset.univ.filter
      (fun v => (rowsScatterDims N E C wf).resultIdx? v idx = some (ix2 n j)), upd v = _
  congr 1
  rw [Finset.sum_filter, sum_idx2, Finset.sum_filter]
  refine Finset.sum_congr rfl fun e _ => ?_
  simp only [rowsScatter_resultIdx?_eq_some]
  by_cases ht : (idx (ix2 e (0 : Fin 1))).toInt = (n.val : ℤ)
  · simp only [ht, true_and, if_true]
    exact Finset.sum_ite_eq' Finset.univ j (fun c => upd (ix2 e c)) |>.trans (if_pos (Finset.mem_univ j))
  · simp only [ht, false_and, if_false, Finset.sum_const_zero]

end RowsScatterRead

/-! ## Flat: operand `[N]`, scatter indices `[E, 1]`, updates `[E]` -/

section FlatScatter

/-- A rank-1 index is its one coordinate … -/
def idxEquiv1 {n : Nat} : (⟨1, ![n]⟩ : Shape).Idx ≃ Fin n where
  toFun i := i 0
  invFun a := ix1 a
  left_inv i := (eq_ix1 i).symm
  right_inv _ := rfl
/-- … so a sum over the rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an accumulating scatter of scalars into a flat operand: the updates have no window
    axis, the operand's one axis is inserted and is the one a scatter index addresses, and the index vector lies along
    the scatter indices' axis 1. -/
abbrev flatScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The start of update `e` is the scatter index `idx[e, 0]`, read signed. -/
theorem flatScatter_start :
    (flatScatterDims N E wf).start (ix1 e) idx 0 = (idx (ix2 e (0 : Fin 1))).toInt := by
  unfold ScatterDims.start
  rw [dif_pos (show (0 : Fin 1) ∈ (flatScatterDims N E wf).scatterDimsToOperandDims from List.mem_singleton.mpr rfl)]
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: no window coordinate. -/
theorem flatScatter_window : (flatScatterDims N E wf).window (ix1 e) 0 = 0 := by
  unfold ScatterDims.window
  rw [dif_neg (show (0 : Fin 1) ∉ (flatScatterDims N E wf).sKept from
    fun h => (mem_kept_iff _ _).mp h (List.mem_singleton.mpr rfl))]

/-- WHERE A FLAT UPDATE LANDS: update `e` lands on operand element `n` exactly when the scatter index `idx[e, 0]`,
    read signed, is `n`. -/
theorem flatScatter_resultIdx?_eq_some (n : Fin N) :
    (flatScatterDims N E wf).resultIdx? (ix1 e) idx = some (ix1 n)
      ↔ (idx (ix2 e (0 : Fin 1))).toInt = (n.val : ℤ) := by
  rw [resultIdx?_eq_some_iff]
  constructor
  · intro h
    have h0 := h 0
    rw [flatScatter_start, flatScatter_window] at h0
    have h0' : (idx (ix2 e (0 : Fin 1))).toInt + ((0 : Nat) : ℤ) = (n.val : ℤ) := h0
    omega
  · intro h0 a
    match a with
    | ⟨0, _⟩ =>
      show (flatScatterDims N E wf).start (ix1 e) idx 0 + ((flatScatterDims N E wf).window (ix1 e) 0 : ℤ) = (n.val : ℤ)
      rw [flatScatter_start, flatScatter_window, h0]
      simp

end FlatScatter

section FlatScatterRead

/-- THE ACCUMULATING FLAT SCATTER READ AT `n`, over the extended reals: the operand's element plus the sum, over the
    updates `e` whose scatter index `idx[e, 0]` (read signed) is `n`, of the update `e`. -/
theorem scatterAdd_flat_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (flatScatterDims N E wf) x idx upd (ix1 n)
      = x (ix1 n)
        + ∑ e ∈ Finset.univ.filter (fun e : Fin E => (idx (ix2 e (0 : Fin 1))).toInt = (n.val : ℤ)), upd (ix1 e) := by
  show x (ix1 n) + ∑ v ∈ Finset.univ.filter
      (fun v => (flatScatterDims N E wf).resultIdx? v idx = some (ix1 n)), upd v = _
  congr 1
  rw [Finset.sum_filter, sum_idx1, Finset.sum_filter]
  refine Finset.sum_congr rfl fun e _ => ?_
  simp only [flatScatter_resultIdx?_eq_some]

end FlatScatterRead

end Idealize.ShloMosaic.ValueIdx

end
-- ==== Proof.KernelTail.lean ====
/-
  THE HOST OPERATIONS AFTER THE SECOND REGION, as one function and read at an index.

  After the message and score arrays `msg : [800000, 128]`, `score : [800000, 8]` are written, the program scatter-adds
  their rows into zero tables at the destination column `dst : [800000]` — node `n` receives the rows of the edges whose
  destination word, read signed, is `n` —, views the summed messages as `[50000, 8, 16]` and the summed scores as
  `[50000, 8, 1]`, adds ε to the scores, spreads them over the 16 lanes of their head, divides, and views the quotient
  as `[50000, 128]` again.  At node `n` and lane `j` that is
      `(0 + Σ_{e : dst e = n} msg e j) / ((0 + Σ_{e : dst e = n} score e (j / 16)) + ε)`.
-/
import proofs.«413665_j11476152615031_3_alg».proof.Proof.KernelRun
import proofs.«413665_j11476152615031_3_alg».proof.Proof.Spec
import proofs.«413665_j11476152615031_3_alg».proof.Proof.LibScatterRows
import Idealize.ShloMosaic.Lib.StableHlo.Run
import Idealize.ShloMosaic.Lib.Pipeline.Value
import Idealize.ShloMosaic.PureOps.Ideal.Laws

set_option maxRecDepth 16384

noncomputable section

open scoped BigOperators

namespace Cert.KernelIdeal.Tail

open Cert.KernelIdeal Cert.KernelIdeal.Gen Idealize.ShloMosaic Idealize.ShloMosaic.TcCoe Idealize.ShloMosaic.ValueIdx
open Idealize.ShloMosaic.StableHlo

/-- The tail as one function of the destination column and the two arrays the second region leaves. -/
def tailFn (dst : IVec S800000 32) (msg : FVec Ideal S800000x128 .f32) (score : FVec Ideal S800000x8 .f32) :
    FVec Ideal S50000x128 .f32 :=
  shapeCast S50000x128
    (Host.divf (F := Ideal)
      (shapeCast S50000x8x16
        (Host.scatterAdd (F := Ideal) scatter_S50000x128_S800000x1_S800000x128_1_0_0_1
          (broadcastInDim S50000x128 ![] bcast_S_S50000x128 (constant (F := Ideal) S_ .f32 0x00000000#32))
          (broadcastInDim S800000x1 ![0] bcast_S800000_S800000x1_0 dst) msg)
        shapeCasts_S50000x128_S50000x8x16)
      (broadcastInDim S50000x8x16 ![0, 1, 2] bcast_S50000x8x1_S50000x8x16_0_1_2
        (addf
          (shapeCast S50000x8x1
            (Host.scatterAdd (F := Ideal) scatter_S50000x8_S800000x1_S800000x8_1_0_0_1
              (broadcastInDim S50000x8 ![] bcast_S_S50000x8 (constant (F := Ideal) S_ .f32 0x00000000#32))
              (broadcastInDim S800000x1 ![0] bcast_S800000_S800000x1_0 dst) score)
            shapeCasts_S50000x8_S50000x8x1)
          (broadcastInDim S50000x8x1 ![] bcast_S_S50000x8x1 (constant (F := Ideal) S_ .f32 0x358637BD#32)))))
    shapeCasts_S50000x8x16_S50000x128

set_option maxHeartbeats 4000000 in
/-- The result buffer after the tail's sixteen operations, from any contents: the tail's function of the
    destination column's and the two arrays' contents. -/
theorem tail_eq (X : Valuation τ sig (Elt Ideal)) :
    StableHlo.after (hostOps2 (F := Ideal)) X (Proc.devRef .tc main_v32)
      = tailFn (X (Proc.devRef .tc main_v4)) (X (Proc.devRef .tc main_v19_0)) (X (Proc.devRef .tc main_v19_1)) := by
  after_results_simp
  rfl

/-- The host's quotient, element by element, over the extended reals. -/
theorem hostDivf_apply {s : Shape} {φ : FTy} (a b : FVec Ideal s φ) (i : s.Idx) :
    Host.divf (F := Ideal) a b i = Ideal.div (a i) (b i) := rfl

/-- A broadcast of the zero word is `0` at every index. -/
theorem zeros_apply {t : Shape} (hb : S_.BroadcastsInDim t (![] : Fin 0 → Fin t.rank)) (i : t.Idx) :
    broadcastInDim t ![] hb (constant (F := Ideal) S_ .f32 0x00000000#32) i = (0 : EReal) := by
  rw [broadcastInDim_apply _ hb _ i ix0 (fun a => a.elim0)]
  exact Ideal.ofBits_zero_f32

/-- The destination column as the scatter's index column, read at row `e`. -/
theorem dstcol_apply (dst : IVec S800000 32) (e : Fin 800000) :
    broadcastInDim S800000x1 ![0] bcast_S800000_S800000x1_0 dst (ix2 e (0 : Fin 1)) = dst (ix1 e) :=
  broadcastInDim_apply _ bcast_S800000_S800000x1_0 dst (ix2 e (0 : Fin 1)) (ix1 e) (fun a => match a with
    | ⟨0, _⟩ => by show e.val = if (800000 : Nat) = 1 then 0 else e.val; rw [if_neg (by decide)])

/-- The tail at node `n`, lane `j`. -/
theorem tail_apply (dst : IVec S800000 32) (msg : FVec Ideal S800000x128 .f32) (score : FVec Ideal S800000x8 .f32)
    (n : Fin 50000) (j : Fin 128) :
    tailFn dst msg score (ix2 n j)
      = Ideal.div
          (∑ e ∈ Finset.univ.filter (fun e : Fin 800000 => (dst (ix1 e)).toInt = (n.val : ℤ)), msg (ix2 e j))
          ((∑ e ∈ Finset.univ.filter (fun e : Fin 800000 => (dst (ix1 e)).toInt = (n.val : ℤ)),
              score (ix2 e (Cert.Spec.head j))) + Cert.Spec.eps) := by
  have hj : j.val < 128 := j.isLt
  have hn : n.val < 50000 := n.isLt
  unfold tailFn
  rw [shapeCast_apply _ shapeCasts_S50000x8x16_S50000x128 (ix2 n j)
    (ix3 n (Cert.Spec.head j) (⟨j.val % 16, Nat.mod_lt _ (by decide)⟩ : Fin 16))
    (by rewrite [Shape.rowMajor_val_three, Shape.rowMajor_val_two]
        show (n.val * 8 + j.val / 16) * 16 + j.val % 16 = n.val * 128 + j.val
        omega)]
  rw [hostDivf_apply]
  refine congrArg₂ Ideal.div ?_ ?_
  · -- the summed messages, viewed by heads, at (n, j / 16, j % 16): the row scatter at (n, j)
    rw [shapeCast_apply _ shapeCasts_S50000x128_S50000x8x16
      (ix3 n (Cert.Spec.head j) (⟨j.val % 16, Nat.mod_lt _ (by decide)⟩ : Fin 16)) (ix2 n j)
      (by rewrite [Shape.rowMajor_val_three, Shape.rowMajor_val_two]
          show n.val * 128 + j.val = (n.val * 8 + j.val / 16) * 16 + j.val % 16
          omega)]
    refine (scatterAdd_rows_apply Facts₀.scatter_S50000x128_S800000x1_S800000x128_1_0_0_1_wf _ _ _ n j).trans ?_
    rw [zeros_apply, zero_add]
    refine Finset.sum_congr ?_ fun _ _ => rfl
    exact Finset.filter_congr fun e _ => by rw [dstcol_apply]
  · -- the summed scores plus ε, spread over the head's lanes
    rw [broadcastInDim_apply _ bcast_S50000x8x1_S50000x8x16_0_1_2 _
      (ix3 n (Cert.Spec.head j) (⟨j.val % 16, Nat.mod_lt _ (by decide)⟩ : Fin 16))
      (ix3 n (Cert.Spec.head j) (0 : Fin 1)) (fun a => match a with
        | ⟨0, _⟩ => by show n.val = if (50000 : Nat) = 1 then 0 else n.val; rw [if_neg (by decide)]
        | ⟨1, _⟩ => by show j.val / 16 = if (8 : Nat) = 1 then 0 else j.val / 16; rw [if_neg (by decide)]
        | ⟨2, _⟩ => by show (0 : Nat) = if (1 : Nat) = 1 then 0 else j.val % 16; rw [if_pos rfl])]
    rw [addf_apply]
    refine congrArg₂ (· + ·) ?_ (broadcastInDim_apply _ bcast_S_S50000x8x1 _ _ ix0 (fun a => a.elim0))
    rw [shapeCast_apply _ shapeCasts_S50000x8_S50000x8x1 (ix3 n (Cert.Spec.head j) (0 : Fin 1)) (ix2 n (Cert.Spec.head j))
      (by rewrite [Shape.rowMajor_val_three, Shape.rowMajor_val_two]
          show n.val * 8 + j.val / 16 = (n.val * 8 + j.val / 16) * 1 + 0
          omega)]
    refine (scatterAdd_rows_apply Facts₀.scatter_S50000x8_S800000x1_S800000x8_1_0_0_1_wf _ _ _ n (Cert.Spec.head j)).trans ?_
    rw [zeros_apply, zero_add]
    refine Finset.sum_congr ?_ fun _ _ => rfl
    exact Finset.filter_congr fun e _ => by rw [dstcol_apply]

end Cert.KernelIdeal.Tail

end
-- ==== Proof.KernelMid.lean ====
/-
  THE HOST OPERATIONS BETWEEN THE TWO REGIONS, as functions of what the first region leaves.

  From the edge list `ei : [2, 800000]` the program takes row 0 (sources) and row 1 (destinations) as flat columns.
  `take` of a table at a column of indices first wraps a negative index by the table's 50000 rows, then gathers the rows
  (the gather clamps), and finally replaces every row whose wrapped index is outside `[0, 49999]` by the NaN word: so the
  gathered key-and-value rows `take256 KV src` split into `K[src]` (columns 0–127) and `V[src]` (columns 128–255), and
  `take128 Q dst` is `Q[dst]`.  The 0/1 grouping matrix is `G[l, h] = (l div 16 == h)` as a float, with the integer floor
  division spelt out as jax spells it (truncating quotient, corrected by one when the signs differ and the remainder is
  not zero), and `GT` is its transpose.
-/
import proofs.«413665_j11476152615031_3_alg».proof.Proof.KernelRun
import Idealize.ShloMosaic.Lib.StableHlo.Run
import Idealize.ShloMosaic.Lib.Pipeline.Value
import Idealize.ShloMosaic.Lib.ValueIdx

set_option maxRecDepth 16384

noncomputable section

namespace Cert.KernelIdeal.Mid

open Cert.KernelIdeal Cert.KernelIdeal.Gen Idealize.ShloMosaic Idealize.ShloMosaic.TcCoe Idealize.ShloMosaic.ValueIdx
open Idealize.ShloMosaic.StableHlo

/-- Row 0 of the edge list as a flat column: the sources. -/
def edgeRow0 (ei : IVec S2x800000 32) : IVec S800000 32 :=
  shapeCast S800000 (extractStridedSlice S1x800000 ![0, 0] ei slices_S2x800000_S1x800000_0_0) shapeCasts_S1x800000_S800000
/-- Row 1 of the edge list as a flat column: the destinations. -/
def edgeRow1 (ei : IVec S2x800000 32) : IVec S800000 32 :=
  shapeCast S800000 (extractStridedSlice S1x800000 ![1, 0] ei slices_S2x800000_S1x800000_1_0) shapeCasts_S1x800000_S800000

/-- `take`'s index normalisation: a negative index counts from the table's end. -/
def wrapIdx (idx : IVec S800000 32) : IVec S800000 32 :=
  select (cmpi .slt idx (broadcastInDim S800000 ![] bcast_S_S800000 (constantI S_ 32 0#32)))
    (addi idx (broadcastInDim S800000 ![] bcast_S_S800000 (constantI S_ 32 50000#32))) idx

/-- The wrapped indices as the gather's index column. -/
def idxCol (idx : IVec S800000 32) : IVec S800000x1 32 :=
  broadcastInDim S800000x1 ![0] bcast_S800000_S800000x1_0 (wrapIdx idx)

/-- Per row: is the wrapped index inside `[0, 49999]`? -/
def inRange (col : IVec S800000x1 32) : IVec S800000 1 :=
  Host.reduce IntOp.andi
    (andi (cmpi .sge col (broadcastInDim S800000x1 ![] bcast_S_S800000x1 (constantI S_ 32 0#32)))
      (cmpi .sle col (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- `take` of a 256-column table: gathered rows, the NaN word where the index is out of range. -/
def take256 (tbl : FVec Ideal S50000x256 .f32) (idx : IVec S800000 32) : FVec Ideal S800000x256 .f32 :=
  select (broadcastInDim S800000x256 ![0] bcast_S800000_S800000x256_0 (inRange (idxCol idx)))
    (Host.gather gather_S50000x256_S800000x1_S800000x256_1_0_n_n_0_1_1256 tbl (idxCol idx))
    (broadcastInDim S800000x256 ![] bcast_S_S800000x256 (constant (F := Ideal) S_ .f32 0x7FC00000#32))

/-- `take` of a 128-column table. -/
def take128 (tbl : FVec Ideal S50000x128 .f32) (idx : IVec S800000 32) : FVec Ideal S800000x128 .f32 :=
  select (broadcastInDim S800000x128 ![0] bcast_S800000_S800000x128_0 (inRange (idxCol idx)))
    (Host.gather gather_S50000x128_S800000x1_S800000x128_1_0_n_n_0_1_1128 tbl (idxCol idx))
    (broadcastInDim S800000x128 ![] bcast_S_S800000x128 (constant (F := Ideal) S_ .f32 0x7FC00000#32))

/-- The key rows of the sources: columns 0–127 of the gathered key-and-value rows. -/
def ksrcFn (ei : IVec S2x800000 32) (kv : FVec Ideal S50000x256 .f32) : FVec Ideal S800000x128 .f32 :=
  extractStridedSlice S800000x128 ![0, 0] (take256 kv (edgeRow0 ei)) slices_S800000x256_S800000x128_0_0
/-- The value rows of the sources: columns 128–255. -/
def vsrcFn (ei : IVec S2x800000 32) (kv : FVec Ideal S50000x256 .f32) : FVec Ideal S800000x128 .f32 :=
  extractStridedSlice S800000x128 ![0, 128] (take256 kv (edgeRow0 ei)) slices_S800000x256_S800000x128_0_128
/-- The query rows of the destinations. -/
def qdstFn (ei : IVec S2x800000 32) (q : FVec Ideal S50000x128 .f32) : FVec Ideal S800000x128 .f32 :=
  take128 q (edgeRow1 ei)

/-- The integer floor division by 16 of a column, as jax spells it. -/
def floorDiv16 (a : IVec S128x1 32) : IVec S128x1 32 :=
  select
    (andi
      (cmpi .ne (signi a) (broadcastInDim S128x1 ![] bcast_S_S128x1 (signi (id (constantI S_ 32 16#32)))))
      (cmpi .ne (Host.remsi a (broadcastInDim S128x1 ![] bcast_S_S128x1 (id (constantI S_ 32 16#32))))
        (broadcastInDim S128x1 ![] bcast_S_S128x1 (constantI S_ 32 0#32))))
    (subi (Host.divsi a (broadcastInDim S128x1 ![] bcast_S_S128x1 (id (constantI S_ 32 16#32))))
      (broadcastInDim S128x1 ![] bcast_S_S128x1 (constantI S_ 32 1#32)))
    (Host.divsi a (broadcastInDim S128x1 ![] bcast_S_S128x1 (id (constantI S_ 32 16#32))))

/-- The grouping matrix: lane `l`'s head against the head number, as a float. -/
def Gmat : FVec Ideal S128x8 .f32 :=
  uitofp .f32
    (cmpi .eq
      (broadcastInDim S128x8 ![0, 1] bcast_S128x1_S128x8_0_1
        (floorDiv16 (broadcastInDim S128x1 ![0] bcast_S128_S128x1_0 (iotaInDim S128 32 0))))
      (broadcastInDim S128x8 ![0, 1] bcast_S1x8_S128x8_0_1
        (broadcastInDim S1x8 ![1] bcast_S8_S1x8_1 (iotaInDim S8 32 0))))

/-- Its transpose. -/
def GTmat : FVec Ideal S8x128 .f32 := transpose S8x128 [1, 0] Gmat transposes_S128x8_S8x128_1_0

/-! ## Typed references: contents carried to a buffer and back -/

/-- Contents carried to a typed reference's buffer and back are the contents. -/
theorem ofBuf_toBuf {T : BufTy} (x : StableHlo.TRef sig T) (v : T.Contents (Elt Ideal)) : x.ofBuf (x.toBuf v) = v := by
  obtain ⟨r, h, h1, h2⟩ := x
  subst h
  rfl

/-- At a literal reference the carrying is the identity: its type is the value's by computation. -/
theorem toBuf_v5 (p1 p2 p3) (v : (⟨S800000x256, .f32⟩ : BufTy).Contents (Elt Ideal)) :
    (StableHlo.TRef.of (sig := sig) main_v5 p1 p2 p3).toBuf v = v := rfl
theorem toBuf_v8 (p1 p2 p3) (v : (⟨S800000x128, .f32⟩ : BufTy).Contents (Elt Ideal)) :
    (StableHlo.TRef.of (sig := sig) main_v8 p1 p2 p3).toBuf v = v := rfl
theorem ofBuf_v2 (p1 p2 p3) (v : (main_v2 : Ref sig .tc).ty.Contents (Elt Ideal)) :
    (StableHlo.TRef.of (sig := sig) (T := ⟨S800000, .i32⟩) main_v2 p1 p2 p3).ofBuf v = v := rfl
theorem ofBuf_v4 (p1 p2 p3) (v : (main_v4 : Ref sig .tc).ty.Contents (Elt Ideal)) :
    (StableHlo.TRef.of (sig := sig) (T := ⟨S800000, .i32⟩) main_v4 p1 p2 p3).ofBuf v = v := rfl
theorem ofBuf_kv (p1 p2 p3) (v : (main_v0_1 : Ref sig .tc).ty.Contents (Elt Ideal)) :
    (StableHlo.TRef.of (sig := sig) (T := ⟨S50000x256, .f32⟩) main_v0_1 p1 p2 p3).ofBuf v = v := rfl
theorem ofBuf_q (p1 p2 p3) (v : (main_v0_0 : Ref sig .tc).ty.Contents (Elt Ideal)) :
    (StableHlo.TRef.of (sig := sig) (T := ⟨S50000x128, .f32⟩) main_v0_0 p1 p2 p3).ofBuf v = v := rfl

section Fold
variable (X : Valuation τ sig (Elt Ideal))

/-- The buffer contents when the second region is entered, from the contents `X` the first region leaves. -/
abbrev atEntry : Valuation τ sig (Elt Ideal) :=
  StableHlo.after (hostOps1_6 (F := Ideal)) (StableHlo.after hostOps1_5 (StableHlo.after hostOps1_4
    (StableHlo.after hostOps1_3 (StableHlo.after hostOps1_2 (StableHlo.after hostOps1_1 (StableHlo.after hostOps1 X))))))

/-! ### One stretch at a time, from any contents -/

set_option maxHeartbeats 4000000 in
/-- The first stretch cuts the edge list's two rows. -/
theorem rows_v2 : StableHlo.after (hostOps1 (F := Ideal)) X (Proc.devRef .tc main_v2) = edgeRow0 (X (Proc.devRef .tc main_arg2)) := by
  after_results_simp
  rfl
set_option maxHeartbeats 4000000 in
theorem rows_v4 : StableHlo.after (hostOps1 (F := Ideal)) X (Proc.devRef .tc main_v4) = edgeRow1 (X (Proc.devRef .tc main_arg2)) := by
  after_results_simp
  rfl
set_option maxHeartbeats 4000000 in
theorem rows_kv : StableHlo.after (hostOps1 (F := Ideal)) X (Proc.devRef .tc main_v0_1) = X (Proc.devRef .tc main_v0_1) := by
  after_results_simp
set_option maxHeartbeats 4000000 in
theorem rows_q : StableHlo.after (hostOps1 (F := Ideal)) X (Proc.devRef .tc main_v0_0) = X (Proc.devRef .tc main_v0_0) := by
  after_results_simp

set_option maxHeartbeats 4000000 in
/-- The second stretch is `take` of the key-and-value table at the sources. -/
theorem take_v5 : StableHlo.after (hostOps1_1 (F := Ideal)) X (Proc.devRef .tc main_v5)
    = take256 (X (Proc.devRef .tc main_v0_1)) (X (Proc.devRef .tc main_v2)) := by
  after_results_simp
  simp only [ofBuf_toBuf]
  simp only [toBuf_v5, ofBuf_v2, ofBuf_kv]
  unfold take256 inRange idxCol wrapIdx
  rfl

set_option maxHeartbeats 4000000 in
/-- The fourth stretch is `take` of the query table at the destinations. -/
theorem take_v8 : StableHlo.after (hostOps1_3 (F := Ideal)) X (Proc.devRef .tc main_v8)
    = take128 (X (Proc.devRef .tc main_v0_0)) (X (Proc.devRef .tc main_v4)) := by
  after_results_simp
  simp only [ofBuf_toBuf]
  simp only [toBuf_v8, ofBuf_v4, ofBuf_q]
  unfold take128 inRange idxCol wrapIdx
  rfl
set_option maxHeartbeats 8000000 in
theorem take_keep_v4 : StableHlo.after (hostOps1_1 (F := Ideal)) X (Proc.devRef .tc main_v4) = X (Proc.devRef .tc main_v4) := by
  after_results_simp
set_option maxHeartbeats 8000000 in
theorem take_keep_q : StableHlo.after (hostOps1_1 (F := Ideal)) X (Proc.devRef .tc main_v0_0) = X (Proc.devRef .tc main_v0_0) := by
  after_results_simp

set_option maxHeartbeats 4000000 in
/-- The third stretch splits the gathered rows into keys and values. -/
theorem split_v6 : StableHlo.after (hostOps1_2 (F := Ideal)) X (Proc.devRef .tc main_v6)
    = extractStridedSlice S800000x128 ![0, 0] (X (Proc.devRef .tc main_v5)) slices_S800000x256_S800000x128_0_0 := by
  after_results_simp
set_option maxHeartbeats 4000000 in
theorem split_v7 : StableHlo.after (hostOps1_2 (F := Ideal)) X (Proc.devRef .tc main_v7)
    = extractStridedSlice S800000x128 ![0, 128] (X (Proc.devRef .tc main_v5)) slices_S800000x256_S800000x128_0_128 := by
  after_results_simp
set_option maxHeartbeats 4000000 in
theorem split_keep_v4 : StableHlo.after (hostOps1_2 (F := Ideal)) X (Proc.devRef .tc main_v4) = X (Proc.devRef .tc main_v4) := by
  after_results_simp
set_option maxHeartbeats 4000000 in
theorem split_keep_q : StableHlo.after (hostOps1_2 (F := Ideal)) X (Proc.devRef .tc main_v0_0) = X (Proc.devRef .tc main_v0_0) := by
  after_results_simp

set_option maxHeartbeats 8000000 in
/-- The later stretches leave the gathered arrays alone. -/
theorem keep_v6 : StableHlo.after (hostOps1_6 (F := Ideal)) (StableHlo.after hostOps1_5 (StableHlo.after hostOps1_4
    (StableHlo.after hostOps1_3 X))) (Proc.devRef .tc main_v6) = X (Proc.devRef .tc main_v6) := by
  after_results_simp
set_option maxHeartbeats 8000000 in
theorem keep_v7 : StableHlo.after (hostOps1_6 (F := Ideal)) (StableHlo.after hostOps1_5 (StableHlo.after hostOps1_4
    (StableHlo.after hostOps1_3 X))) (Proc.devRef .tc main_v7) = X (Proc.devRef .tc main_v7) := by
  after_results_simp
set_option maxHeartbeats 8000000 in
theorem keep_v8 : StableHlo.after (hostOps1_6 (F := Ideal)) (StableHlo.after hostOps1_5 (StableHlo.after hostOps1_4 X))
    (Proc.devRef .tc main_v8) = X (Proc.devRef .tc main_v8) := by
  after_results_simp

/-! ### What the second region finds -/

theorem entry_v6 : atEntry X (Proc.devRef .tc main_v6) = ksrcFn (X (Proc.devRef .tc main_arg2)) (X (Proc.devRef .tc main_v0_1)) := by
  refine (keep_v6 _).trans ((split_v6 _).trans ?_)
  rw [take_v5, rows_v2, rows_kv]
  rfl

theorem entry_v7 : atEntry X (Proc.devRef .tc main_v7) = vsrcFn (X (Proc.devRef .tc main_arg2)) (X (Proc.devRef .tc main_v0_1)) := by
  refine (keep_v7 _).trans ((split_v7 _).trans ?_)
  rw [take_v5, rows_v2, rows_kv]
  rfl

theorem entry_v8 : atEntry X (Proc.devRef .tc main_v8) = qdstFn (X (Proc.devRef .tc main_arg2)) (X (Proc.devRef .tc main_v0_0)) := by
  refine (keep_v8 _).trans ((take_v8 _).trans ?_)
  rw [split_keep_q, split_keep_v4, take_keep_q, take_keep_v4, rows_q, rows_v4]
  rfl

set_option maxHeartbeats 8000000 in
theorem entry_v17 : atEntry X (Proc.devRef .tc main_v17) = Gmat := by
  after_results_simp
  rfl

set_option maxHeartbeats 8000000 in
theorem entry_v18 : atEntry X (Proc.devRef .tc main_v18) = GTmat := by
  after_results_simp
  rfl

set_option maxHeartbeats 8000000 in
theorem entry_v4 : atEntry X (Proc.devRef .tc main_v4) = edgeRow1 (X (Proc.devRef .tc main_arg2)) := by
  after_results_simp
  rfl

set_option maxHeartbeats 8000000 in
theorem entry_arg1 : atEntry X (Proc.devRef .tc main_arg1) = X (Proc.devRef .tc main_arg1) := by
  after_results_simp

set_option maxHeartbeats 8000000 in
theorem entry_arg7 : atEntry X (Proc.devRef .tc main_arg7) = X (Proc.devRef .tc main_arg7) := by
  after_results_simp

set_option maxHeartbeats 8000000 in
theorem entry_arg8 : atEntry X (Proc.devRef .tc main_arg8) = X (Proc.devRef .tc main_arg8) := by
  after_results_simp

end Fold

end Cert.KernelIdeal.Mid

end
-- ==== Proof.LibGatherRows.lean ====
/-
  A ROW GATHER READ AT AN INDEX. `stablehlo.gather` of a rank-2 operand `x : [N, C]` at a column of start indices
  `idx : [E, 1]` with offset_dims `[1]`, collapsed_slice_dims `[0]`, start_index_map `[0]`, index_vector_dim `1` and
  slice_sizes `[1, C]` — what `x[idx]` of a table of rows lowers to — has result `[E, C]`; its element `(e, j)` is the
  operand's element `(r, j)` where the row `r` is the start index `idx[e, 0]` read as a signed integer and clamped
  into `[0, N − 1]` (StableHLO clamps every start index so that the slice fits: here the slice is one whole row).
  General in the three sizes and in the element type.
-/
import Idealize.ShloMosaic.Lib.ValueIdx

noncomputable section

open scoped BigOperators

namespace Idealize.ShloMosaic.ValueIdx

open Idealize.ShloMosaic

section RowsGather
variable {α : Type}

/-- The dimension numbers of a gather of whole rows: operand `[N, C]`, start indices `[E, 1]`, result `[E, C]`;
    the result's axis 1 is the offset axis (it runs over a row), the operand's axis 0 is collapsed and is the one
    the start index addresses, the index vector lies along the start indices' axis 1, and a slice is `1 × C`.
    The conditions `wf` are decided (or assumed) on a program's literal shapes. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: the operand at row `idx[e, 0]` — read signed, clamped into `[0, N − 1]` — and
    column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsDims N E C wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    -- the row: the clamped start; no batching coordinate, and no offset coordinate on a collapsed axis
    show (rowsDims N E C wf).start (ix2 e j) idx 0 + (rowsDims N E C wf).batchCoord (ix2 e j) 0
        + (rowsDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e j) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column: the start index map does not name this axis, so the start is 0; the offset coordinate is `j`
    show (rowsDims N E C wf).start (ix2 e j) idx 1 + (rowsDims N E C wf).batchCoord (ix2 e j) 1
        + (rowsDims N E C wf).offCoord (ix2 e j) 1 = j.val
    have h1 : (1 : Fin 2) ∉ (rowsDims N E C wf).startIndexMap := by
      intro h; exact Nat.one_ne_zero (congrArg Fin.val (List.mem_singleton.mp h))
    have hk : (1 : Fin 2) ∈ (rowsDims N E C wf).sKept :=
      (GatherDims.mem_sKept _ _).mpr
        ⟨fun h => Nat.one_ne_zero (congrArg Fin.val (List.mem_singleton.mp h)), List.not_mem_nil⟩
    rw [GatherDims.batchCoord_eq_zero _ _ _ List.not_mem_nil]
    unfold GatherDims.start GatherDims.offCoord
    rw [dif_neg h1, dif_pos hk]
    simp only [Nat.add_zero, Nat.zero_add]
    rfl

end RowsGather

end Idealize.ShloMosaic.ValueIdx

end
-- ==== Proof.LibReduceAnd.lean ====
/-
  `jnp.all` in the other direction: a `stablehlo.reduce` by `and` of one-bit words, every one of which is 1, from an
  initial value that is 1, is 1 at every result index (the library's Lib/ReduceAll.lean reads a result that is 1 back into
  its operand; this is the converse, for a range test that is known to pass everywhere).
-/
import Idealize.ShloMosaic.Lib.ReduceAll

namespace Cert.LibReduceAnd

open Idealize.ShloMosaic

/-- A left fold by `and` over words that are all 1, from 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_one f hf l

/-- A reduce by `and` of an operand that is 1 everywhere, from an initial value that is 1, is 1. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x hx _

end Cert.LibReduceAnd
-- ==== Proof.KernelMidRead.lean ====
/-
  THE REGION-TWO INPUTS READ AT AN INDEX, when every entry of the edge list is a node id.

  Under `0 ≤ ei[r, e] < 50000` (read signed) the negative-index wrap of `take` does nothing, its range test passes on
  every row, so no row is replaced by the NaN word, and the clamped gather reads row `ei[r, e]` itself: the gathered
  key, value and query rows are the tables' rows at the specification's `node` of the edge's source or destination
  word.  The grouping matrix at lane `l` and head `h` is `1` when `l / 16 = h` and `0` otherwise: jax's floor division
  of the lane number by 16, decided over the 128 lanes and 8 heads.
-/
import proofs.«413665_j11476152615031_3_alg».proof.Proof.KernelMid
import proofs.«413665_j11476152615031_3_alg».proof.Proof.KernelTail
import proofs.«413665_j11476152615031_3_alg».proof.Proof.Spec
import proofs.«413665_j11476152615031_3_alg».proof.Proof.LibGatherRows
import proofs.«413665_j11476152615031_3_alg».proof.Proof.LibReduceAnd
import Idealize.ShloMosaic.Lib.Affine

set_option maxRecDepth 16384

noncomputable section

namespace Cert.KernelIdeal.Mid

open Cert.KernelIdeal Cert.KernelIdeal.Gen Idealize.ShloMosaic Idealize.ShloMosaic.TcCoe Idealize.ShloMosaic.ValueIdx

/-! ## Elementwise integer operations and scalar broadcasts at an index -/

theorem cmpi_at {s : Shape} {w : Nat} (p : CmpIPredicate) (a b : IVec s w) (i : s.Idx) :
    cmpi p a b i = IntOp.cmpi p (a i) (b i) := rfl
theorem addi_at {s : Shape} {w : Nat} (a b : IVec s w) (i : s.Idx) : addi a b i = IntOp.addi (a i) (b i) := rfl
theorem andi_at {s : Shape} {w : Nat} (a b : IVec s w) (i : s.Idx) : andi a b i = IntOp.andi (a i) (b i) := rfl

/-- A rank-0 value spread over a shape is that value at every index. -/
theorem bscalar_at {α : Type} {t : Shape} (hb : S_.BroadcastsInDim t (![] : Fin 0 → Fin t.rank)) (x : S_.Idx → α)
    (i : t.Idx) : broadcastInDim t ![] hb x i = x ix0 :=
  broadcastInDim_apply _ hb x i ix0 (fun a => a.elim0)

/-! ## The edge list's rows -/

theorem edgeRow0_apply (ei : IVec S2x800000 32) (e : Fin 800000) : edgeRow0 ei (ix1 e) = ei (ix2 (0 : Fin 2) e) := by
  unfold edgeRow0
  rw [shapeCast_apply _ shapeCasts_S1x800000_S800000 (ix1 e) (ix2 (0 : Fin 1) e) (by
    rewrite [Shape.rowMajor_val_two, Shape.rowMajor_val_one]
    show 0 * 800000 + e.val = e.val
    omega)]
  exact extractStridedSlice_apply _ ei slices_S2x800000_S1x800000_0_0 (ix2 (0 : Fin 1) e) (ix2 (0 : Fin 2) e)
    (fun a => match a with
      | ⟨0, _⟩ => by show (0 : Nat) = 0 + 0; rfl
      | ⟨1, _⟩ => by show e.val = 0 + e.val; omega)

theorem edgeRow1_apply (ei : IVec S2x800000 32) (e : Fin 800000) : edgeRow1 ei (ix1 e) = ei (ix2 (1 : Fin 2) e) := by
  unfold edgeRow1
  rw [shapeCast_apply _ shapeCasts_S1x800000_S800000 (ix1 e) (ix2 (0 : Fin 1) e) (by
    rewrite [Shape.rowMajor_val_two, Shape.rowMajor_val_one]
    show 0 * 800000 + e.val = e.val
    omega)]
  exact extractStridedSlice_apply _ ei slices_S2x800000_S1x800000_1_0 (ix2 (0 : Fin 1) e) (ix2 (1 : Fin 2) e)
    (fun a => match a with
      | ⟨0, _⟩ => by show (1 : Nat) = 1 + 0; rfl
      | ⟨1, _⟩ => by show e.val = 0 + e.val; omega)

/-! ## `take` at an in-range index -/

section Take
variable (idx : IVec S800000 32)
  (hr : ∀ e : Fin 800000, 0 ≤ (idx (ix1 e)).toInt ∧ (idx (ix1 e)).toInt < 50000)

/-- A non-negative index is not wrapped. -/
theorem wrapIdx_apply (e : Fin 800000) (h0 : 0 ≤ (idx (ix1 e)).toInt) : wrapIdx idx (ix1 e) = idx (ix1 e) := by
  unfold wrapIdx
  rw [select_apply, cmpi_at, bscalar_at]
  have hz : IntOp.cmpi .slt (idx (ix1 e)) (constantI S_ 32 0#32 ix0) = 0#1 := by
    refine eq_zero_of_ne_one fun h1 => ?_
    have h2 := IntOp.cmpi_slt.1 h1
    have z : (constantI S_ 32 0#32 ix0 : BitVec 32).toInt = 0 := by show (0#32 : BitVec 32).toInt = 0; decide
    omega
  rw [hz, select_zero]

/-- The index column at row `e`. -/
theorem idxCol_apply (e : Fin 800000) (h0 : 0 ≤ (idx (ix1 e)).toInt) : idxCol idx (ix2 e (0 : Fin 1)) = idx (ix1 e) := by
  unfold idxCol
  rw [Tail.dstcol_apply, wrapIdx_apply idx e h0]

include hr in
/-- Every row passes the range test. -/
theorem inRange_one (e : Fin 800000) : inRange (idxCol idx) (ix1 e) = 1#1 := by
  unfold inRange
  refine Cert.LibReduceAnd.reduce_andi_of_all _ _ _ _ _ (fun i => ?_) rfl
  obtain ⟨e', rfl⟩ : ∃ e' : Fin 800000, i = ix2 e' (0 : Fin 1) :=
    ⟨i 0, (eq_ix2 i).trans (congrArg (ix2 (i 0)) (Fin.eq_zero (i 1)))⟩
  rw [andi_at, cmpi_at, cmpi_at, bscalar_at, idxCol_apply idx e' (hr e').1]
  rw [broadcastInDim_apply _ bcast_S1x1_S800000x1_0_1 _ (ix2 e' (0 : Fin 1)) (ix2 (0 : Fin 1) (0 : Fin 1))
    (fun a => match a with
      | ⟨0, _⟩ => by show (0 : Nat) = if (1 : Nat) = 1 then 0 else e'.val; rw [if_pos rfl]
      | ⟨1, _⟩ => by show (0 : Nat) = if (1 : Nat) = 1 then 0 else 0; rw [if_pos rfl])]
  rw [broadcastInDim_apply _ bcast_S1_S1x1_1 _ (ix2 (0 : Fin 1) (0 : Fin 1)) (ix1 (0 : Fin 1))
    (fun a => match a with
      | ⟨0, _⟩ => by show (0 : Nat) = if (1 : Nat) = 1 then 0 else 0; rw [if_pos rfl])]
  have z : (constantI S_ 32 0#32 ix0 : BitVec 32).toInt = 0 := by show (0#32 : BitVec 32).toInt = 0; decide
  have t : (constantI S1 32 49999#32 (ix1 (0 : Fin 1)) : BitVec 32).toInt = 49999 := by
    show (49999#32 : BitVec 32).toInt = 49999; decide
  have h1 := hr e'
  exact IntOp.andi_eq_one.2 ⟨IntOp.cmpi_sge.2 (by omega), IntOp.cmpi_sle.2 (by omega)⟩

include hr in
/-- `take` of a 128-column table at `(e, j)`: the table's row at the index word's node. -/
theorem take128_apply (tbl : FVec Ideal S50000x128 .f32) (e : Fin 800000) (j : Fin 128) :
    take128 tbl idx (ix2 e j) = tbl (ix2 (Cert.Spec.node (idx (ix1 e))) j) := by
  unfold take128
  rw [select_apply, broadcastInDim_apply _ bcast_S800000_S800000x128_0 _ (ix2 e j) (ix1 e)
    (fun a => match a with
      | ⟨0, _⟩ => by show e.val = if (800000 : Nat) = 1 then 0 else e.val; rw [if_neg (by decide)]),
    inRange_one idx hr e, select_one]
  refine (gather_rows_apply (by decide : 0 < 50000) Facts₀.gather_S50000x128_S800000x1_S800000x128_1_0_n_n_0_1_1128_wf
    tbl (idxCol idx) e j).trans ?_
  refine congrArg (fun r => tbl (ix2 r j)) (Fin.ext ?_)
  show min (idxCol idx (ix2 e (0 : Fin 1))).toInt.toNat (50000 - 1) = min (idx (ix1 e)).toInt.toNat (50000 - 1)
  rw [idxCol_apply idx e (hr e).1]

include hr in
/-- `take` of a 256-column table at `(e, j)`. -/
theorem take256_apply (tbl : FVec Ideal S50000x256 .f32) (e : Fin 800000) (j : Fin 256) :
    take256 tbl idx (ix2 e j) = tbl (ix2 (Cert.Spec.node (idx (ix1 e))) j) := by
  unfold take256
  rw [select_apply, broadcastInDim_apply _ bcast_S800000_S800000x256_0 _ (ix2 e j) (ix1 e)
    (fun a => match a with
      | ⟨0, _⟩ => by show e.val = if (800000 : Nat) = 1 then 0 else e.val; rw [if_neg (by decide)]),
    inRange_one idx hr e, select_one]
  refine (gather_rows_apply (by decide : 0 < 50000) Facts₀.gather_S50000x256_S800000x1_S800000x256_1_0_n_n_0_1_1256_wf
    tbl (idxCol idx) e j).trans ?_
  refine congrArg (fun r => tbl (ix2 r j)) (Fin.ext ?_)
  show min (idxCol idx (ix2 e (0 : Fin 1))).toInt.toNat (50000 - 1) = min (idx (ix1 e)).toInt.toNat (50000 - 1)
  rw [idxCol_apply idx e (hr e).1]

end Take

/-! ## The gathered rows -/

section Rows
variable (ei : IVec S2x800000 32) (hr : ∀ i : S2x800000.Idx, 0 ≤ (ei i).toInt ∧ (ei i).toInt < 50000)

include hr in
theorem ksrcFn_apply (kv : FVec Ideal S50000x256 .f32) (e : Fin 800000) (j : Fin 128) :
    ksrcFn ei kv (ix2 e j) = kv (ix2 (Cert.Spec.node (ei (ix2 (0 : Fin 2) e))) (⟨j.val, by omega⟩ : Fin 256)) := by
  unfold ksrcFn
  rw [extractStridedSlice_apply _ _ slices_S800000x256_S800000x128_0_0 (ix2 e j)
    (ix2 e (⟨j.val, by omega⟩ : Fin 256)) (fun a => match a with
      | ⟨0, _⟩ => by show e.val = 0 + e.val; omega
      | ⟨1, _⟩ => by show j.val = 0 + j.val; omega)]
  rw [take256_apply (edgeRow0 ei) (fun e' => by rw [edgeRow0_apply]; exact hr _) kv e _, edgeRow0_apply]

include hr in
theorem vsrcFn_apply (kv : FVec Ideal S50000x256 .f32) (e : Fin 800000) (j : Fin 128) :
    vsrcFn ei kv (ix2 e j) = kv (ix2 (Cert.Spec.node (ei (ix2 (0 : Fin 2) e))) (⟨128 + j.val, by omega⟩ : Fin 256)) := by
  unfold vsrcFn
  rw [extractStridedSlice_apply _ _ slices_S800000x256_S800000x128_0_128 (ix2 e j)
    (ix2 e (⟨128 + j.val, by omega⟩ : Fin 256)) (fun a => match a with
      | ⟨0, _⟩ => by show e.val = 0 + e.val; omega
      | ⟨1, _⟩ => by show 128 + j.val = 128 + j.val; rfl)]
  rw [take256_apply (edgeRow0 ei) (fun e' => by rw [edgeRow0_apply]; exact hr _) kv e _, edgeRow0_apply]

include hr in
theorem qdstFn_apply (q : FVec Ideal S50000x128 .f32) (e : Fin 800000) (j : Fin 128) :
    qdstFn ei q (ix2 e j) = q (ix2 (Cert.Spec.node (ei (ix2 (1 : Fin 2) e))) j) := by
  unfold qdstFn
  rw [take128_apply (edgeRow1 ei) (fun e' => by rw [edgeRow1_apply]; exact hr _) q e j, edgeRow1_apply]

end Rows

/-! ## The grouping matrix -/

/-- The sign of a word, as `stablehlo.sign` gives it. -/
def sgn (w : BitVec 32) : BitVec 32 := if w = 0 then 0 else if w.msb then -1 else 1

/-- jax's floor division of one word by 16. -/
def fd16 (w : BitVec 32) : BitVec 32 :=
  Scalar.select
    (IntOp.andi (IntOp.cmpi .ne (sgn w) (sgn 16#32)) (IntOp.cmpi .ne (IntOp.remsi .host w 16#32) 0#32))
    (IntOp.subi (IntOp.divsi .host w 16#32) 1#32) (IntOp.divsi .host w 16#32)

theorem floorDiv16_apply (a : IVec S128x1 32) (i : S128x1.Idx) : floorDiv16 a i = fd16 (a i) := rfl

/-- Lane `l`'s floor quotient by 16 is head `h`'s number exactly when `l / 16 = h`. -/
theorem fd16_eq_iff : ∀ (l : Fin 128) (h : Fin 8),
    IntOp.cmpi .eq (fd16 (BitVec.ofNat 32 l.val)) (BitVec.ofNat 32 h.val) = if l.val / 16 = h.val then 1#1 else 0#1 := by
  decide +kernel

theorem Gmat_apply (l : Fin 128) (h : Fin 8) :
    Gmat (ix2 l h) = if Cert.Spec.head l = h then (1 : EReal) else 0 := by
  have e1 : Gmat (ix2 l h) = (((IntOp.cmpi .eq (fd16 (BitVec.ofNat 32 l.val)) (BitVec.ofNat 32 h.val)).toNat : ℝ) : EReal) := by
    unfold Gmat
    show (((IntOp.cmpi .eq _ _).toNat : ℝ) : EReal) = _
    rw [broadcastInDim_apply _ bcast_S128x1_S128x8_0_1 _ (ix2 l h) (ix2 l (0 : Fin 1)) (fun a => match a with
        | ⟨0, _⟩ => by show l.val = if (128 : Nat) = 1 then 0 else l.val; rw [if_neg (by decide)]
        | ⟨1, _⟩ => by show (0 : Nat) = if (1 : Nat) = 1 then 0 else h.val; rw [if_pos rfl]),
      floorDiv16_apply,
      broadcastInDim_apply _ bcast_S128_S128x1_0 _ (ix2 l (0 : Fin 1)) (ix1 l) (fun a => match a with
        | ⟨0, _⟩ => by show l.val = if (128 : Nat) = 1 then 0 else l.val; rw [if_neg (by decide)]),
      broadcastInDim_apply _ bcast_S1x8_S128x8_0_1 _ (ix2 l h) (ix2 (0 : Fin 1) h) (fun a => match a with
        | ⟨0, _⟩ => by show (0 : Nat) = if (1 : Nat) = 1 then 0 else l.val; rw [if_pos rfl]
        | ⟨1, _⟩ => by show h.val = if (8 : Nat) = 1 then 0 else h.val; rw [if_neg (by decide)]),
      broadcastInDim_apply _ bcast_S8_S1x8_1 _ (ix2 (0 : Fin 1) h) (ix1 h) (fun a => match a with
        | ⟨0, _⟩ => by show h.val = if (8 : Nat) = 1 then 0 else h.val; rw [if_neg (by decide)])]
    rfl
  rw [e1, fd16_eq_iff l h]
  have hh : Cert.Spec.head l = h ↔ l.val / 16 = h.val := by
    constructor
    · intro e; exact congrArg Fin.val e
    · intro e; exact Fin.ext e
  by_cases hc : l.val / 16 = h.val
  · rw [if_pos hc, if_pos (hh.2 hc)]; simp
  · rw [if_neg hc, if_neg (fun e => hc (hh.1 e))]; simp

theorem GTmat_apply (h : Fin 8) (l : Fin 128) :
    GTmat (ix2 h l) = if Cert.Spec.head l = h then (1 : EReal) else 0 := by
  unfold GTmat
  rw [transpose_apply _ Gmat transposes_S128x8_S8x128_1_0 (ix2 h l) (ix2 l h) (fun b => match b with
    | ⟨0, _⟩ => rfl
    | ⟨1, _⟩ => rfl)]
  exact Gmat_apply l h

end Cert.KernelIdeal.Mid

end
-- ==== Proof.RegionZero.lean ====
/-
  The two arrays the first kernel call leaves, over the extended reals, index by index.

  The call runs ten grid points; point t stages rows 5000·t … 5000·t + 4999 of the node features x together with the
  whole of three 128 × 128 matrices and three 128-vectors, and writes the same rows of two arrays: Q, 50000 × 128, and
  the packed KV, 50000 × 256, whose columns 0 … 127 hold K and 128 … 255 hold V.  At the ideal values a narrowing of
  the float format is the identity and a product accumulated into the zero splat is the exact sum, so each block row is
  the affine map of the spec applied to that row of x.  Stated here:

  * the product at a row and a lane as the sum over the 128 contracted lanes, a vector laid along every row at a
    row and a lane as its entry, and with them each of the three payloads at a row and a lane;
  * each staged block as rows of its array (the x block moves with the point, the other six never move);
  * what each point writes back as its block of ONE function of the arrays, every row being written by the point
    row / 5000, hence each array after the ten points as that function;
  * `arr_Q`, `arr_KV_lo`, `arr_KV_hi`: Q at (n, j), and KV at (n, j) and at (n, 128 + j), are the spec's affine map
    `Cert.Spec.lin` of x with (Wq, bq), (Wk, bk) and (Wv, bv) at row n and lane j.
-/
import proofs.«413665_j11476152615031_3_alg».proof.Proof.Gen.KernelIdeal.Frame
import proofs.«413665_j11476152615031_3_alg».proof.Proof.Spec
import Idealize.ShloMosaic.Lib.Pipeline.Value
import Idealize.ShloMosaic.Lib.ValueIdx
import Idealize.ShloMosaic.PureOps.Ideal.Laws

noncomputable section

namespace Cert.KernelIdeal.RegionZero

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b))

/-- The four coordinate facts of the matmul's dimension numbers (contract lhs axis 1 with rhs axis 0). -/
theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, read at row p and lane q: the sum over the 128 contracted lanes. -/
theorem matmul_zero_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- A 128-vector laid along every row, read at row p and lane q, is its entry q. -/
theorem bias_apply (b : Vec Ideal S128 .f32) (p : Fin 5000) (q : Fin 128) :
    broadcastTo S5000x128 (shapeCast S1x128 b shapeCasts_S128_S1x128) broadcasts_S1x128_S5000x128 (ix2 p q) = b (ix1 q) := by
  have e1 := broadcastTo_apply (shapeCast S1x128 b shapeCasts_S128_S1x128) broadcasts_S1x128_S5000x128 (ix2 p q) (ix2 (0 : Fin 1) q) (by
    intro a
    match a with
    | ⟨0, _⟩ => rfl
    | ⟨1, _⟩ => rfl)
  have e2 := shapeCast_apply b shapeCasts_S128_S1x128 (ix2 (0 : Fin 1) q) (ix1 q) (by
    rw [Shape.rowMajor_val_two, Shape.rowMajor_val_one]; show q.val = 0 * 128 + q.val; omega)
  exact e1.trans e2

/-- The kernel's Q block at row p and lane q. -/
theorem Q_block_apply (x0 : Vec Ideal S5000x128 .f32) (W : Vec Ideal S128x128 .f32) (b : Vec Ideal S128 .f32) (p : Fin 5000) (q : Fin 128) :
    k0_pay2 (F := Ideal) x0 W b (ix2 p q) = (∑ k : Fin 128, x0 (ix2 p k) * W (ix2 k q)) + b (ix1 q) := by
  unfold k0_pay2 k0_pay1
  show matmul dot_S5000x128_S128x128_S5000x128_1_0_0_1_n_n none _ _ (constant (F := Ideal) S5000x128 .f32 0x00000000#32) (ix2 p q) + broadcastTo S5000x128 (shapeCast S1x128 b shapeCasts_S128_S1x128) broadcasts_S1x128_S5000x128 (ix2 p q) = _
  rw [matmul_zero_apply, bias_apply]
  rfl

/-- The K and V blocks are the same term of their own matrix and vector. -/
theorem K_block_eq (x0 : Vec Ideal S5000x128 .f32) (W : Vec Ideal S128x128 .f32) (b : Vec Ideal S128 .f32) :
    k0_pay3 (F := Ideal) x0 W b = k0_pay2 (F := Ideal) x0 W b := rfl
theorem V_block_eq (x0 : Vec Ideal S5000x128 .f32) (W : Vec Ideal S128x128 .f32) (b : Vec Ideal S128 .f32) :
    k0_pay4 (F := Ideal) x0 W b = k0_pay2 (F := Ideal) x0 W b := rfl

/-- The zero offsets, however spelt. -/
theorem zero_off2 : (![0, 0] : Fin 2 → Nat) = fun _ => 0 := funext fun a => by fin_cases a <;> rfl
theorem zero_off1 : (![0] : Fin 1 → Nat) = fun _ => 0 := funext fun a => by fin_cases a <;> rfl

/-- The printed index maps, decided over the ten grid points: the row blocks of x, Q and KV move with the point,
    every other window stays at block 0. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The x block at point t is rows 5000·t … of x. -/
theorem x_block_apply (c : Dev nD) (t : Fin cfg0.N) (p : Fin 5000) (k : Fin 128) (hn : 5000 * t.val + p.val < 50000) :
    (iblk0 V c 0 t : Vec Ideal S5000x128 .f32) (ix2 p k) = (V c main_arg0 : Vec Ideal S50000x128 .f32) (ix2 ⟨5000 * t.val + p.val, hn⟩ k) := by
  obtain ⟨e0, e1, -⟩ := block_index t
  unfold iblk0
  rw [View.read_apply]
  show V c main_arg0 _ = V c main_arg0 _
  congr 1
  funext a
  apply Fin.ext
  match a with
  | ⟨0, _⟩ => show win0_0.index t 0 * 5000 + 1 * p.val = 5000 * t.val + p.val; rw [e0]; omega
  | ⟨1, _⟩ => show win0_0.index t 1 * 128 + 1 * k.val = k.val; rw [e1]; omega

/-- Each of the six other staged blocks is its whole array, at every point. -/
theorem Wq_block (c : Dev nD) (t : Fin cfg0.N) :
    (iblk0 V c 1 t : Vec Ideal S128x128 .f32) = (V c main_arg3 : Vec Ideal S128x128 .f32) := by
  obtain ⟨-, -, e0, e1, -⟩ := block_index t
  funext y
  unfold iblk0
  rw [View.read_apply]
  show V c main_arg3 _ = V c main_arg3 y
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

theorem bq_block (c : Dev nD) (t : Fin cfg0.N) :
    (iblk0 V c 2 t : Vec Ideal S128 .f32) = (V c main_arg4 : Vec Ideal S128 .f32) := by
  obtain ⟨-, -, -, -, e0, -⟩ := block_index t
  funext y
  unfold iblk0
  rw [View.read_apply]
  show V c main_arg4 _ = V c main_arg4 y
  congr 1
  funext a
  apply Fin.ext
  match a with
  | ⟨0, _⟩ => show win0_2.index t 0 * 128 + 1 * (y 0).val = (y 0).val; rw [e0]; omega

/-- One element of a block of the product: if the x block is rows 5000·tv … of the array x, the payload at block index z
    is the affine map of row i 0 of x at lane i 1, where i is z moved down by 5000·tv rows. -/
theorem block_elt (xb : Vec Ideal S5000x128 .f32) (W : Vec Ideal S128x128 .f32) (b : Vec Ideal S128 .f32)
    (x : Vec Ideal S50000x128 .f32) (tv : Nat)
    (hx : ∀ (p : Fin 5000) (k : Fin 128) (hn : 5000 * tv + p.val < 50000), xb (ix2 p k) = x (ix2 ⟨5000 * tv + p.val, hn⟩ k))
    (z : S5000x128.Idx) (n : Fin 50000) (j : Fin 128)
    (hn : n.val = 5000 * tv + (z 0).val) (hj : j.val = (z 1).val) :
    k0_pay2 (F := Ideal) xb W b z = Cert.Spec.lin x W b n j := by
  obtain ⟨p, q, rfl⟩ : ∃ (p : Fin 5000) (q : Fin 128), z = ix2 p q := ⟨z 0, z 1, eq_ix2 z⟩
  have hn' : n.val = 5000 * tv + p.val := hn
  obtain rfl : j = q := Fin.ext hj
  rw [Q_block_apply]
  unfold Cert.Spec.lin
  refine congrArg (· + b (ix1 j)) (Finset.sum_congr rfl fun k _ => ?_)
  rw [hx p k (by omega)]
  have en : (⟨5000 * tv + p.val, by omega⟩ : Fin 50000) = n := Fin.ext hn'.symm
  rw [en]

/-- The Q array as one function of the three arrays. -/
abbrev GQ (x : Vec Ideal S50000x128 .f32) (W : Vec Ideal S128x128 .f32) (b : Vec Ideal S128 .f32) : S50000x128.Idx → EReal :=
  fun i => Cert.Spec.lin x W b (i 0) (i 1)

/-- What point t writes back to Q is its block of that function. -/
theorem written_Q (c : Dev nD) (t : Fin cfg0.N) :
    (dat0 (F := Ideal) V c).flushed 7 t = ((cfg0.win 7).blk t).view.read (Elt Ideal) (GQ (V c main_arg0) (V c main_arg3) (V c main_arg4)) := by
  show (cfg0.win 7).cut (grid0.coords t) ((dat0 V c).after 7 t) = _
  rw [after0_7]
  unfold out0_7
  rw [View.canon_unit_zero zero_off2]
  simp only [View.ld_unit_zero (S := S5000x128) zero_off2, View.ld_unit_zero (S := S128x128) zero_off2, View.ld_unit_zero (S := S128) zero_off1]
  rw [Wq_block V c t, bq_block V c t]
  obtain ⟨-, -, -, -, -, -, -, -, -, -, -, e0, e1, -⟩ := block_index t
  funext y
  show k0_pay2 (F := Ideal) (iblk0 V c 0 t) (V c main_arg3) (V c main_arg4) (win0_7.xinj (grid0.coords t) y)
    = Cert.Spec.lin (V c main_arg0) (V c main_arg3) (V c main_arg4) ((((cfg0.win 7).blk t).view.emb y) 0) ((((cfg0.win 7).blk t).view.emb y) 1)
  refine block_elt (iblk0 V c 0 t) (V c main_arg3) (V c main_arg4) (V c main_arg0) t.val (fun p k hn => x_block_apply V c t p k hn)
    (win0_7.xinj (grid0.coords t) y) ((((cfg0.win 7).blk t).view.emb y) 0) ((((cfg0.win 7).blk t).view.emb y) 1) ?_ ?_
  · show win0_7.index t 0 * 5000 + 1 * (y 0).val = 5000 * t.val + (y 0).val
    rw [e0]; omega
  · show win0_7.index t 1 * 128 + 1 * (y 1).val = (y 1).val
    rw [e1]; omega

/-- An index of the Q array is in point t's block iff each coordinate is in the block's range on its axis. -/
theorem mem_block_Q (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v0_0).slice (win0_7.rect t)).set ↔ _
  rw [View.set_slice_whole, Rect.mem_set_unit]
  exact Iff.rfl

/-- Row r of the Q array is written by the point r / 5000. -/
theorem rows_covered_Q (i : S50000x128.Idx) : ∃ t : Fin cfg0.N, (cfg0.win 7).flush t = true ∧ i ∈ ((cfg0.win 7).blk t).view.set := by
  have hi0 : (i 0).val < 50000 := idx2_lt0 i
  have hi1 : (i 1).val < 128 := idx2_lt1 i
  have hN : cfg0.N = 10 := N_0
  obtain ⟨t, ht⟩ : ∃ t : Fin cfg0.N, t.val = (i 0).val / 5000 := ⟨⟨(i 0).val / 5000, by rw [hN]; omega⟩, rfl⟩
  refine ⟨t, flush0_7 t, ?_⟩
  rw [mem_block_Q]
  obtain ⟨-, -, -, -, -, -, -, -, -, -, -, e0, e1, -⟩ := block_index t
  intro a
  match a with
  | ⟨0, _⟩ => show win0_7.index t 0 * 5000 ≤ (i 0).val ∧ (i 0).val < win0_7.index t 0 * 5000 + 5000; rw [e0]; omega
  | ⟨1, _⟩ => show win0_7.index t 1 * 128 ≤ (i 1).val ∧ (i 1).val < win0_7.index t 1 * 128 + 128; rw [e1]; omega

/-- The Q array after the ten points. -/
theorem array_Q (c : Dev nD) : (dat0 (F := Ideal) V c).arrAt 7 cfg0.N = GQ (V c main_arg0) (V c main_arg3) (V c main_arg4) :=
  (dat0 (F := Ideal) V c).arrAt_eq_of_cover 7 (GQ (V c main_arg0) (V c main_arg3) (V c main_arg4)) (fun t _ => written_Q V c t) rows_covered_Q

/-- Q at row n and lane j. -/
theorem arr_Q (c : Dev nD) (n : Fin 50000) (j : Fin 128) :
    (dat0 (F := Ideal) V c).arrAt 7 cfg0.N (ix2 n j) = Cert.Spec.lin (V c main_arg0) (V c main_arg3) (V c main_arg4) n j :=
  congrFun (array_Q V c) (ix2 n j)

theorem Wk_block (c : Dev nD) (t : Fin cfg0.N) :
    (iblk0 V c 3 t : Vec Ideal S128x128 .f32) = (V c main_arg5 : Vec Ideal S128x128 .f32) := by
  obtain ⟨-, -, -, -, -, e0, e1, -⟩ := block_index t
  funext y
  unfold iblk0
  rw [View.read_apply]
  show V c main_arg5 _ = V c main_arg5 y
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

theorem bk_block (c : Dev nD) (t : Fin cfg0.N) :
    (iblk0 V c 4 t : Vec Ideal S128 .f32) = (V c main_arg6 : Vec Ideal S128 .f32) := by
  obtain ⟨-, -, -, -, -, -, -, e0, -⟩ := block_index t
  funext y
  unfold iblk0
  rw [View.read_apply]
  show V c main_arg6 _ = V c main_arg6 y
  congr 1
  funext a
  apply Fin.ext
  match a with
  | ⟨0, _⟩ => show win0_4.index t 0 * 128 + 1 * (y 0).val = (y 0).val; rw [e0]; omega

theorem Wv_block (c : Dev nD) (t : Fin cfg0.N) :
    (iblk0 V c 5 t : Vec Ideal S128x128 .f32) = (V c main_arg9 : Vec Ideal S128x128 .f32) := by
  obtain ⟨-, -, -, -, -, -, -, -, e0, e1, -⟩ := block_index t
  funext y
  unfold iblk0
  rw [View.read_apply]
  show V c main_arg9 _ = V c main_arg9 y
  congr 1
  funext a
  apply Fin.ext
  match a with
  | ⟨0, _⟩ => show win0_5.index t 0 * 128 + 1 * (y 0).val = (y 0).val; rw [e0]; omega
  | ⟨1, _⟩ => show win0_5.index t 1 * 128 + 1 * (y 1).val = (y 1).val; rw [e1]; omega

theorem bv_block (c : Dev nD) (t : Fin cfg0.N) :
    (iblk0 V c 6 t : Vec Ideal S128 .f32) = (V c main_arg10 : Vec Ideal S128 .f32) := by
  obtain ⟨-, -, -, -, -, -, -, -, -, -, e0, -⟩ := block_index t
  funext y
  unfold iblk0
  rw [View.read_apply]
  show V c main_arg10 _ = V c main_arg10 y
  congr 1
  funext a
  apply Fin.ext
  match a with
  | ⟨0, _⟩ => show win0_6.index t 0 * 128 + 1 * (y 0).val = (y 0).val; rw [e0]; omega

/-- The packed block after its two stores, read in its lower 128 columns: the store through columns 0 … 127. -/
theorem packed_lo (pv pk : Vec Ideal S5000x128 .f32) (p : Fin 5000) (q : Fin 128) :
    View.canon (Val := Elt Ideal) [(⟨r0_4, pv⟩ : View.Piece (Elt Ideal) S5000x256 .f32), ⟨r0_3, pk⟩] (ix2 p (⟨q.val, by omega⟩ : Fin 256)) = pk (ix2 p q) := by
  rw [View.canon_cons_of_not_mem]
  · have e : (ix2 p (⟨q.val, by omega⟩ : Fin 256) : S5000x256.Idx) = r0_3.emb (ix2 p q) := funext fun a => Fin.ext (by
      match a with
      | ⟨0, _⟩ => show p.val = 0 + 1 * p.val; omega
      | ⟨1, _⟩ => show q.val = 0 + 1 * q.val; omega)
    rw [e]
    exact View.canon_cons_emb r0_3 pk [] (ix2 p q)
  · show ¬ (ix2 p (⟨q.val, by omega⟩ : Fin 256) : S5000x256.Idx) ∈ r0_4.set
    rw [Rect.mem_set_unit]
    intro h
    have h1 : 128 ≤ q.val := (h 1).1
    omega

/-- … and in its upper 128 columns: the later store, through columns 128 … 255. -/
theorem packed_hi (pv pk : Vec Ideal S5000x128 .f32) (p : Fin 5000) (q : Fin 128) :
    View.canon (Val := Elt Ideal) [(⟨r0_4, pv⟩ : View.Piece (Elt Ideal) S5000x256 .f32), ⟨r0_3, pk⟩] (ix2 p (⟨128 + q.val, by omega⟩ : Fin 256)) = pv (ix2 p q) := by
  have e : (ix2 p (⟨128 + q.val, by omega⟩ : Fin 256) : S5000x256.Idx) = r0_4.emb (ix2 p q) := funext fun a => Fin.ext (by
    match a with
    | ⟨0, _⟩ => show p.val = 0 + 1 * p.val; omega
    | ⟨1, _⟩ => show 128 + q.val = 128 + 1 * q.val; omega)
  rw [e]
  exact View.canon_cons_emb r0_4 pv _ (ix2 p q)

/-- The packed KV array as one function of the five arrays: K in columns 0 … 127, V in columns 128 … 255. -/
abbrev GKV (x : Vec Ideal S50000x128 .f32) (Wk : Vec Ideal S128x128 .f32) (bk : Vec Ideal S128 .f32)
    (Wv : Vec Ideal S128x128 .f32) (bv : Vec Ideal S128 .f32) : S50000x256.Idx → EReal :=
  fun i => if h : (i 1).val < 128 then Cert.Spec.lin x Wk bk (i 0) ⟨(i 1).val, h⟩
    else Cert.Spec.lin x Wv bv (i 0) ⟨(i 1).val - 128, by have := idx2_lt1 i; omega⟩

/-- One element of a packed block, as for the Q block. -/
theorem packed_block_elt (xb : Vec Ideal S5000x128 .f32) (Wk : Vec Ideal S128x128 .f32) (bk : Vec Ideal S128 .f32)
    (Wv : Vec Ideal S128x128 .f32) (bv : Vec Ideal S128 .f32)
    (x : Vec Ideal S50000x128 .f32) (tv : Nat)
    (hx : ∀ (p : Fin 5000) (k : Fin 128) (hn : 5000 * tv + p.val < 50000), xb (ix2 p k) = x (ix2 ⟨5000 * tv + p.val, hn⟩ k))
    (z : S5000x256.Idx) (i : S50000x256.Idx)
    (hi0 : (i 0).val = 5000 * tv + (z 0).val) (hi1 : (i 1).val = (z 1).val) :
    View.canon (Val := Elt Ideal) [(⟨r0_4, k0_pay4 (F := Ideal) xb Wv bv⟩ : View.Piece (Elt Ideal) S5000x256 .f32), ⟨r0_3, k0_pay3 (F := Ideal) xb Wk bk⟩] z
      = GKV x Wk bk Wv bv i := by
  obtain ⟨p, r, rfl⟩ : ∃ (p : Fin 5000) (r : Fin 256), z = ix2 p r := ⟨z 0, z 1, eq_ix2 z⟩
  have hi1' : (i 1).val = r.val := hi1
  have hi0' : (i 0).val = 5000 * tv + p.val := hi0
  by_cases h : r.val < 128
  · have er : r = (⟨(⟨r.val, h⟩ : Fin 128).val, by omega⟩ : Fin 256) := rfl
    rw [er, packed_lo, K_block_eq]
    show _ = dite _ _ _
    rw [dif_pos (show (i 1).val < 128 by omega)]
    exact block_elt xb Wk bk x tv hx (ix2 p ⟨r.val, h⟩) (i 0) ⟨(i 1).val, by omega⟩ hi0' hi1'
  · have er : r = (⟨128 + (⟨r.val - 128, by have := r.isLt; omega⟩ : Fin 128).val, by have := r.isLt; omega⟩ : Fin 256) :=
      Fin.ext (by show r.val = 128 + (r.val - 128); omega)
    rw [er, packed_hi, V_block_eq]
    show _ = dite _ _ _
    rw [dif_neg (show ¬ (i 1).val < 128 by omega)]
    exact block_elt xb Wv bv x tv hx (ix2 p ⟨r.val - 128, by have := r.isLt; omega⟩) (i 0) ⟨(i 1).val - 128, by have := r.isLt; omega⟩ hi0'
      (by show (i 1).val - 128 = r.val - 128; omega)

/-- What point t writes back to KV is its block of that function. -/
theorem written_KV (c : Dev nD) (t : Fin cfg0.N) :
    (dat0 (F := Ideal) V c).flushed 8 t = ((cfg0.win 8).blk t).view.read (Elt Ideal)
      (GKV (V c main_arg0) (V c main_arg5) (V c main_arg6) (V c main_arg9) (V c main_arg10)) := by
  show (cfg0.win 8).cut (grid0.coords t) ((dat0 V c).after 8 t) = _
  rw [after0_8]
  unfold out0_8
  simp only [View.ld_unit_zero (S := S5000x128) zero_off2, View.ld_unit_zero (S := S128x128) zero_off2, View.ld_unit_zero (S := S128) zero_off1]
  rw [Wk_block V c t, bk_block V c t, Wv_block V c t, bv_block V c t]
  obtain ⟨-, -, -, -, -, -, -, -, -, -, -, -, -, e0, e1⟩ := block_index t
  funext y
  show View.canon (Val := Elt Ideal) [(⟨r0_4, k0_pay4 (F := Ideal) (iblk0 V c 0 t) (V c main_arg9) (V c main_arg10)⟩ : View.Piece (Elt Ideal) S5000x256 .f32),
      ⟨r0_3, k0_pay3 (F := Ideal) (iblk0 V c 0 t) (V c main_arg5) (V c main_arg6)⟩] (win0_8.xinj (grid0.coords t) y)
    = GKV (V c main_arg0) (V c main_arg5) (V c main_arg6) (V c main_arg9) (V c main_arg10) (((cfg0.win 8).blk t).view.emb y)
  refine packed_block_elt (iblk0 V c 0 t) (V c main_arg5) (V c main_arg6) (V c main_arg9) (V c main_arg10) (V c main_arg0) t.val
    (fun p k hn => x_block_apply V c t p k hn) (win0_8.xinj (grid0.coords t) y) (((cfg0.win 8).blk t).view.emb y) ?_ ?_
  · show win0_8.index t 0 * 5000 + 1 * (y 0).val = 5000 * t.val + (y 0).val
    rw [e0]; omega
  · show win0_8.index t 1 * 256 + 1 * (y 1).val = (y 1).val
    rw [e1]; omega

/-- An index of the KV array is in point t's block iff each coordinate is in the block's range on its axis. -/
theorem mem_block_KV (t : Fin cfg0.N) (i : S50000x256.Idx) :
    i ∈ ((cfg0.win 8).blk t).view.set ↔ ∀ a : Fin 2, win0_8.index t a * S5000x256.size a ≤ (i a).val ∧ (i a).val < win0_8.index t a * S5000x256.size a + S5000x256.size a := by
  show i ∈ ((View.whole main_v0_1).slice (win0_8.rect t)).set ↔ _
  rw [View.set_slice_whole, Rect.mem_set_unit]
  exact Iff.rfl

/-- Row r of the KV array is written by the point r / 5000. -/
theorem rows_covered_KV (i : S50000x256.Idx) : ∃ t : Fin cfg0.N, (cfg0.win 8).flush t = true ∧ i ∈ ((cfg0.win 8).blk t).view.set := by
  have hi0 : (i 0).val < 50000 := idx2_lt0 i
  have hi1 : (i 1).val < 256 := idx2_lt1 i
  have hN : cfg0.N = 10 := N_0
  obtain ⟨t, ht⟩ : ∃ t : Fin cfg0.N, t.val = (i 0).val / 5000 := ⟨⟨(i 0).val / 5000, by rw [hN]; omega⟩, rfl⟩
  refine ⟨t, flush0_8 t, ?_⟩
  rw [mem_block_KV]
  obtain ⟨-, -, -, -, -, -, -, -, -, -, -, -, -, e0, e1⟩ := block_index t
  intro a
  match a with
  | ⟨0, _⟩ => show win0_8.index t 0 * 5000 ≤ (i 0).val ∧ (i 0).val < win0_8.index t 0 * 5000 + 5000; rw [e0]; omega
  | ⟨1, _⟩ => show win0_8.index t 1 * 256 ≤ (i 1).val ∧ (i 1).val < win0_8.index t 1 * 256 + 256; rw [e1]; omega

/-- The packed KV array after the ten points. -/
theorem array_KV (c : Dev nD) : (dat0 (F := Ideal) V c).arrAt 8 cfg0.N
    = GKV (V c main_arg0) (V c main_arg5) (V c main_arg6) (V c main_arg9) (V c main_arg10) :=
  (dat0 (F := Ideal) V c).arrAt_eq_of_cover 8 (GKV (V c main_arg0) (V c main_arg5) (V c main_arg6) (V c main_arg9) (V c main_arg10))
    (fun t _ => written_KV V c t) rows_covered_KV

/-- KV at row n and column j: K. -/
theorem arr_KV_lo (c : Dev nD) (n : Fin 50000) (j : Fin 128) :
    (dat0 (F := Ideal) V c).arrAt 8 cfg0.N (ix2 n (⟨j.val, by omega⟩ : Fin 256)) = Cert.Spec.lin (V c main_arg0) (V c main_arg5) (V c main_arg6) n j := by
  refine (congrFun (array_KV V c) (ix2 n (⟨j.val, by omega⟩ : Fin 256))).trans ?_
  show dite _ _ _ = _
  rw [dif_pos (show ((ix2 n (⟨j.val, by omega⟩ : Fin 256) : S50000x256.Idx) 1).val < 128 from j.isLt)]

/-- KV at row n and column 128 + j: V. -/
theorem arr_KV_hi (c : Dev nD) (n : Fin 50000) (j : Fin 128) :
    (dat0 (F := Ideal) V c).arrAt 8 cfg0.N (ix2 n (⟨128 + j.val, by omega⟩ : Fin 256)) = Cert.Spec.lin (V c main_arg0) (V c main_arg9) (V c main_arg10) n j := by
  refine (congrFun (array_KV V c) (ix2 n (⟨128 + j.val, by omega⟩ : Fin 256))).trans ?_
  show dite _ _ _ = _
  rw [dif_neg (show ¬ ((ix2 n (⟨128 + j.val, by omega⟩ : Fin 256) : S50000x256.Idx) 1).val < 128 from by show ¬ (128 + j.val < 128); omega)]
  have e : (⟨128 + j.val - 128, by omega⟩ : Fin 128) = j := Fin.ext (by show 128 + j.val - 128 = j.val; omega)
  show Cert.Spec.lin _ _ _ n (⟨128 + j.val - 128, _⟩ : Fin 128) = _
  rw [e]

end Cert.KernelIdeal.RegionZero

end
-- ==== Proof.SpecDense.lean ====
/-
  THE SCORE AND THE MESSAGE AS A DENSE KERNEL COMPUTES THEM, and that they are the specification's.

  A dense kernel over one edge row holds the gathered rows `ks = K[src e]`, `qd = Q[dst e]`, `vs = V[src e]` and computes the
  edge projection `et = ea·We + be` itself; the per-head sum of `ks · qd · et · ¼` is its product with a matrix `G : [128, 8]`,
  and the head's score is spread back over the head's 16 lanes by the product with `GT : [8, 128]`.  When `G[l, h]` and
  `GT[h, l]` are `1` for `l / 16 = h` and `0` otherwise these are the specification's score and message: a product with
  `0` is `0` and with `1` is the other factor for EVERY extended real, and the four factors of a lane's term are
  rearranged by commutativity and associativity of the product alone.
-/
import proofs.«413665_j11476152615031_3_alg».proof.Proof.Spec

noncomputable section

open scoped BigOperators

namespace Cert.Spec

open Idealize.ShloMosaic Idealize.ShloMosaic.ValueIdx

/-- The score of edge row `e` at head `h` from the gathered rows, the edge projection computed in place, and the
    per-head sum as a product with `G`. -/
def rawScore (ks qd ea : SE.Idx → EReal) (We : SW.Idx → EReal) (be : SB.Idx → EReal) (G : SG.Idx → EReal)
    (e : Fin 800000) (h : Fin 8) : EReal :=
  Ideal.exp (min hi (max lo (∑ l : Fin 128,
    (ks (ix2 e l) * qd (ix2 e l) * lin ea We be e l * quarter) * G (ix2 l h))))

/-- The message of edge row `e` at lane `j`: the gathered value row times the scores spread by `GT`. -/
def rawMsg (ks qd ea vs : SE.Idx → EReal) (We : SW.Idx → EReal) (be : SB.Idx → EReal) (G : SG.Idx → EReal)
    (GT : SGT.Idx → EReal) (e : Fin 800000) (j : Fin 128) : EReal :=
  vs (ix2 e j) * ∑ h : Fin 8, rawScore ks qd ea We be G e h * GT (ix2 h j)

section
variable (x : SN.Idx → EReal) (ea : SE.Idx → EReal) (ei : SI.Idx → BitVec 32)
  (Wq : SW.Idx → EReal) (bq : SB.Idx → EReal) (Wk : SW.Idx → EReal) (bk : SB.Idx → EReal)
  (We : SW.Idx → EReal) (be : SB.Idx → EReal) (Wv : SW.Idx → EReal) (bv : SB.Idx → EReal)
  (ks qd vs : SE.Idx → EReal) (G : SG.Idx → EReal) (GT : SGT.Idx → EReal)

/-- With `G` the heads' indicator and the gathered rows the projections' rows, the dense score is the score. -/
theorem rawScore_eq (e : Fin 800000) (h : Fin 8)
    (hG : ∀ (l : Fin 128) (h' : Fin 8), G (ix2 l h') = if head l = h' then 1 else 0)
    (hks : ∀ l : Fin 128, ks (ix2 e l) = lin x Wk bk (node (srcw ei e)) l)
    (hqd : ∀ l : Fin 128, qd (ix2 e l) = lin x Wq bq (node (dstw ei e)) l) :
    rawScore ks qd ea We be G e h = score x ea ei Wq bq Wk bk We be e h := by
  unfold rawScore score
  rw [sum_mul_indicator _ (fun l => G (ix2 l h)) h (fun l => hG l h)]
  refine congrArg (fun t => Ideal.exp (min hi (max lo t))) (Finset.sum_congr rfl fun d _ => ?_)
  rw [hks, hqd]
  exact mul_right_comm _ _ _

/-- With `GT` the transposed indicator as well, the dense message is the message. -/
theorem rawMsg_eq (e : Fin 800000) (j : Fin 128)
    (hG : ∀ (l : Fin 128) (h' : Fin 8), G (ix2 l h') = if head l = h' then 1 else 0)
    (hGT : ∀ (h' : Fin 8) (l : Fin 128), GT (ix2 h' l) = if head l = h' then 1 else 0)
    (hks : ∀ l : Fin 128, ks (ix2 e l) = lin x Wk bk (node (srcw ei e)) l)
    (hqd : ∀ l : Fin 128, qd (ix2 e l) = lin x Wq bq (node (dstw ei e)) l)
    (hvs : vs (ix2 e j) = lin x Wv bv (node (srcw ei e)) j) :
    rawMsg ks qd ea vs We be G GT e j = msg x ea ei Wq bq Wk bk We be Wv bv e j := by
  unfold rawMsg msg
  rw [hvs, sum_mul_indicator_head _ (fun h => GT (ix2 h j)) j (fun h => hGT h j),
    rawScore_eq x ea ei Wq bq Wk bk We be ks qd G e (head j) hG hks hqd]

end

end Cert.Spec

end
-- ==== Proof.RegionOne.lean ====
/-
  THE TWO OUTPUT ARRAYS OF THE SCORE-AND-MESSAGE REGION, as whole-array functions of the region's input arrays, over the
  extended reals.

  The region runs over 200 blocks of 4000 edge rows.  On one block it forms the edge projection `et = ea·We + be`, the lane
  products `ks · qd · et · ¼`, their per-head sums as a product with `G : [128, 8]`, clips those to `[−5, 5]` and
  exponentiates: the score block `[4000, 8]`.  It spreads the scores over the lanes by a product with `GT : [8, 128]` and
  multiplies by `vs`: the message block `[4000, 128]`.  Over the extended reals a cast between float formats is the
  identity and a matrix product into the zero accumulator is the exact sum over the contracted axis, whatever its
  precision.

  First the arithmetic of one block: each of the three products read at a row and a column is the sum over the contracted
  axis, and the bias row, cast to one row and broadcast down the block, reads the bias at the lane; so the two block
  payloads at an index are the specification's dense score and message of that row (`pay1_apply`, `pay2_apply`).  Then
  the blocks: row `p` of the block of point `t` of each of the four edge-row inputs is edge row `4000 t + p` of its array,
  and the block of each of the four parameter inputs is the whole array, by the index maps decided once over the 200
  points; what point `t` writes back is block `t` of ONE whole-array function; edge row `r` lies in the block of point
  `r / 4000`, so the blocks cover the arrays.  Hence `arr_score` and `arr_msg`.
-/
import proofs.«413665_j11476152615031_3_alg».proof.Proof.Gen.KernelIdeal.Frame
import proofs.«413665_j11476152615031_3_alg».proof.Proof.SpecDense
import Idealize.ShloMosaic.Lib.Pipeline.Value
import Idealize.ShloMosaic.Lib.ValueIdx
import Idealize.ShloMosaic.PureOps.Ideal.Laws

noncomputable section

open scoped BigOperators

namespace Cert.KernelIdeal.RegionOne

open Cert.KernelIdeal Cert.KernelIdeal.Gen Idealize.ShloMosaic Idealize.ShloMosaic.ValueIdx Idealize.ShloMosaic.TcCoe

/-! The product `proj` read at an index. -/

theorem lhs_proj_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_proj_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_proj_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_proj_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

theorem matmul_proj_apply (prec : Option ContractPrecision) {φ₁ φ₂ : FTy} (a : FVec Ideal S4000x128 φ₁) (b : FVec Ideal S128x128 φ₂) (p : Fin 4000) (q : Fin 128) :
    matmul dot_S4000x128_S128x128_S4000x128_1_0_0_1_n_n prec a b (constant S4000x128 .f32 0x00000000#32) (ix2 p q)
      = ∑ k : Fin 128, a (ix2 p k) * b (ix2 k q) := by
  show FloatOps.matmul dot_S4000x128_S128x128_S4000x128_1_0_0_1_n_n prec a b (constant S4000x128 .f32 0x00000000#32) (ix2 p q) = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_proj_0 _ _).trans hk
    | ⟨1, _⟩ => exact rhs_proj_1 _ _)
  rw [el, er]

/-! The product `heads` read at an index. -/

theorem lhs_heads_0 (i : S4000x8.Idx) (q : dot_S4000x128_S128x8_S4000x8_1_0_0_1_n_n.contr.Idx) :
    (dot_S4000x128_S128x8_S4000x8_1_0_0_1_n_n.lhsIdx i q 0).val = (i 0).val := by
  unfold DotDims.lhsIdx
  rw [dif_neg (show ¬(0 : Fin S4000x128.rank) ∈ dot_S4000x128_S128x8_S4000x8_1_0_0_1_n_n.lhsBatch by decide), dif_pos (show (0 : Fin S4000x128.rank) ∈ dot_S4000x128_S128x8_S4000x8_1_0_0_1_n_n.lhsNonContracting by decide)]
  rfl
theorem lhs_heads_1 (i : S4000x8.Idx) (q : dot_S4000x128_S128x8_S4000x8_1_0_0_1_n_n.contr.Idx) :
    (dot_S4000x128_S128x8_S4000x8_1_0_0_1_n_n.lhsIdx i q 1).val = (q ⟨0, by decide⟩).val :=
  dot_S4000x128_S128x8_S4000x8_1_0_0_1_n_n.lhsIdx_val_of_single rfl i q
theorem rhs_heads_0 (i : S4000x8.Idx) (q : dot_S4000x128_S128x8_S4000x8_1_0_0_1_n_n.contr.Idx) :
    (dot_S4000x128_S128x8_S4000x8_1_0_0_1_n_n.rhsIdx i q 0).val = (q ⟨0, by decide⟩).val :=
  dot_S4000x128_S128x8_S4000x8_1_0_0_1_n_n.rhsIdx_val_of_single rfl i q
theorem rhs_heads_1 (i : S4000x8.Idx) (q : dot_S4000x128_S128x8_S4000x8_1_0_0_1_n_n.contr.Idx) :
    (dot_S4000x128_S128x8_S4000x8_1_0_0_1_n_n.rhsIdx i q 1).val = (i 1).val := by
  unfold DotDims.rhsIdx
  rw [dif_neg (show ¬(1 : Fin S128x8.rank) ∈ dot_S4000x128_S128x8_S4000x8_1_0_0_1_n_n.rhsBatch by decide), dif_pos (show (1 : Fin S128x8.rank) ∈ dot_S4000x128_S128x8_S4000x8_1_0_0_1_n_n.rhsNonContracting by decide)]
  rfl

theorem matmul_heads_apply (prec : Option ContractPrecision) {φ₁ φ₂ : FTy} (a : FVec Ideal S4000x128 φ₁) (b : FVec Ideal S128x8 φ₂) (p : Fin 4000) (q : Fin 8) :
    matmul dot_S4000x128_S128x8_S4000x8_1_0_0_1_n_n prec a b (constant S4000x8 .f32 0x00000000#32) (ix2 p q)
      = ∑ k : Fin 128, a (ix2 p k) * b (ix2 k q) := by
  show FloatOps.matmul dot_S4000x128_S128x8_S4000x8_1_0_0_1_n_n prec a b (constant S4000x8 .f32 0x00000000#32) (ix2 p q) = _
  rw [Ideal.matmul_constant_zero_apply, ← Equiv.sum_comp (contrEquiv1 dot_S4000x128_S128x8_S4000x8_1_0_0_1_n_n 128 rfl rfl).symm]
  refine Finset.sum_congr rfl fun k _ => ?_
  have hk := contrEquiv1_symm_val dot_S4000x128_S128x8_S4000x8_1_0_0_1_n_n 128 rfl rfl k
  have el : dot_S4000x128_S128x8_S4000x8_1_0_0_1_n_n.lhsIdx (ix2 p q) ((contrEquiv1 dot_S4000x128_S128x8_S4000x8_1_0_0_1_n_n 128 rfl rfl).symm k) = ix2 p k := funext fun a => Fin.ext (by
    match a with
    | ⟨0, _⟩ => exact lhs_heads_0 _ _
    | ⟨1, _⟩ => exact (lhs_heads_1 _ _).trans hk)
  have er : dot_S4000x128_S128x8_S4000x8_1_0_0_1_n_n.rhsIdx (ix2 p q) ((contrEquiv1 dot_S4000x128_S128x8_S4000x8_1_0_0_1_n_n 128 rfl rfl).symm k) = ix2 k q := funext fun a => Fin.ext (by
    match a with
    | ⟨0, _⟩ => exact (rhs_heads_0 _ _).trans hk
    | ⟨1, _⟩ => exact rhs_heads_1 _ _)
  rw [el, er]

/-! The product `spread` read at an index. -/

theorem lhs_spread_0 (i : S4000x128.Idx) (q : dot_S4000x8_S8x128_S4000x128_1_0_0_1_n_n.contr.Idx) :
    (dot_S4000x8_S8x128_S4000x128_1_0_0_1_n_n.lhsIdx i q 0).val = (i 0).val := by
  unfold DotDims.lhsIdx
  rw [dif_neg (show ¬(0 : Fin S4000x8.rank) ∈ dot_S4000x8_S8x128_S4000x128_1_0_0_1_n_n.lhsBatch by decide), dif_pos (show (0 : Fin S4000x8.rank) ∈ dot_S4000x8_S8x128_S4000x128_1_0_0_1_n_n.lhsNonContracting by decide)]
  rfl
theorem lhs_spread_1 (i : S4000x128.Idx) (q : dot_S4000x8_S8x128_S4000x128_1_0_0_1_n_n.contr.Idx) :
    (dot_S4000x8_S8x128_S4000x128_1_0_0_1_n_n.lhsIdx i q 1).val = (q ⟨0, by decide⟩).val :=
  dot_S4000x8_S8x128_S4000x128_1_0_0_1_n_n.lhsIdx_val_of_single rfl i q
theorem rhs_spread_0 (i : S4000x128.Idx) (q : dot_S4000x8_S8x128_S4000x128_1_0_0_1_n_n.contr.Idx) :
    (dot_S4000x8_S8x128_S4000x128_1_0_0_1_n_n.rhsIdx i q 0).val = (q ⟨0, by decide⟩).val :=
  dot_S4000x8_S8x128_S4000x128_1_0_0_1_n_n.rhsIdx_val_of_single rfl i q
theorem rhs_spread_1 (i : S4000x128.Idx) (q : dot_S4000x8_S8x128_S4000x128_1_0_0_1_n_n.contr.Idx) :
    (dot_S4000x8_S8x128_S4000x128_1_0_0_1_n_n.rhsIdx i q 1).val = (i 1).val := by
  unfold DotDims.rhsIdx
  rw [dif_neg (show ¬(1 : Fin S8x128.rank) ∈ dot_S4000x8_S8x128_S4000x128_1_0_0_1_n_n.rhsBatch by decide), dif_pos (show (1 : Fin S8x128.rank) ∈ dot_S4000x8_S8x128_S4000x128_1_0_0_1_n_n.rhsNonContracting by decide)]
  rfl

theorem matmul_spread_apply (prec : Option ContractPrecision) {φ₁ φ₂ : FTy} (a : FVec Ideal S4000x8 φ₁) (b : FVec Ideal S8x128 φ₂) (p : Fin 4000) (q : Fin 128) :
    matmul dot_S4000x8_S8x128_S4000x128_1_0_0_1_n_n prec a b (constant S4000x128 .f32 0x00000000#32) (ix2 p q)
      = ∑ k : Fin 8, a (ix2 p k) * b (ix2 k q) := by
  show FloatOps.matmul dot_S4000x8_S8x128_S4000x128_1_0_0_1_n_n prec a b (constant S4000x128 .f32 0x00000000#32) (ix2 p q) = _
  rw [Ideal.matmul_constant_zero_apply, ← Equiv.sum_comp (contrEquiv1 dot_S4000x8_S8x128_S4000x128_1_0_0_1_n_n 8 rfl rfl).symm]
  refine Finset.sum_congr rfl fun k _ => ?_
  have hk := contrEquiv1_symm_val dot_S4000x8_S8x128_S4000x128_1_0_0_1_n_n 8 rfl rfl k
  have el : dot_S4000x8_S8x128_S4000x128_1_0_0_1_n_n.lhsIdx (ix2 p q) ((contrEquiv1 dot_S4000x8_S8x128_S4000x128_1_0_0_1_n_n 8 rfl rfl).symm k) = ix2 p k := funext fun a => Fin.ext (by
    match a with
    | ⟨0, _⟩ => exact lhs_spread_0 _ _
    | ⟨1, _⟩ => exact (lhs_spread_1 _ _).trans hk)
  have er : dot_S4000x8_S8x128_S4000x128_1_0_0_1_n_n.rhsIdx (ix2 p q) ((contrEquiv1 dot_S4000x8_S8x128_S4000x128_1_0_0_1_n_n 8 rfl rfl).symm k) = ix2 k q := funext fun a => Fin.ext (by
    match a with
    | ⟨0, _⟩ => exact (rhs_spread_0 _ _).trans hk
    | ⟨1, _⟩ => exact rhs_spread_1 _ _)
  rw [el, er]

/-- The bias row, cast to one row and broadcast down the block, read at a row and a lane, is the bias at the lane. -/
theorem bias_apply (b : FVec Ideal S128 .f32) (p : Fin 4000) (q : Fin 128) :
    broadcastTo S4000x128 (shapeCast S1x128 b shapeCasts_S128_S1x128) broadcasts_S1x128_S4000x128 (ix2 p q) = b (ix1 q) := by
  refine (broadcastTo_apply _ broadcasts_S1x128_S4000x128 (ix2 p q) (ix2 (0 : Fin 1) q) (fun a => ?_)).trans ?_
  · match a with
    | ⟨0, _⟩ => rfl
    | ⟨1, _⟩ => rfl
  · refine (shapeCast_addUnit_apply ![128] b shapeCasts_S128_S1x128 (ix2 (0 : Fin 1) q)).trans ?_
    exact congrArg b (funext fun a => by match a with | ⟨0, _⟩ => rfl)

/-- The exponential of a block, read at an index. -/
theorem exp_apply {s : Shape} {φ : FTy} (a : FVec Ideal s φ) (i : s.Idx) : exp a i = Ideal.exp (a i) := rfl

/-- THE SCORE BLOCK at row `p`, head `h`: the clipped per-head sum of `ks · qd · (ea·We + be) · ¼` against `G`,
    exponentiated. -/
theorem pay1_apply (v0 v2 v6 : Vec Ideal S4000x128 .f32) (v8 : Vec Ideal S128x128 .f32) (v11 : Vec Ideal S128 .f32)
    (v19 : Vec Ideal S128x8 .f32) (p : Fin 4000) (h : Fin 8) :
    k1_pay1 v0 v2 v6 v8 v11 v19 (ix2 p h)
      = Ideal.exp (min Cert.Spec.hi (max Cert.Spec.lo (∑ l : Fin 128,
          (v0 (ix2 p l) * v2 (ix2 p l) * ((∑ k : Fin 128, v6 (ix2 p k) * v8 (ix2 k l)) + v11 (ix1 l)) * Cert.Spec.quarter)
            * v19 (ix2 l h)))) := by
  unfold k1_pay1
  simp only [shapeCast_self]
  simp only [exp_apply, minimumf_apply, maximumf_apply, broadcast_apply, matmul_heads_apply, mulf_apply, addf_apply,
    matmul_proj_apply, bias_apply, truncf_apply, Ideal.ofBits_def]

/-- THE MESSAGE BLOCK at row `p`, lane `j`: the value row times the scores spread over the lanes by `GT`. -/
theorem pay2_apply (v0 v2 v4 v6 : Vec Ideal S4000x128 .f32) (v8 : Vec Ideal S128x128 .f32) (v11 : Vec Ideal S128 .f32)
    (v19 : Vec Ideal S128x8 .f32) (v28 : Vec Ideal S8x128 .f32) (p : Fin 4000) (j : Fin 128) :
    k1_pay2 v0 v2 v4 v6 v8 v11 v19 v28 (ix2 p j)
      = v4 (ix2 p j) * ∑ h : Fin 8, k1_pay1 v0 v2 v6 v8 v11 v19 (ix2 p h) * v28 (ix2 h j) := by
  unfold k1_pay2
  simp only [shapeCast_self]
  simp only [mulf_apply, matmul_spread_apply]

/-! ## From blocks to the arrays -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the 200 grid points: the four edge-row inputs and the two outputs sit at block row `t`,
    lane block `0`. -/
theorem idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- The four parameter inputs sit at block `0` on every axis: their block is the whole array. -/
theorem idx_whole : ∀ t : Fin cfg1.N,
    win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Row `p` of block `t` is edge row `4000 t + p`. -/
def erow (t : Fin cfg1.N) (p : Fin 4000) : Fin 800000 :=
  ⟨4000 * t.val + p.val, by have hN : cfg1.N = 200 := N_1; have := t.isLt; have := p.isLt; omega⟩

theorem iblk_ks (c : Dev nD) (t : Fin cfg1.N) (p : Fin 4000) (l : Fin 128) :
    (iblk1 V c 0 t : Vec Ideal S4000x128 .f32) (ix2 p l) = (V c main_v6 : S800000x128.Idx → EReal) (ix2 (erow t p) l) := by
  have e0 : win1_0.index t (0 : Fin 2) = t.val := by have := idx_rows t; tauto
  have e1 : win1_0.index t (1 : Fin 2) = 0 := by have := idx_rows t; tauto
  unfold iblk1
  rw [View.read_apply]
  show V c main_v6 _ = V c main_v6 _
  congr 1
  funext a
  apply Fin.ext
  match a with
  | ⟨0, _⟩ => show win1_0.index t 0 * 4000 + 1 * p.val = 4000 * t.val + p.val; rw [e0]; omega
  | ⟨1, _⟩ => show win1_0.index t 1 * 128 + 1 * l.val = l.val; rw [e1]; omega

theorem iblk_qd (c : Dev nD) (t : Fin cfg1.N) (p : Fin 4000) (l : Fin 128) :
    (iblk1 V c 1 t : Vec Ideal S4000x128 .f32) (ix2 p l) = (V c main_v8 : S800000x128.Idx → EReal) (ix2 (erow t p) l) := by
  have e0 : win1_1.index t (0 : Fin 2) = t.val := by have := idx_rows t; tauto
  have e1 : win1_1.index t (1 : Fin 2) = 0 := by have := idx_rows t; tauto
  unfold iblk1
  rw [View.read_apply]
  show V c main_v8 _ = V c main_v8 _
  congr 1
  funext a
  apply Fin.ext
  match a with
  | ⟨0, _⟩ => show win1_1.index t 0 * 4000 + 1 * p.val = 4000 * t.val + p.val; rw [e0]; omega
  | ⟨1, _⟩ => show win1_1.index t 1 * 128 + 1 * l.val = l.val; rw [e1]; omega

theorem iblk_ea (c : Dev nD) (t : Fin cfg1.N) (p : Fin 4000) (l : Fin 128) :
    (iblk1 V c 2 t : Vec Ideal S4000x128 .f32) (ix2 p l) = (V c main_arg1 : S800000x128.Idx → EReal) (ix2 (erow t p) l) := by
  have e0 : win1_2.index t (0 : Fin 2) = t.val := by have := idx_rows t; tauto
  have e1 : win1_2.index t (1 : Fin 2) = 0 := by have := idx_rows t; tauto
  unfold iblk1
  rw [View.read_apply]
  show V c main_arg1 _ = V c main_arg1 _
  congr 1
  funext a
  apply Fin.ext
  match a with
  | ⟨0, _⟩ => show win1_2.index t 0 * 4000 + 1 * p.val = 4000 * t.val + p.val; rw [e0]; omega
  | ⟨1, _⟩ => show win1_2.index t 1 * 128 + 1 * l.val = l.val; rw [e1]; omega

theorem iblk_vs (c : Dev nD) (t : Fin cfg1.N) (p : Fin 4000) (l : Fin 128) :
    (iblk1 V c 3 t : Vec Ideal S4000x128 .f32) (ix2 p l) = (V c main_v7 : S800000x128.Idx → EReal) (ix2 (erow t p) l) := by
  have e0 : win1_3.index t (0 : Fin 2) = t.val := by have := idx_rows t; tauto
  have e1 : win1_3.index t (1 : Fin 2) = 0 := by have := idx_rows t; tauto
  unfold iblk1
  rw [View.read_apply]
  show V c main_v7 _ = V c main_v7 _
  congr 1
  funext a
  apply Fin.ext
  match a with
  | ⟨0, _⟩ => show win1_3.index t 0 * 4000 + 1 * p.val = 4000 * t.val + p.val; rw [e0]; omega
  | ⟨1, _⟩ => show win1_3.index t 1 * 128 + 1 * l.val = l.val; rw [e1]; omega

theorem iblk_We (c : Dev nD) (t : Fin cfg1.N) :
    (iblk1 V c 4 t : Vec Ideal S128x128 .f32) = (V c main_arg7 : S128x128.Idx → EReal) := by
  have e0 : win1_4.index t (0 : Fin 2) = 0 := by have := idx_whole t; tauto
  have e1 : win1_4.index t (1 : Fin 2) = 0 := by have := idx_whole t; tauto
  funext x
  unfold iblk1
  rw [View.read_apply]
  show V c main_arg7 _ = V c main_arg7 _
  congr 1
  funext a
  apply Fin.ext
  match a with
  | ⟨0, _⟩ => show win1_4.index t 0 * 128 + 1 * (x 0).val = (x 0).val; rw [e0]; omega
  | ⟨1, _⟩ => show win1_4.index t 1 * 128 + 1 * (x 1).val = (x 1).val; rw [e1]; omega

theorem iblk_be (c : Dev nD) (t : Fin cfg1.N) :
    (iblk1 V c 5 t : Vec Ideal S128 .f32) = (V c main_arg8 : S128.Idx → EReal) := by
  have e0 : win1_5.index t (0 : Fin 1) = 0 := by have := idx_whole t; tauto
  funext x
  unfold iblk1
  rw [View.read_apply]
  show V c main_arg8 _ = V c main_arg8 _
  congr 1
  funext a
  apply Fin.ext
  match a with
  | ⟨0, _⟩ => show win1_5.index t 0 * 128 + 1 * (x 0).val = (x 0).val; rw [e0]; omega

theorem iblk_G (c : Dev nD) (t : Fin cfg1.N) :
    (iblk1 V c 6 t : Vec Ideal S128x8 .f32) = (V c main_v17 : S128x8.Idx → EReal) := by
  have e0 : win1_6.index t (0 : Fin 2) = 0 := by have := idx_whole t; tauto
  have e1 : win1_6.index t (1 : Fin 2) = 0 := by have := idx_whole t; tauto
  funext x
  unfold iblk1
  rw [View.read_apply]
  show V c main_v17 _ = V c main_v17 _
  congr 1
  funext a
  apply Fin.ext
  match a with
  | ⟨0, _⟩ => show win1_6.index t 0 * 128 + 1 * (x 0).val = (x 0).val; rw [e0]; omega
  | ⟨1, _⟩ => show win1_6.index t 1 * 8 + 1 * (x 1).val = (x 1).val; rw [e1]; omega

theorem iblk_GT (c : Dev nD) (t : Fin cfg1.N) :
    (iblk1 V c 7 t : Vec Ideal S8x128 .f32) = (V c main_v18 : S8x128.Idx → EReal) := by
  have e0 : win1_7.index t (0 : Fin 2) = 0 := by have := idx_whole t; tauto
  have e1 : win1_7.index t (1 : Fin 2) = 0 := by have := idx_whole t; tauto
  funext x
  unfold iblk1
  rw [View.read_apply]
  show V c main_v18 _ = V c main_v18 _
  congr 1
  funext a
  apply Fin.ext
  match a with
  | ⟨0, _⟩ => show win1_7.index t 0 * 8 + 1 * (x 0).val = (x 0).val; rw [e0]; omega
  | ⟨1, _⟩ => show win1_7.index t 1 * 128 + 1 * (x 1).val = (x 1).val; rw [e1]; omega

/-! ## The score array -/

/-- At a block row whose three edge rows are rows `e` of the arrays, and with the parameter blocks the parameter arrays,
    the score payload is the dense score of row `e`. -/
theorem score_block (ks qd ea : S800000x128.Idx → EReal) (We : S128x128.Idx → EReal) (be : S128.Idx → EReal)
    (G : S128x8.Idx → EReal) (b0 b1 b2 : Vec Ideal S4000x128 .f32) (b4 : Vec Ideal S128x128 .f32)
    (b5 : Vec Ideal S128 .f32) (b6 : Vec Ideal S128x8 .f32) (e : Fin 800000) (p : Fin 4000) (h : Fin 8)
    (h0 : ∀ l : Fin 128, b0 (ix2 p l) = ks (ix2 e l)) (h1 : ∀ l : Fin 128, b1 (ix2 p l) = qd (ix2 e l))
    (h2 : ∀ l : Fin 128, b2 (ix2 p l) = ea (ix2 e l)) (h4 : b4 = We) (h5 : b5 = be) (h6 : b6 = G) :
    k1_pay1 b0 b1 b2 b4 b5 b6 (ix2 p h) = Cert.Spec.rawScore ks qd ea We be G e h := by
  subst h4 h5 h6
  rw [pay1_apply]
  unfold Cert.Spec.rawScore Cert.Spec.lin
  simp only [h0, h1, h2]

/-- The score array as one function of the region's input arrays. -/
abbrev scoreArr (c : Dev nD) : S800000x8.Idx → EReal := fun i =>
  Cert.Spec.rawScore (V c main_v6) (V c main_v8) (V c main_arg1) (V c main_arg7) (V c main_arg8) (V c main_v17) (i 0) (i 1)

/-- What point `t` writes back to the score array is block `t` of `scoreArr`. -/
theorem flushed_score (c : Dev nD) (t : Fin cfg1.N) :
    (dat1 (F := Ideal) V c).flushed 9 t = ((cfg1.win 9).blk t).view.read (Elt Ideal) (scoreArr V c) := by
  show (cfg1.win 9).cut (grid1.coords t) ((dat1 (F := Ideal) V c).after 9 t) = _
  rw [after1_9]
  unfold out1_9
  rw [View.canon_unit_zero zero2]
  simp only [View.ld_unit_zero (S := S4000x128) zero2, View.ld_unit_zero (S := S128x128) zero2,
    View.ld_unit_zero (S := S128) zero1, View.ld_unit_zero (S := S128x8) zero2]
  have e0 : win1_9.index t (0 : Fin 2) = t.val := by have := idx_rows t; tauto
  have e1 : win1_9.index t (1 : Fin 2) = 0 := by have := idx_rows t; tauto
  funext y
  obtain ⟨p, h, rfl⟩ : ∃ (p : Fin 4000) (h : Fin 8), y = ix2 p h := ⟨y 0, y 1, eq_ix2 y⟩
  have hi : ((cfg1.win 9).blk t).view.emb (ix2 p h) = (ix2 (erow t p) h : S800000x8.Idx) := by
    funext a
    apply Fin.ext
    match a with
    | ⟨0, _⟩ => show win1_9.index t 0 * 4000 + 1 * p.val = 4000 * t.val + p.val; rw [e0]; omega
    | ⟨1, _⟩ => show win1_9.index t 1 * 8 + 1 * h.val = h.val; rw [e1]; omega
  show k1_pay1 (iblk1 V c 0 t) (iblk1 V c 1 t) (iblk1 V c 2 t) (iblk1 V c 4 t) (iblk1 V c 5 t) (iblk1 V c 6 t) (ix2 p h)
    = scoreArr V c (((cfg1.win 9).blk t).view.emb (ix2 p h))
  rw [hi]
  exact score_block (V c main_v6) (V c main_v8) (V c main_arg1) (V c main_arg7) (V c main_arg8) (V c main_v17)
    (iblk1 V c 0 t) (iblk1 V c 1 t) (iblk1 V c 2 t) (iblk1 V c 4 t) (iblk1 V c 5 t) (iblk1 V c 6 t) (erow t p) p h
    (iblk_ks V c t p) (iblk_qd V c t p) (iblk_ea V c t p) (iblk_We V c t) (iblk_be V c t) (iblk_G V c t)

/-- An index of the score array is in point `t`'s block iff each coordinate is in the block's range on its axis. -/
theorem mem_blk_score (t : Fin cfg1.N) (i : S800000x8.Idx) :
    i ∈ ((cfg1.win 9).blk t).view.set ↔ ∀ a : Fin 2, win1_9.index t a * S4000x8.size a ≤ (i a).val
      ∧ (i a).val < win1_9.index t a * S4000x8.size a + S4000x8.size a := by
  show i ∈ ((View.whole main_v19_1).slice (win1_9.rect t)).set ↔ _
  rw [View.set_slice_whole, Rect.mem_set_unit]
  exact Iff.rfl

/-- Edge row `r` is in the block of point `r / 4000`: the 200 blocks cover the score array. -/
theorem cover_score (i : S800000x8.Idx) :
    ∃ t : Fin cfg1.N, (cfg1.win 9).flush t = true ∧ i ∈ ((cfg1.win 9).blk t).view.set := by
  have hN : cfg1.N = 200 := N_1
  have hi0 : (i 0).val < 800000 := (i 0).isLt
  have hi1 : (i 1).val < 8 := (i 1).isLt
  have ht : (i 0).val / 4000 < cfg1.N := by omega
  have e0 : win1_9.index ⟨(i 0).val / 4000, ht⟩ (0 : Fin 2) = (i 0).val / 4000 := by have := idx_rows ⟨(i 0).val / 4000, ht⟩; tauto
  have e1 : win1_9.index ⟨(i 0).val / 4000, ht⟩ (1 : Fin 2) = 0 := by have := idx_rows ⟨(i 0).val / 4000, ht⟩; tauto
  refine ⟨⟨(i 0).val / 4000, ht⟩, flush1_9 _, ?_⟩
  rw [mem_blk_score]
  intro a
  match a with
  | ⟨0, _⟩ =>
    show win1_9.index ⟨(i 0).val / 4000, ht⟩ 0 * 4000 ≤ (i 0).val ∧ (i 0).val < win1_9.index ⟨(i 0).val / 4000, ht⟩ 0 * 4000 + 4000
    rw [e0]; omega
  | ⟨1, _⟩ =>
    show win1_9.index ⟨(i 0).val / 4000, ht⟩ 1 * 8 ≤ (i 1).val ∧ (i 1).val < win1_9.index ⟨(i 0).val / 4000, ht⟩ 1 * 8 + 8
    rw [e1]; omega

/-- THE SCORE ARRAY after the region: the dense score of every edge row at every head. -/
theorem arr_score (c : Dev nD) (e : Fin 800000) (h : Fin 8) :
    (dat1 (F := Ideal) V c).arrAt 9 cfg1.N (ix2 e h)
      = Cert.Spec.rawScore (V c main_v6) (V c main_v8) (V c main_arg1) (V c main_arg7) (V c main_arg8) (V c main_v17) e h :=
  congrFun ((dat1 (F := Ideal) V c).arrAt_eq_of_cover 9 (scoreArr V c) (fun t _ => flushed_score V c t) cover_score) (ix2 e h)

/-! ## The message array -/

/-- At a block row whose four edge rows are rows `e` of the arrays, and with the parameter blocks the parameter arrays,
    the message payload is the dense message of row `e`. -/
theorem msg_block (ks qd ea vs : S800000x128.Idx → EReal) (We : S128x128.Idx → EReal) (be : S128.Idx → EReal)
    (G : S128x8.Idx → EReal) (GT : S8x128.Idx → EReal) (b0 b1 b2 b3 : Vec Ideal S4000x128 .f32)
    (b4 : Vec Ideal S128x128 .f32) (b5 : Vec Ideal S128 .f32) (b6 : Vec Ideal S128x8 .f32) (b7 : Vec Ideal S8x128 .f32)
    (e : Fin 800000) (p : Fin 4000) (j : Fin 128)
    (h0 : ∀ l : Fin 128, b0 (ix2 p l) = ks (ix2 e l)) (h1 : ∀ l : Fin 128, b1 (ix2 p l) = qd (ix2 e l))
    (h2 : ∀ l : Fin 128, b2 (ix2 p l) = ea (ix2 e l)) (h3 : ∀ l : Fin 128, b3 (ix2 p l) = vs (ix2 e l))
    (h4 : b4 = We) (h5 : b5 = be) (h6 : b6 = G) (h7 : b7 = GT) :
    k1_pay2 b0 b1 b3 b2 b4 b5 b6 b7 (ix2 p j) = Cert.Spec.rawMsg ks qd ea vs We be G GT e j := by
  rw [pay2_apply, h3 j, h7]
  unfold Cert.Spec.rawMsg
  refine congrArg (fun s => vs (ix2 e j) * s) (Finset.sum_congr rfl fun h _ => ?_)
  rw [score_block ks qd ea We be G b0 b1 b2 b4 b5 b6 e p h h0 h1 h2 h4 h5 h6]

/-- The message array as one function of the region's input arrays. -/
abbrev msgArr (c : Dev nD) : S800000x128.Idx → EReal := fun i =>
  Cert.Spec.rawMsg (V c main_v6) (V c main_v8) (V c main_arg1) (V c main_v7) (V c main_arg7) (V c main_arg8) (V c main_v17)
    (V c main_v18) (i 0) (i 1)

/-- What point `t` writes back to the message array is block `t` of `msgArr`. -/
theorem flushed_msg (c : Dev nD) (t : Fin cfg1.N) :
    (dat1 (F := Ideal) V c).flushed 8 t = ((cfg1.win 8).blk t).view.read (Elt Ideal) (msgArr V c) := by
  show (cfg1.win 8).cut (grid1.coords t) ((dat1 (F := Ideal) V c).after 8 t) = _
  rw [after1_8]
  unfold out1_8
  rw [View.canon_unit_zero zero2]
  simp only [View.ld_unit_zero (S := S4000x128) zero2, View.ld_unit_zero (S := S128x128) zero2,
    View.ld_unit_zero (S := S128) zero1, View.ld_unit_zero (S := S128x8) zero2, View.ld_unit_zero (S := S8x128) zero2]
  have e0 : win1_8.index t (0 : Fin 2) = t.val := by have := idx_rows t; tauto
  have e1 : win1_8.index t (1 : Fin 2) = 0 := by have := idx_rows t; tauto
  funext y
  obtain ⟨p, j, rfl⟩ : ∃ (p : Fin 4000) (j : Fin 128), y = ix2 p j := ⟨y 0, y 1, eq_ix2 y⟩
  have hi : ((cfg1.win 8).blk t).view.emb (ix2 p j) = (ix2 (erow t p) j : S800000x128.Idx) := by
    funext a
    apply Fin.ext
    match a with
    | ⟨0, _⟩ => show win1_8.index t 0 * 4000 + 1 * p.val = 4000 * t.val + p.val; rw [e0]; omega
    | ⟨1, _⟩ => show win1_8.index t 1 * 128 + 1 * j.val = j.val; rw [e1]; omega
  show k1_pay2 (iblk1 V c 0 t) (iblk1 V c 1 t) (iblk1 V c 3 t) (iblk1 V c 2 t) (iblk1 V c 4 t) (iblk1 V c 5 t) (iblk1 V c 6 t)
      (iblk1 V c 7 t) (ix2 p j)
    = msgArr V c (((cfg1.win 8).blk t).view.emb (ix2 p j))
  rw [hi]
  exact msg_block (V c main_v6) (V c main_v8) (V c main_arg1) (V c main_v7) (V c main_arg7) (V c main_arg8) (V c main_v17)
    (V c main_v18) (iblk1 V c 0 t) (iblk1 V c 1 t) (iblk1 V c 2 t) (iblk1 V c 3 t) (iblk1 V c 4 t) (iblk1 V c 5 t)
    (iblk1 V c 6 t) (iblk1 V c 7 t) (erow t p) p j
    (iblk_ks V c t p) (iblk_qd V c t p) (iblk_ea V c t p) (iblk_vs V c t p) (iblk_We V c t) (iblk_be V c t) (iblk_G V c t)
    (iblk_GT V c t)

/-- An index of the message array is in point `t`'s block iff each coordinate is in the block's range on its axis. -/
theorem mem_blk_msg (t : Fin cfg1.N) (i : S800000x128.Idx) :
    i ∈ ((cfg1.win 8).blk t).view.set ↔ ∀ a : Fin 2, win1_8.index t a * S4000x128.size a ≤ (i a).val
      ∧ (i a).val < win1_8.index t a * S4000x128.size a + S4000x128.size a := by
  show i ∈ ((View.whole main_v19_0).slice (win1_8.rect t)).set ↔ _
  rw [View.set_slice_whole, Rect.mem_set_unit]
  exact Iff.rfl

/-- Edge row `r` is in the block of point `r / 4000`: the 200 blocks cover the message array. -/
theorem cover_msg (i : S800000x128.Idx) :
    ∃ t : Fin cfg1.N, (cfg1.win 8).flush t = true ∧ i ∈ ((cfg1.win 8).blk t).view.set := by
  have hN : cfg1.N = 200 := N_1
  have hi0 : (i 0).val < 800000 := (i 0).isLt
  have hi1 : (i 1).val < 128 := (i 1).isLt
  have ht : (i 0).val / 4000 < cfg1.N := by omega
  have e0 : win1_8.index ⟨(i 0).val / 4000, ht⟩ (0 : Fin 2) = (i 0).val / 4000 := by have := idx_rows ⟨(i 0).val / 4000, ht⟩; tauto
  have e1 : win1_8.index ⟨(i 0).val / 4000, ht⟩ (1 : Fin 2) = 0 := by have := idx_rows ⟨(i 0).val / 4000, ht⟩; tauto
  refine ⟨⟨(i 0).val / 4000, ht⟩, flush1_8 _, ?_⟩
  rw [mem_blk_msg]
  intro a
  match a with
  | ⟨0, _⟩ =>
    show win1_8.index ⟨(i 0).val / 4000, ht⟩ 0 * 4000 ≤ (i 0).val ∧ (i 0).val < win1_8.index ⟨(i 0).val / 4000, ht⟩ 0 * 4000 + 4000
    rw [e0]; omega
  | ⟨1, _⟩ =>
    show win1_8.index ⟨(i 0).val / 4000, ht⟩ 1 * 128 ≤ (i 1).val ∧ (i 1).val < win1_8.index ⟨(i 0).val / 4000, ht⟩ 1 * 128 + 128
    rw [e1]; omega

/-- THE MESSAGE ARRAY after the region: the dense message of every edge row at every lane. -/
theorem arr_msg (c : Dev nD) (e : Fin 800000) (j : Fin 128) :
    (dat1 (F := Ideal) V c).arrAt 8 cfg1.N (ix2 e j)
      = Cert.Spec.rawMsg (V c main_v6) (V c main_v8) (V c main_arg1) (V c main_v7) (V c main_arg7) (V c main_arg8)
          (V c main_v17) (V c main_v18) e j :=
  congrFun ((dat1 (F := Ideal) V c).arrAt_eq_of_cover 8 (msgArr V c) (fun t _ => flushed_msg V c t) cover_msg) (ix2 e j)

end Cert.KernelIdeal.RegionOne

end
-- ==== Proof.KernelValue.lean ====
/-
  THE IDEALIZED KERNEL PROGRAM'S RESULT IS THE SPECIFICATION'S FUNCTION.

  The result buffer after the run holds the host tail's function of the destination column and of the message and score
  arrays the second region leaves.  Those arrays are the dense message and score of the region's inputs; the inputs are,
  by the host operations between the regions, the rows of the first region's query, key and value tables at the edges'
  sources and destinations, and the 0/1 grouping matrix and its transpose; and the first region's tables are the three
  affine maps of the node features.  When every entry of the edge list is a node id, the dense message and score are
  the specification's, the tail's sums run over the specification's edges into a node, and the result at node `n`, lane
  `j` is `H n j`.
-/
import proofs.«413665_j11476152615031_3_alg».proof.Proof.KernelRun
import proofs.«413665_j11476152615031_3_alg».proof.Proof.KernelTail
import proofs.«413665_j11476152615031_3_alg».proof.Proof.KernelMid
import proofs.«413665_j11476152615031_3_alg».proof.Proof.KernelMidRead
import proofs.«413665_j11476152615031_3_alg».proof.Proof.RegionZero
import proofs.«413665_j11476152615031_3_alg».proof.Proof.RegionOne
import proofs.«413665_j11476152615031_3_alg».proof.Proof.SpecDense

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-! ## The launch contents, by name -/

abbrev ax (c : Dev nD) : FVec Ideal S50000x128 .f32 := m ((c.tc : Thread nD τ).loc main_arg0)
abbrev aea (c : Dev nD) : FVec Ideal S800000x128 .f32 := m ((c.tc : Thread nD τ).loc main_arg1)
abbrev aei (c : Dev nD) : IVec S2x800000 32 := m ((c.tc : Thread nD τ).loc main_arg2)
abbrev aWq (c : Dev nD) : FVec Ideal S128x128 .f32 := m ((c.tc : Thread nD τ).loc main_arg3)
abbrev abq (c : Dev nD) : FVec Ideal S128 .f32 := m ((c.tc : Thread nD τ).loc main_arg4)
abbrev aWk (c : Dev nD) : FVec Ideal S128x128 .f32 := m ((c.tc : Thread nD τ).loc main_arg5)
abbrev abk (c : Dev nD) : FVec Ideal S128 .f32 := m ((c.tc : Thread nD τ).loc main_arg6)
abbrev aWe (c : Dev nD) : FVec Ideal S128x128 .f32 := m ((c.tc : Thread nD τ).loc main_arg7)
abbrev abe (c : Dev nD) : FVec Ideal S128 .f32 := m ((c.tc : Thread nD τ).loc main_arg8)
abbrev aWv (c : Dev nD) : FVec Ideal S128x128 .f32 := m ((c.tc : Thread nD τ).loc main_arg9)
abbrev abv (c : Dev nD) : FVec Ideal S128 .f32 := m ((c.tc : Thread nD τ).loc main_arg10)

/-! ## The first region's exit -/

/-- An argument array the first region does not stage is as launched. -/
theorem W1_arg1 (c : Dev nD) : W1 m ρ c (Proc.devRef .tc main_arg1) = aea m c := W1_of_ne m ρ c main_arg1 (by decide)
theorem W1_arg2 (c : Dev nD) : W1 m ρ c (Proc.devRef .tc main_arg2) = aei m c := W1_of_ne m ρ c main_arg2 (by decide)
theorem W1_arg7 (c : Dev nD) : W1 m ρ c (Proc.devRef .tc main_arg7) = aWe m c := W1_of_ne m ρ c main_arg7 (by decide)
theorem W1_arg8 (c : Dev nD) : W1 m ρ c (Proc.devRef .tc main_arg8) = abe m c := W1_of_ne m ρ c main_arg8 (by decide)
/-- Its two tables are what its pipeline leaves. -/
theorem W1_q (c : Dev nD) : W1 m ρ c (Proc.devRef .tc main_v0_0) = (dat0 (V0 m ρ) c).arrAt 7 cfg0.N := W1_arr m ρ c 7
theorem W1_kv (c : Dev nD) : W1 m ρ c (Proc.devRef .tc main_v0_1) = (dat0 (V0 m ρ) c).arrAt 8 cfg0.N := W1_arr m ρ c 8

/-! ## What the second region finds -/

theorem V8_ks (c : Dev nD) : V8 m ρ c main_v6 = Mid.ksrcFn (aei m c) ((dat0 (V0 m ρ) c).arrAt 8 cfg0.N) :=
  (Mid.entry_v6 (W1 m ρ c)).trans (congrArg₂ Mid.ksrcFn (W1_arg2 m ρ c) (W1_kv m ρ c))
theorem V8_vs (c : Dev nD) : V8 m ρ c main_v7 = Mid.vsrcFn (aei m c) ((dat0 (V0 m ρ) c).arrAt 8 cfg0.N) :=
  (Mid.entry_v7 (W1 m ρ c)).trans (congrArg₂ Mid.vsrcFn (W1_arg2 m ρ c) (W1_kv m ρ c))
theorem V8_qd (c : Dev nD) : V8 m ρ c main_v8 = Mid.qdstFn (aei m c) ((dat0 (V0 m ρ) c).arrAt 7 cfg0.N) :=
  (Mid.entry_v8 (W1 m ρ c)).trans (congrArg₂ Mid.qdstFn (W1_arg2 m ρ c) (W1_q m ρ c))
theorem V8_ea (c : Dev nD) : V8 m ρ c main_arg1 = aea m c := (Mid.entry_arg1 (W1 m ρ c)).trans (W1_arg1 m ρ c)
theorem V8_We (c : Dev nD) : V8 m ρ c main_arg7 = aWe m c := (Mid.entry_arg7 (W1 m ρ c)).trans (W1_arg7 m ρ c)
theorem V8_be (c : Dev nD) : V8 m ρ c main_arg8 = abe m c := (Mid.entry_arg8 (W1 m ρ c)).trans (W1_arg8 m ρ c)
theorem V8_G (c : Dev nD) : V8 m ρ c main_v17 = Mid.Gmat := Mid.entry_v17 (W1 m ρ c)
theorem V8_GT (c : Dev nD) : V8 m ρ c main_v18 = Mid.GTmat := Mid.entry_v18 (W1 m ρ c)

section InRange
variable (hr : ∀ (c : Dev nD) (i : S2x800000.Idx), 0 ≤ (aei m c i).toInt ∧ (aei m c i).toInt < 50000)

include hr in
/-- The gathered key row of edge `e` is the key projection's row at the edge's source. -/
theorem ks_at (c : Dev nD) (e : Fin 800000) (l : Fin 128) :
    V8 m ρ c main_v6 (ix2 e l)
      = Cert.Spec.lin (ax m c) (aWk m c) (abk m c) (Cert.Spec.node (Cert.Spec.srcw (aei m c) e)) l := by
  rw [V8_ks, Mid.ksrcFn_apply (aei m c) (hr c) _ e l]
  exact RegionZero.arr_KV_lo (V0 m ρ) c _ l

include hr in
theorem vs_at (c : Dev nD) (e : Fin 800000) (l : Fin 128) :
    V8 m ρ c main_v7 (ix2 e l)
      = Cert.Spec.lin (ax m c) (aWv m c) (abv m c) (Cert.Spec.node (Cert.Spec.srcw (aei m c) e)) l := by
  rw [V8_vs, Mid.vsrcFn_apply (aei m c) (hr c) _ e l]
  exact RegionZero.arr_KV_hi (V0 m ρ) c _ l

include hr in
theorem qd_at (c : Dev nD) (e : Fin 800000) (l : Fin 128) :
    V8 m ρ c main_v8 (ix2 e l)
      = Cert.Spec.lin (ax m c) (aWq m c) (abq m c) (Cert.Spec.node (Cert.Spec.dstw (aei m c) e)) l := by
  rw [V8_qd, Mid.qdstFn_apply (aei m c) (hr c) _ e l]
  exact RegionZero.arr_Q (V0 m ρ) c _ l

/-! ## The second region's exit -/

theorem W9_msg (c : Dev nD) : W9 m ρ c (Proc.devRef .tc main_v19_0) = (dat1 (V8 m ρ) c).arrAt 8 cfg1.N := W9_arr m ρ c 8
theorem W9_score (c : Dev nD) : W9 m ρ c (Proc.devRef .tc main_v19_1) = (dat1 (V8 m ρ) c).arrAt 9 cfg1.N := W9_arr m ρ c 9
theorem W9_dst (c : Dev nD) : W9 m ρ c (Proc.devRef .tc main_v4) = Mid.edgeRow1 (aei m c) :=
  (W9_of_ne m ρ c main_v4 (by decide)).trans
    ((Mid.entry_v4 (W1 m ρ c)).trans (congrArg Mid.edgeRow1 (W1_arg2 m ρ c)))

include hr in
/-- The score array the second region leaves is the specification's score. -/
theorem score_at (c : Dev nD) (e : Fin 800000) (h : Fin 8) :
    W9 m ρ c (Proc.devRef .tc main_v19_1) (ix2 e h)
      = Cert.Spec.score (ax m c) (aea m c) (aei m c) (aWq m c) (abq m c) (aWk m c) (abk m c) (aWe m c) (abe m c) e h := by
  rw [W9_score, RegionOne.arr_score (V8 m ρ) c e h, V8_ea, V8_We, V8_be, V8_G]
  exact Cert.Spec.rawScore_eq (ax m c) (aea m c) (aei m c) (aWq m c) (abq m c) (aWk m c) (abk m c) (aWe m c) (abe m c)
    (V8 m ρ c main_v6) (V8 m ρ c main_v8) Mid.Gmat e h Mid.Gmat_apply
    (fun l => ks_at m ρ hr c e l) (fun l => qd_at m ρ hr c e l)

include hr in
/-- The message array the second region leaves is the specification's message. -/
theorem msg_at (c : Dev nD) (e : Fin 800000) (j : Fin 128) :
    W9 m ρ c (Proc.devRef .tc main_v19_0) (ix2 e j)
      = Cert.Spec.msg (ax m c) (aea m c) (aei m c) (aWq m c) (abq m c) (aWk m c) (abk m c) (aWe m c) (abe m c)
          (aWv m c) (abv m c) e j := by
  rw [W9_msg, RegionOne.arr_msg (V8 m ρ) c e j, V8_ea, V8_We, V8_be, V8_G, V8_GT]
  exact Cert.Spec.rawMsg_eq (ax m c) (aea m c) (aei m c) (aWq m c) (abq m c) (aWk m c) (abk m c) (aWe m c) (abe m c)
    (aWv m c) (abv m c) (V8 m ρ c main_v6) (V8 m ρ c main_v8) (V8 m ρ c main_v7) Mid.Gmat Mid.GTmat e j
    Mid.Gmat_apply Mid.GTmat_apply (fun l => ks_at m ρ hr c e l) (fun l => qd_at m ρ hr c e l) (vs_at m ρ hr c e j)

/-! ## The result -/

include hr in
/-- The result buffer at node `n`, lane `j`. -/
theorem result_at (c : Dev nD) (n : Fin 50000) (j : Fin 128) :
    W10 m ρ c (Proc.devRef .tc main_v32) (ix2 n j)
      = Cert.Spec.H (ax m c) (aea m c) (aei m c) (aWq m c) (abq m c) (aWk m c) (abk m c) (aWe m c) (abe m c)
          (aWv m c) (abv m c) n j := by
  have h1 : W10 m ρ c (Proc.devRef .tc main_v32)
      = Tail.tailFn (W9 m ρ c (Proc.devRef .tc main_v4)) (W9 m ρ c (Proc.devRef .tc main_v19_0))
          (W9 m ρ c (Proc.devRef .tc main_v19_1)) := Tail.tail_eq (W9 m ρ c)
  have hdst : ∀ e : Fin 800000, W9 m ρ c (Proc.devRef .tc main_v4) (ix1 e) = Cert.Spec.dstw (aei m c) e := fun e => by
    rw [W9_dst, Mid.edgeRow1_apply]; rfl
  rw [h1, Tail.tail_apply]
  unfold Cert.Spec.H Cert.Spec.into
  refine congrArg₂ Ideal.div ?_ (congrArg (· + Cert.Spec.eps) ?_)
  · refine Finset.sum_congr (Finset.filter_congr fun e _ => by rw [hdst]) fun e _ => ?_
    exact msg_at m ρ hr c e j
  · refine Finset.sum_congr (Finset.filter_congr fun e _ => by rw [hdst]) fun e _ => ?_
    exact score_at m ρ hr c e (Cert.Spec.head j)

end InRange

end Cert.KernelIdeal.KValue

end
-- ==== Proof.LibRowsThree.lean ====
/-
  WHOLE RANK-2 ROWS OUT OF A RANK-3 TABLE, READ AT AN INDEX. A gather of an operand `x : [N, A, B]` at a column
  of start indices `idx : [E, 1]` with offset_dims `[1, 2]`, collapsed_slice_dims `[0]`, start_index_map `[0]`,
  index_vector_dim `1` and slice_sizes `[1, A, B]` has result `[E, A, B]`; its element `(e, a, b)` is the operand's
  element `(r, a, b)` where the row `r` is the start index `idx[e, 0]` read as a signed integer and clamped into
  `[0, N − 1]`. An accumulating scatter of updates `upd : [E, A, B]` into an operand `x : [N, A, B]` at a column of
  scatter indices `idx : [E, 1]` with update_window_dims `[1, 2]`, inserted_window_dims `[0]`,
  scatter_dims_to_operand_dims `[0]` and index_vector_dim `1` has, over the extended reals, at `(n, a, b)` the value
  `x (n, a, b)` plus the sum of `upd (e, a, b)` over the update rows `e` whose scatter index, read SIGNED and NOT
  clamped, is `n` (an update whose row is outside `[0, N)` is dropped). Also: a sum over a rank-3 index set is the
  triple sum over the coordinates. General in the sizes.
-/
import Idealize.ShloMosaic.Lib.ValueIdx
import proofs.«413665_j11476152615031_3_alg».proof.Proof.LibScatterRows

noncomputable section

open scoped BigOperators

namespace Idealize.ShloMosaic.ValueIdx

open Idealize.ShloMosaic

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The gather: operand `[N, A, B]`, start indices `[E, 1]`, result `[E, A, B]` -/

section Rows3Gather

/-- The dimension numbers of a gather of whole rank-2 rows: the result's axes 1 and 2 are the offset axes (they run
    over a row), the operand's axis 0 is collapsed and is the one the start index addresses, the index vector lies
    along the start indices' axis 1, and a slice is `1 × A × B`. The conditions `wf` are decided (or assumed) on a
    program's literal shapes. -/
abbrev rows3Dims (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- THE GATHER OF ROWS READ AT `(e, a, b)`: the operand at row `idx[e, 0]` — read signed, clamped into
    `[0, N − 1]` — and position `(a, b)` of that row. -/
theorem gather_rows3_apply {α : Type} {N E A B w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (rows3Dims N E A B wf) x idx (ix3 e a b)
      = x (ix3 ⟨min (idx (ix2 e (0 : Fin 1))).toInt.toNat (N - 1), by omega⟩ a b) := by
  unfold Host.gather
  congr 1
  funext c
  refine Fin.ext ?_
  match c with
  | ⟨0, _⟩ =>
    -- the row: the clamped start; no batching coordinate, and no offset coordinate on a collapsed axis
    show (rows3Dims N E A B wf).start (ix3 e a b) idx 0 + (rows3Dims N E A B wf).batchCoord (ix3 e a b) 0
        + (rows3Dims N E A B wf).offCoord (ix3 e a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rows3Dims N E A B wf).startIndexMap from List.mem_singleton.mpr rfl)]
    have hsi : (rows3Dims N E A B wf).siIdx (ix3 e a b) ⟨List.idxOf (0 : Fin 3) (rows3Dims N E A B wf).startIndexMap,
        List.idxOf_lt_length_iff.2 (List.mem_singleton.mpr rfl)⟩ = ix2 e (0 : Fin 1) := by
      funext k; refine Fin.ext ?_
      match k with
      | ⟨0, _⟩ => rfl
      | ⟨1, _⟩ => rfl
    rw [hsi]
    rfl
  | ⟨1, _⟩ =>
    -- the first axis of a row: the start index map does not name it, so the start is 0; the offset coordinate is `a`
    show (rows3Dims N E A B wf).start (ix3 e a b) idx 1 + (rows3Dims N E A B wf).batchCoord (ix3 e a b) 1
        + (rows3Dims N E A B wf).offCoord (ix3 e a b) 1 = a.val
    have h1 : (1 : Fin 3) ∉ (rows3Dims N E A B wf).startIndexMap := by
      intro h; exact Nat.one_ne_zero (congrArg Fin.val (List.mem_singleton.mp h))
    have hk : (1 : Fin 3) ∈ (rows3Dims N E A B wf).sKept :=
      (GatherDims.mem_sKept _ _).mpr
        ⟨fun h => Nat.one_ne_zero (congrArg Fin.val (List.mem_singleton.mp h)), List.not_mem_nil⟩
    rw [GatherDims.batchCoord_eq_zero _ _ _ List.not_mem_nil]
    unfold GatherDims.start GatherDims.offCoord
    rw [dif_neg h1, dif_pos hk]
    simp only [Nat.add_zero, Nat.zero_add]
    rfl
  | ⟨2, _⟩ =>
    -- the second axis of a row: likewise, with offset coordinate `b`
    show (rows3Dims N E A B wf).start (ix3 e a b) idx 2 + (rows3Dims N E A B wf).batchCoord (ix3 e a b) 2
        + (rows3Dims N E A B wf).offCoord (ix3 e a b) 2 = b.val
    have h2 : (2 : Fin 3) ∉ (rows3Dims N E A B wf).startIndexMap := by
      intro h; exact (by decide : (2 : Nat) ≠ 0) (congrArg Fin.val (List.mem_singleton.mp h))
    have hk : (2 : Fin 3) ∈ (rows3Dims N E A B wf).sKept :=
      (GatherDims.mem_sKept _ _).mpr
        ⟨fun h => (by decide : (2 : Nat) ≠ 0) (congrArg Fin.val (List.mem_singleton.mp h)), List.not_mem_nil⟩
    rw [GatherDims.batchCoord_eq_zero _ _ _ List.not_mem_nil]
    unfold GatherDims.start GatherDims.offCoord
    rw [dif_neg h2, dif_pos hk]
    simp only [Nat.add_zero, Nat.zero_add]
    rfl

end Rows3Gather

/-! ## The accumulating scatter: operand `[N, A, B]`, scatter indices `[E, 1]`, updates `[E, A, B]` -/

section Rows3Scatter

/-- The dimension numbers of an accumulating scatter of whole rank-2 rows: the updates' axes 1 and 2 are the window
    axes (they run over a row), the operand's axis 0 is the inserted one and the one a scatter index addresses, and
    the index vector lies along the scatter indices' axis 1. The conditions `wf` are decided (or assumed) on a
    program's literal shapes. -/
abbrev rows3ScatterDims (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

variable {N E A B w : Nat} (wf : ScatterDims.WF ⟨3, ![N, A, B]⟩ ⟨2, ![E, 1]⟩ ⟨3, ![E, A, B]⟩ [1, 2] [0] [0] 1)
  (idx : IVec ⟨2, ![E, 1]⟩ w) (e : Fin E) (a' : Fin A) (b' : Fin B)

/-- On the row axis the start of update `(e, a', b')` is the scatter index `idx[e, 0]`, read signed. -/
theorem rows3Scatter_start_row :
    (rows3ScatterDims N E A B wf).start (ix3 e a' b') idx 0 = (idx (ix2 e (0 : Fin 1))).toInt := by
  unfold ScatterDims.start
  rw [dif_pos (show (0 : Fin 3) ∈ (rows3ScatterDims N E A B wf).scatterDimsToOperandDims from List.mem_singleton.mpr rfl)]
  have hsi : (rows3ScatterDims N E A B wf).siIdx (ix3 e a' b')
      ⟨List.idxOf (0 : Fin 3) (rows3ScatterDims N E A B wf).scatterDimsToOperandDims,
        List.idxOf_lt_length_iff.2 (List.mem_singleton.mpr rfl)⟩ = ix2 e (0 : Fin 1) := by
    funext k; refine Fin.ext ?_
    match k with
    | ⟨0, _⟩ => rfl
    | ⟨1, _⟩ => rfl
  rw [hsi]

/-- On the first axis of a row, which no scatter index addresses, the start is `0`. -/
theorem rows3Scatter_start_one : (rows3ScatterDims N E A B wf).start (ix3 e a' b') idx 1 = 0 := by
  unfold ScatterDims.start
  rw [dif_neg (show (1 : Fin 3) ∉ (rows3ScatterDims N E A B wf).scatterDimsToOperandDims from
    fun h => Nat.one_ne_zero (congrArg Fin.val (List.mem_singleton.mp h)))]

/-- On the second axis of a row, which no scatter index addresses, the start is `0`. -/
theorem rows3Scatter_start_two : (rows3ScatterDims N E A B wf).start (ix3 e a' b') idx 2 = 0 := by
  unfold ScatterDims.start
  rw [dif_neg (show (2 : Fin 3) ∉ (rows3ScatterDims N E A B wf).scatterDimsToOperandDims from
    fun h => (by decide : (2 : Nat) ≠ 0) (congrArg Fin.val (List.mem_singleton.mp h)))]

/-- The row axis is inserted: no window coordinate there. -/
theorem rows3Scatter_window_row : (rows3ScatterDims N E A B wf).window (ix3 e a' b') 0 = 0 := by
  unfold ScatterDims.window
  rw [dif_neg (show (0 : Fin 3) ∉ (rows3ScatterDims N E A B wf).sKept from
    fun h => (mem_kept_iff _ _).mp h (List.mem_singleton.mpr rfl))]

/-- On the first axis of a row the window coordinate of update `(e, a', b')` is `a'`. -/
theorem rows3Scatter_window_one : (rows3ScatterDims N E A B wf).window (ix3 e a' b') 1 = a'.val := by
  unfold ScatterDims.window
  rw [dif_pos (show (1 : Fin 3) ∈ (rows3ScatterDims N E A B wf).sKept from
    (mem_kept_iff _ _).mpr fun h => Nat.one_ne_zero (congrArg Fin.val (List.mem_singleton.mp h)))]
  rfl

/-- On the second axis of a row the window coordinate of update `(e, a', b')` is `b'`. -/
theorem rows3Scatter_window_two : (rows3ScatterDims N E A B wf).window (ix3 e a' b') 2 = b'.val := by
  unfold ScatterDims.window
  rw [dif_pos (show (2 : Fin 3) ∈ (rows3ScatterDims N E A B wf).sKept from
    (mem_kept_iff _ _).mpr fun h => (by decide : (2 : Nat) ≠ 0) (congrArg Fin.val (List.mem_singleton.mp h)))]
  rfl

/-- WHERE A ROW UPDATE LANDS: update `(e, a', b')` lands on operand element `(n, a, b)` exactly when the scatter index
    `idx[e, 0]`, read signed, is `n`, and the positions in the row agree. -/
theorem rows3Scatter_resultIdx?_eq_some (n : Fin N) (a : Fin A) (b : Fin B) :
    (rows3ScatterDims N E A B wf).resultIdx? (ix3 e a' b') idx = some (ix3 n a b)
      ↔ (idx (ix2 e (0 : Fin 1))).toInt = (n.val : ℤ) ∧ a' = a ∧ b' = b := by
  rw [resultIdx?_eq_some_iff]
  constructor
  · intro h
    have h0 := h 0
    have h1 := h 1
    have h2 := h 2
    rw [rows3Scatter_start_row, rows3Scatter_window_row] at h0
    rw [rows3Scatter_start_one, rows3Scatter_window_one] at h1
    rw [rows3Scatter_start_two, rows3Scatter_window_two] at h2
    have h0' : (idx (ix2 e (0 : Fin 1))).toInt + ((0 : Nat) : ℤ) = (n.val : ℤ) := h0
    have h1' : (0 : ℤ) + (a'.val : ℤ) = (a.val : ℤ) := h1
    have h2' : (0 : ℤ) + (b'.val : ℤ) = (b.val : ℤ) := h2
    exact ⟨by omega, Fin.ext (by omega), Fin.ext (by omega)⟩
  · rintro ⟨h0, rfl, rfl⟩ c
    match c with
    | ⟨0, _⟩ =>
      show (rows3ScatterDims N E A B wf).start (ix3 e a' b') idx 0
        + ((rows3ScatterDims N E A B wf).window (ix3 e a' b') 0 : ℤ) = (n.val : ℤ)
      rw [rows3Scatter_start_row, rows3Scatter_window_row, h0]
      simp
    | ⟨1, _⟩ =>
      show (rows3ScatterDims N E A B wf).start (ix3 e a' b') idx 1
        + ((rows3ScatterDims N E A B wf).window (ix3 e a' b') 1 : ℤ) = (a'.val : ℤ)
      rw [rows3Scatter_start_one, rows3Scatter_window_one]
      simp
    | ⟨2, _⟩ =>
      show (rows3ScatterDims N E A B wf).start (ix3 e a' b') idx 2
        + ((rows3ScatterDims N E A B wf).window (ix3 e a' b') 2 : ℤ) = (b'.val : ℤ)
      rw [rows3Scatter_start_two, rows3Scatter_window_two]
      simp

end Rows3Scatter

section Rows3ScatterRead

/-- THE ACCUMULATING SCATTER OF ROWS READ AT `(n, a, b)`, over the extended reals: the operand's element plus the sum,
    over the update rows `e` whose scatter index `idx[e, 0]` (read signed) is `n`, of the update's element
    `(e, a, b)`. -/
theorem scatterAdd_rows3_apply {N E A B w : Nat} {φ : FTy}
    (wf : ScatterDims.WF ⟨3, ![N, A, B]⟩ ⟨2, ![E, 1]⟩ ⟨3, ![E, A, B]⟩ [1, 2] [0] [0] 1)
    (x : FVec Ideal ⟨3, ![N, A, B]⟩ φ) (idx : IVec ⟨2, ![E, 1]⟩ w) (upd : FVec Ideal ⟨3, ![E, A, B]⟩ φ)
    (n : Fin N) (a : Fin A) (b : Fin B) :
    Host.scatterAdd (F := Ideal) (rows3ScatterDims N E A B wf) x idx upd (ix3 n a b)
      = x (ix3 n a b)
        + ∑ e ∈ Finset.univ.filter (fun e : Fin E => (idx (ix2 e (0 : Fin 1))).toInt = (n.val : ℤ)), upd (ix3 e a b) := by
  show x (ix3 n a b) + ∑ v ∈ Finset.univ.filter
      (fun v => (rows3ScatterDims N E A B wf).resultIdx? v idx = some (ix3 n a b)), upd v = _
  congr 1
  rw [Finset.sum_filter, sum_idx3, Finset.sum_filter]
  refine Finset.sum_congr rfl fun e _ => ?_
  simp only [rows3Scatter_resultIdx?_eq_some]
  by_cases ht : (idx (ix2 e (0 : Fin 1))).toInt = (n.val : ℤ)
  · simp only [ht, true_and, if_true]
    -- of the positions in row `e` only `(a, b)` contributes
    have hin : ∀ a' : Fin A, (∑ b' : Fin B, if a' = a ∧ b' = b then upd (ix3 e a' b') else 0)
        = if a' = a then upd (ix3 e a' b) else 0 := by
      intro a'
      by_cases ha : a' = a
      · simp only [ha, true_and, if_true]
        exact (Finset.sum_ite_eq' Finset.univ b (fun c => upd (ix3 e a c))).trans (if_pos (Finset.mem_univ b))
      · simp only [ha, false_and, if_false, Finset.sum_const_zero]
    rw [Finset.sum_congr rfl (fun a' _ => hin a')]
    exact (Finset.sum_ite_eq' Finset.univ a (fun c => upd (ix3 e c b))).trans (if_pos (Finset.mem_univ a))
  · simp only [ht, false_and, if_false, Finset.sum_const_zero]

end Rows3ScatterRead

end Idealize.ShloMosaic.ValueIdx

end
-- ==== Proof.RefValue.lean ====
/-
  THE REFERENCE PROGRAM COMPUTES THE SPECIFICATION'S FUNCTION `H`, index by index, over the extended reals.

  The reference's result is read one operation at a time. The four projections `Q = x·Wq + bq`, `K = x·Wk + bk`,
  `V = x·Wv + bv` (per node) and `E = ea·We + be` (per edge), reshaped from 128 lanes to 8 heads of 16, are the affine
  map `lin` at lane `16 h + d`. Where every word of the edge list is a node id in `[0, 50000)`, the wrap of negative
  indices leaves the words alone, so the three gathers read K at an edge's source, Q at its destination and V at its
  source, each at the node the word names. The per-head sum of `K · Q · ¼ · E`, clipped to `[-5, 5]` and exponentiated,
  is the score; V times the score spread over a head's 16 lanes is the message. The two accumulating scatters into zero
  tables sum the messages, and the scores, over the edges whose destination word, read signed, is the node. The quotient
  of the first sum by the second plus ε, flattened back to 128 lanes, is `H`: `ref_eq_spec`.
-/
import proofs.«413665_j11476152615031_3_alg».proof.Proof.Gen.ReferenceIdeal.Read
import proofs.«413665_j11476152615031_3_alg».proof.Proof.Spec
import proofs.«413665_j11476152615031_3_alg».proof.Proof.LibRowsThree
import Idealize.ShloMosaic.Lib.ValueIdx
import Idealize.ShloMosaic.Lib.Affine
import Idealize.ShloMosaic.PureOps.Ideal
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

section Stages

variable (x0 : (⟨S50000x128, .f32⟩ : BufTy).Contents (Elt Ideal)) (x1 : (⟨S800000x128, .f32⟩ : BufTy).Contents (Elt Ideal))
  (x2 : (⟨S2x800000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal))

/-! ## The four projections, reshaped to heads -/

/-- The reshape of a `[N, 128]` table to `[N, 8, 16]` reads position `(n, h, d)` at lane `16 h + d` of row `n`. -/
theorem flat_div (n h d : Nat) (hh : h < 8) (hd : d < 16) : ((n * 8 + h) * 16 + d) / 128 = n := by omega
theorem flat_mod (n h d : Nat) (hh : h < 8) (hd : d < 16) : ((n * 8 + h) * 16 + d) % 128 = h * 16 + d := by omega

/-- Q at node `n`, head `h`, position `d`. -/
theorem q_eq (n : Fin 50000) (h : Fin 8) (d : Fin 16) :
    val_main_v4 (F := Ideal) x0 x3 x4 (ix3 n h d) = Cert.Spec.lin x0 x3 x4 n (Cert.Spec.lane h d) := by
  have hi : idx_main_v4 (ix3 n h d) = ix2 n (Cert.Spec.lane h d) := by
    funext a
    match a with
    | ⟨0, _⟩ => exact Fin.ext (flat_div n.val h.val d.val h.isLt d.isLt)
    | ⟨1, _⟩ => exact Fin.ext (flat_mod n.val h.val d.val h.isLt d.isLt)
  have hl : ∀ k : Fin 128, lidx_main_v0 (ix2 n (Cert.Spec.lane h d)) k = ix2 n k := fun k => by
    funext a; match a with | ⟨0, _⟩ => rfl | ⟨1, _⟩ => rfl
  have hrr : ∀ k : Fin 128, ridx_main_v0 (ix2 n (Cert.Spec.lane h d)) k = ix2 k (Cert.Spec.lane h d) := fun k => by
    funext a; match a with | ⟨0, _⟩ => rfl | ⟨1, _⟩ => rfl
  have hb : idx_main_v1 (idx_main_v2 (ix2 n (Cert.Spec.lane h d))) = ix1 (Cert.Spec.lane h d) := by
    funext a; match a with | ⟨0, _⟩ => rfl
  rw [val_main_v4_apply, hi, val_main_v3_apply, val_main_v0_apply, val_main_v2_apply, val_main_v1_apply, hb]
  simp only [hl, hrr]
  rfl

/-- K at node `n`, head `h`, position `d`. -/
theorem k_eq (n : Fin 50000) (h : Fin 8) (d : Fin 16) :
    val_main_v9 (F := Ideal) x0 x5 x6 (ix3 n h d) = Cert.Spec.lin x0 x5 x6 n (Cert.Spec.lane h d) := by
  have hi : idx_main_v9 (ix3 n h d) = ix2 n (Cert.Spec.lane h d) := by
    funext a
    match a with
    | ⟨0, _⟩ => exact Fin.ext (flat_div n.val h.val d.val h.isLt d.isLt)
    | ⟨1, _⟩ => exact Fin.ext (flat_mod n.val h.val d.val h.isLt d.isLt)
  have hl : ∀ k : Fin 128, lidx_main_v5 (ix2 n (Cert.Spec.lane h d)) k = ix2 n k := fun k => by
    funext a; match a with | ⟨0, _⟩ => rfl | ⟨1, _⟩ => rfl
  have hrr : ∀ k : Fin 128, ridx_main_v5 (ix2 n (Cert.Spec.lane h d)) k = ix2 k (Cert.Spec.lane h d) := fun k => by
    funext a; match a with | ⟨0, _⟩ => rfl | ⟨1, _⟩ => rfl
  have hb : idx_main_v6 (idx_main_v7 (ix2 n (Cert.Spec.lane h d))) = ix1 (Cert.Spec.lane h d) := by
    funext a; match a with | ⟨0, _⟩ => rfl
  rw [val_main_v9_apply, hi, val_main_v8_apply, val_main_v5_apply, val_main_v7_apply, val_main_v6_apply, hb]
  simp only [hl, hrr]
  rfl

/-- V at node `n`, head `h`, position `d`. -/
theorem v_eq (n : Fin 50000) (h : Fin 8) (d : Fin 16) :
    val_main_v14 (F := Ideal) x0 x9 x10 (ix3 n h d) = Cert.Spec.lin x0 x9 x10 n (Cert.Spec.lane h d) := by
  have hi : idx_main_v14 (ix3 n h d) = ix2 n (Cert.Spec.lane h d) := by
    funext a
    match a with
    | ⟨0, _⟩ => exact Fin.ext (flat_div n.val h.val d.val h.isLt d.isLt)
    | ⟨1, _⟩ => exact Fin.ext (flat_mod n.val h.val d.val h.isLt d.isLt)
  have hl : ∀ k : Fin 128, lidx_main_v10 (ix2 n (Cert.Spec.lane h d)) k = ix2 n k := fun k => by
    funext a; match a with | ⟨0, _⟩ => rfl | ⟨1, _⟩ => rfl
  have hrr : ∀ k : Fin 128, ridx_main_v10 (ix2 n (Cert.Spec.lane h d)) k = ix2 k (Cert.Spec.lane h d) := fun k => by
    funext a; match a with | ⟨0, _⟩ => rfl | ⟨1, _⟩ => rfl
  have hb : idx_main_v11 (idx_main_v12 (ix2 n (Cert.Spec.lane h d))) = ix1 (Cert.Spec.lane h d) := by
    funext a; match a with | ⟨0, _⟩ => rfl
  rw [val_main_v14_apply, hi, val_main_v13_apply, val_main_v10_apply, val_main_v12_apply, val_main_v11_apply, hb]
  simp only [hl, hrr]
  rfl

/-- E at edge `e`, head `h`, position `d`. -/
theorem e_eq (e : Fin 800000) (h : Fin 8) (d : Fin 16) :
    val_main_v19 (F := Ideal) x1 x7 x8 (ix3 e h d) = Cert.Spec.lin x1 x7 x8 e (Cert.Spec.lane h d) := by
  have hi : idx_main_v19 (ix3 e h d) = ix2 e (Cert.Spec.lane h d) := by
    funext a
    match a with
    | ⟨0, _⟩ => exact Fin.ext (flat_div e.val h.val d.val h.isLt d.isLt)
    | ⟨1, _⟩ => exact Fin.ext (flat_mod e.val h.val d.val h.isLt d.isLt)
  have hl : ∀ k : Fin 128, lidx_main_v15 (ix2 e (Cert.Spec.lane h d)) k = ix2 e k := fun k => by
    funext a; match a with | ⟨0, _⟩ => rfl | ⟨1, _⟩ => rfl
  have hrr : ∀ k : Fin 128, ridx_main_v15 (ix2 e (Cert.Spec.lane h d)) k = ix2 k (Cert.Spec.lane h d) := fun k => by
    funext a; match a with | ⟨0, _⟩ => rfl | ⟨1, _⟩ => rfl
  have hb : idx_main_v16 (idx_main_v17 (ix2 e (Cert.Spec.lane h d))) = ix1 (Cert.Spec.lane h d) := by
    funext a; match a with | ⟨0, _⟩ => rfl
  rw [val_main_v19_apply, hi, val_main_v18_apply, val_main_v15_apply, val_main_v17_apply, val_main_v16_apply, hb]
  simp only [hl, hrr]
  rfl

/-! ## The index columns -/

/-- A word that is not negative is left alone by the wrap of negative indices. -/
theorem wrap_id (w : BitVec 32) (h0 : 0 ≤ w.toInt) :
    Scalar.select (IntOp.cmpi .slt w 0#32) (IntOp.addi w 50000#32) w = w := by
  have hc : IntOp.cmpi .slt w 0#32 = 0#1 := by
    apply eq_zero_of_ne_one
    intro h1
    rw [IntOp.cmpi_slt] at h1
    have z : (0#32 : BitVec 32).toInt = 0 := by decide
    omega
  rw [hc, select_zero]

/-- Row 0 of the edge list, as a vector: the source words. -/
theorem srcvec_eq (e : Fin 800000) : val_main_v21 (F := Ideal) x2 (ix1 e) = Cert.Spec.srcw x2 e := by
  rw [val_main_v21_apply, val_main_v20_apply]
  unfold Cert.Spec.srcw
  congr 1
  funext a
  match a with
  | ⟨0, _⟩ => rfl
  | ⟨1, _⟩ => exact Fin.ext (Nat.mod_eq_of_lt e.isLt)

/-- Row 1 of the edge list, as a vector: the destination words. -/
theorem dstvec_eq (e : Fin 800000) : val_main_v23 (F := Ideal) x2 (ix1 e) = Cert.Spec.dstw x2 e := by
  rw [val_main_v23_apply, val_main_v22_apply]
  unfold Cert.Spec.dstw
  congr 1
  funext a
  match a with
  | ⟨0, _⟩ => rfl
  | ⟨1, _⟩ => exact Fin.ext (Nat.mod_eq_of_lt e.isLt)

/-- A column's entry `(e, 0)` is the vector's entry `e`. -/
theorem col_idx (e : Fin 800000) : idx_main_v29 (ix2 e (0 : Fin 1)) = ix1 e := by
  funext a; match a with | ⟨0, _⟩ => rfl

/-- The scatter indices of both scatters: the destination words, with no wrap. -/
theorem dstcol_m (e : Fin 800000) : val_main_v56 (F := Ideal) x2 (ix2 e (0 : Fin 1)) = Cert.Spec.dstw x2 e := by
  rw [val_main_v56_apply, show idx_main_v56 (ix2 e (0 : Fin 1)) = ix1 e from col_idx e, dstvec_eq]
theorem dstcol_s (e : Fin 800000) : val_main_v59 (F := Ideal) x2 (ix2 e (0 : Fin 1)) = Cert.Spec.dstw x2 e := by
  rw [val_main_v59_apply, show idx_main_v59 (ix2 e (0 : Fin 1)) = ix1 e from col_idx e, dstvec_eq]

/-- The rows an accumulating scatter at the destination words adds into row `n` are the edges into `n`. -/
theorem into_eq (c : (⟨S800000x1, .i32⟩ : BufTy).Contents (Elt Ideal))
    (hc : ∀ e : Fin 800000, c (ix2 e (0 : Fin 1)) = Cert.Spec.dstw x2 e) (n : Fin 50000) :
    Finset.univ.filter (fun e : Fin 800000 => (c (ix2 e (0 : Fin 1))).toInt = (n.val : ℤ)) = Cert.Spec.into x2 n := by
  unfold Cert.Spec.into
  refine Finset.filter_congr fun e _ => ?_
  rw [hc]

/-! ## The records of the gather and of the two scatters -/

/-- The program's record of the gather is the gather of whole rows out of a rank-3 table. -/
theorem gather_dims_eq :
    gather_S50000x8x16_S800000x1_S800000x8x16_12_0_n_n_0_1_1816
      = rows3Dims 50000 800000 8 16 Facts₀.gather_S50000x8x16_S800000x1_S800000x8x16_12_0_n_n_0_1_1816_wf := rfl

/-- The program's records of the two scatters are the accumulating scatters of whole rows into a rank-3 table. -/
theorem scatter16_dims_eq :
    scatter_S50000x8x16_S800000x1_S800000x8x16_12_0_0_1
      = rows3ScatterDims 50000 800000 8 16 Facts₀.scatter_S50000x8x16_S800000x1_S800000x8x16_12_0_0_1_wf := rfl
theorem scatter1_dims_eq :
    scatter_S50000x8x1_S800000x1_S800000x8x1_12_0_0_1
      = rows3ScatterDims 50000 800000 8 1 Facts₀.scatter_S50000x8x1_S800000x1_S800000x8x1_12_0_0_1_wf := rfl

/-! ## Under the range of the edge list: every word is a node id -/

section InRange
variable (hr : ∀ i : S2x800000.Idx, 0 ≤ (x2 i).toInt ∧ (x2 i).toInt < 50000)
include hr

/-- The start indices of the gather of K: the source words. -/
theorem srccol_k (e : Fin 800000) : val_main_v29 (F := Ideal) x2 (ix2 e (0 : Fin 1)) = Cert.Spec.srcw x2 e := by
  rw [val_main_v29_apply, col_idx, val_main_v28_apply, val_main_v25_apply, val_main_v27_apply, val_main_v24_apply,
    val_main_c_apply, val_main_v26_apply, val_main_c_0_apply, srcvec_eq]
  exact wrap_id _ (hr _).1

/-- The start indices of the gather of Q: the destination words. -/
theorem dstcol_q (e : Fin 800000) : val_main_v36 (F := Ideal) x2 (ix2 e (0 : Fin 1)) = Cert.Spec.dstw x2 e := by
  rw [val_main_v36_apply, show idx_main_v36 (ix2 e (0 : Fin 1)) = ix1 e from col_idx e, val_main_v35_apply,
    val_main_v32_apply, val_main_v34_apply, val_main_v31_apply,
    val_main_c_1_apply, val_main_v33_apply, val_main_c_2_apply, dstvec_eq]
  exact wrap_id _ (hr _).1

/-- The start indices of the gather of V: the source words. -/
theorem srccol_v (e : Fin 800000) : val_main_v51 (F := Ideal) x2 (ix2 e (0 : Fin 1)) = Cert.Spec.srcw x2 e := by
  rw [val_main_v51_apply, show idx_main_v51 (ix2 e (0 : Fin 1)) = ix1 e from col_idx e, val_main_v50_apply,
    val_main_v47_apply, val_main_v49_apply, val_main_v46_apply,
    val_main_c_6_apply, val_main_v48_apply, val_main_c_7_apply, srcvec_eq]
  exact wrap_id _ (hr _).1

/-! ## The gathers -/

/-- K gathered at the source of edge `e`. -/
theorem kg_eq (e : Fin 800000) (h : Fin 8) (d : Fin 16) :
    val_main_v30 (F := Ideal) x0 x2 x5 x6 (ix3 e h d)
      = Cert.Spec.lin x0 x5 x6 (Cert.Spec.node (Cert.Spec.srcw x2 e)) (Cert.Spec.lane h d) := by
  unfold val_main_v30
  rw [gather_dims_eq, gather_rows3_apply (by decide)]
  simp only [srccol_k x2 hr e]
  exact k_eq x0 x5 x6 (Cert.Spec.node (Cert.Spec.srcw x2 e)) h d

/-- Q gathered at the destination of edge `e`. -/
theorem qg_eq (e : Fin 800000) (h : Fin 8) (d : Fin 16) :
    val_main_v37 (F := Ideal) x0 x2 x3 x4 (ix3 e h d)
      = Cert.Spec.lin x0 x3 x4 (Cert.Spec.node (Cert.Spec.dstw x2 e)) (Cert.Spec.lane h d) := by
  unfold val_main_v37
  rw [gather_dims_eq, gather_rows3_apply (by decide)]
  simp only [dstcol_q x2 hr e]
  exact q_eq x0 x3 x4 (Cert.Spec.node (Cert.Spec.dstw x2 e)) h d

/-- V gathered at the source of edge `e`. -/
theorem vg_eq (e : Fin 800000) (h : Fin 8) (d : Fin 16) :
    val_main_v52 (F := Ideal) x0 x2 x9 x10 (ix3 e h d)
      = Cert.Spec.lin x0 x9 x10 (Cert.Spec.node (Cert.Spec.srcw x2 e)) (Cert.Spec.lane h d) := by
  unfold val_main_v52
  rw [gather_dims_eq, gather_rows3_apply (by decide)]
  simp only [srccol_v x2 hr e]
  exact v_eq x0 x9 x10 (Cert.Spec.node (Cert.Spec.srcw x2 e)) h d

/-! ## The score -/

/-- The product under the per-head sum. -/
theorem prod_eq (e : Fin 800000) (h : Fin 8) (d : Fin 16) :
    val_main_v41 (F := Ideal) x0 x1 x2 x3 x4 x5 x6 x7 x8 (ix3 e h d)
      = Cert.Spec.lin x0 x5 x6 (Cert.Spec.node (Cert.Spec.srcw x2 e)) (Cert.Spec.lane h d)
          * Cert.Spec.lin x0 x3 x4 (Cert.Spec.node (Cert.Spec.dstw x2 e)) (Cert.Spec.lane h d) * Cert.Spec.quarter
          * Cert.Spec.lin x1 x7 x8 e (Cert.Spec.lane h d) := by
  rw [val_main_v41_apply, val_main_v40_apply, val_main_v38_apply, val_main_v39_apply, val_main_cst_apply,
    kg_eq x0 x2 x5 x6 hr, qg_eq x0 x2 x3 x4 hr, e_eq]
  rfl

/-- The per-head sum. -/
theorem sum_eq (e : Fin 800000) (h : Fin 8) :
    val_main_v42 (F := Ideal) x0 x1 x2 x3 x4 x5 x6 x7 x8 (ix2 e h)
      = ∑ d : Fin 16, Cert.Spec.lin x0 x5 x6 (Cert.Spec.node (Cert.Spec.srcw x2 e)) (Cert.Spec.lane h d)
          * Cert.Spec.lin x0 x3 x4 (Cert.Spec.node (Cert.Spec.dstw x2 e)) (Cert.Spec.lane h d) * Cert.Spec.quarter
          * Cert.Spec.lin x1 x7 x8 e (Cert.Spec.lane h d) := by
  have hi : ∀ d : Fin 16, idx_main_v42 (ix2 e h) d = ix3 e h d := fun d => by
    funext a; match a with | ⟨0, _⟩ => rfl | ⟨1, _⟩ => rfl | ⟨2, _⟩ => rfl
  rw [val_main_v42_apply, val_main_cst_3_apply, Ideal.ofBits_def, Ideal.ofBits_zero_f32, zero_add]
  refine Finset.sum_congr rfl fun d _ => ?_
  rw [hi, prod_eq x0 x1 x2 x3 x4 x5 x6 x7 x8 hr]

/-- The score of edge `e` at head `h`. -/
theorem score_eq (e : Fin 800000) (h : Fin 8) :
    val_main_v45 (F := Ideal) x0 x1 x2 x3 x4 x5 x6 x7 x8 (ix3 e h (0 : Fin 1))
      = Cert.Spec.score x0 x1 x2 x3 x4 x5 x6 x7 x8 e h := by
  have hi : idx_main_v43 (ix3 e h (0 : Fin 1)) = ix2 e h := by
    funext a; match a with | ⟨0, _⟩ => rfl | ⟨1, _⟩ => rfl
  rw [val_main_v45_apply, val_main_v44_apply, val_main_call0_v4_apply, val_main_call0_v3_apply, val_main_cst_5_apply,
    val_main_call0_v2_apply, val_main_call0_v1_apply, val_main_call0_v0_apply, val_main_cst_4_apply,
    val_main_v43_apply, hi, sum_eq x0 x1 x2 x3 x4 x5 x6 x7 x8 hr]
  rfl

/-! ## The message -/

/-- The message of edge `e` at lane `16 h + d`. -/
theorem msg_eq (e : Fin 800000) (h : Fin 8) (d : Fin 16) :
    val_main_v54 (F := Ideal) x0 x1 x2 x3 x4 x5 x6 x7 x8 x9 x10 (ix3 e h d)
      = Cert.Spec.msg x0 x1 x2 x3 x4 x5 x6 x7 x8 x9 x10 e (Cert.Spec.lane h d) := by
  have hi : idx_main_v53 (ix3 e h d) = ix3 e h (0 : Fin 1) := by
    funext a; match a with | ⟨0, _⟩ => rfl | ⟨1, _⟩ => rfl | ⟨2, _⟩ => rfl
  rw [val_main_v54_apply, val_main_v53_apply, hi, vg_eq x0 x2 x9 x10 hr, score_eq x0 x1 x2 x3 x4 x5 x6 x7 x8 hr]
  unfold Cert.Spec.msg
  rw [Cert.Spec.head_lane]
  rfl

/-! ## The two sums over the edges into a node -/

/-- The summed messages into node `n` at lane `16 h + d`. -/
theorem num_eq (n : Fin 50000) (h : Fin 8) (d : Fin 16) :
    val_main_v57 (F := Ideal) x0 x1 x2 x3 x4 x5 x6 x7 x8 x9 x10 (ix3 n h d)
      = ∑ e ∈ Cert.Spec.into x2 n, Cert.Spec.msg x0 x1 x2 x3 x4 x5 x6 x7 x8 x9 x10 e (Cert.Spec.lane h d) := by
  unfold val_main_v57
  rw [scatter16_dims_eq, scatterAdd_rows3_apply, val_main_v55_apply, val_main_cst_8_apply, Ideal.ofBits_def,
    Ideal.ofBits_zero_f32, zero_add, into_eq x2 _ (dstcol_m x2) n]
  exact Finset.sum_congr rfl fun e _ => msg_eq x0 x1 x2 x3 x4 x5 x6 x7 x8 x9 x10 hr e h d

/-- The summed scores into node `n` at head `h`. -/
theorem den_eq (n : Fin 50000) (h : Fin 8) :
    val_main_v60 (F := Ideal) x0 x1 x2 x3 x4 x5 x6 x7 x8 (ix3 n h (0 : Fin 1))
      = ∑ e ∈ Cert.Spec.into x2 n, Cert.Spec.score x0 x1 x2 x3 x4 x5 x6 x7 x8 e h := by
  unfold val_main_v60
  rw [scatter1_dims_eq, scatterAdd_rows3_apply, val_main_v58_apply, val_main_cst_9_apply, Ideal.ofBits_def,
    Ideal.ofBits_zero_f32, zero_add, into_eq x2 _ (dstcol_s x2) n]
  exact Finset.sum_congr rfl fun e _ => score_eq x0 x1 x2 x3 x4 x5 x6 x7 x8 hr e h

/-! ## The quotient, flattened back to 128 lanes -/

/-- The quotient at node `n`, lane `j`. -/
theorem quot_eq (n : Fin 50000) (j : Fin 128) :
    val_main_v65 (F := Ideal) x0 x1 x2 x3 x4 x5 x6 x7 x8 x9 x10 (ix2 n j)
      = Cert.Spec.H x0 x1 x2 x3 x4 x5 x6 x7 x8 x9 x10 n j := by
  have hd : j.val % 16 < 16 := Nat.mod_lt _ (by decide)
  have hi : idx_main_v65 (ix2 n j) = ix3 n (Cert.Spec.head j) (⟨j.val % 16, hd⟩ : Fin 16) := by
    have hj := j.isLt
    funext a
    match a with
    | ⟨0, _⟩ => exact Fin.ext (by show (n.val * 128 + j.val) / 128 = n.val; omega)
    | ⟨1, _⟩ => exact Fin.ext (by show (n.val * 128 + j.val) / 16 % 8 = j.val / 16; omega)
    | ⟨2, _⟩ => exact Fin.ext (by show (n.val * 128 + j.val) % 16 = j.val % 16; omega)
  have hl : Cert.Spec.lane (Cert.Spec.head j) (⟨j.val % 16, hd⟩ : Fin 16) = j := by
    apply Fin.ext
    show j.val / 16 * 16 + j.val % 16 = j.val
    omega
  have h3 : idx_main_v63 (ix3 n (Cert.Spec.head j) (⟨j.val % 16, hd⟩ : Fin 16)) = ix3 n (Cert.Spec.head j) (0 : Fin 1) := by
    funext a; match a with | ⟨0, _⟩ => rfl | ⟨1, _⟩ => rfl | ⟨2, _⟩ => rfl
  rw [val_main_v65_apply, hi, val_main_v64_apply, val_main_v63_apply, h3, val_main_v62_apply, val_main_v61_apply,
    val_main_cst_10_apply, num_eq x0 x1 x2 x3 x4 x5 x6 x7 x8 x9 x10 hr, den_eq x0 x1 x2 x3 x4 x5 x6 x7 x8 hr, hl]
  rfl

end InRange

end Stages

/-- THE REFERENCE'S RESULT IS THE SPECIFICATION'S `H`: at every node `n` and lane `j`, where every word of the edge
    list is a node id. -/
theorem ref_eq_spec
    (x0 : (⟨S50000x128, .f32⟩ : BufTy).Contents (Elt Ideal)) (x1 : (⟨S800000x128, .f32⟩ : BufTy).Contents (Elt Ideal))
    (x2 : (⟨S2x800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal))
    (hr : ∀ i : S2x800000.Idx, 0 ≤ (x2 i).toInt ∧ (x2 i).toInt < 50000)
    (n : Fin 50000) (j : Fin 128) :
    val_main_v65 (F := Ideal) x0 x1 x2 x3 x4 x5 x6 x7 x8 x9 x10 (ix2 n j)
      = Cert.Spec.H x0 x1 x2 x3 x4 x5 x6 x7 x8 x9 x10 n j :=
  quot_eq x0 x1 x2 x3 x4 x5 x6 x7 x8 x9 x10 hr n j

end Cert.ReferenceIdeal.RefValue

end
-- ==== Proof.EdgeRange.lean ====
/-
  The edge-index array holds node ids. The printed precondition is a conjunction, by `and` of one-bit words, of
  twelve tests; its last two say of the int32[2, 800000] edge-index array that every entry is at least 0 and that
  every entry is below 50000, both compared signed against a constant spread over the whole array and folded by
  `and` over both axes. `edge_index_in_range`: if the precondition is all ones then every entry e of the array
  satisfies 0 ≤ e < 50000 as a signed integer. Only the outer two `and`s are split; the ten tests on the float
  arrays are left closed.
-/
import proofs.«413665_j11476152615031_3_alg».proof.Pre_finite_inputs
import Idealize.ShloMosaic.Lib.ValueIdx
import Idealize.ShloMosaic.Lib.ReduceAll

noncomputable section

namespace Cert.EdgeRange

open Idealize.ShloMosaic

/-- A rank-0 array has one index. -/
instance subsingleton_scalar_idx : Subsingleton Cert.Pre_finite_inputs.S_.Idx :=
  ⟨fun a b => funext fun d => d.elim0⟩

/-- Under the precondition every entry of the edge-index array lies in [0, 50000), read signed. -/
theorem edge_index_in_range [Cert.Pre_finite_inputs.Facts]
    (a0 : FVec Ideal Cert.Pre_finite_inputs.S50000x128 .f32) (a1 : FVec Ideal Cert.Pre_finite_inputs.S800000x128 .f32)
    (a2 : IVec Cert.Pre_finite_inputs.S2x800000 32)
    (a3 : FVec Ideal Cert.Pre_finite_inputs.S128x128 .f32) (a4 : FVec Ideal Cert.Pre_finite_inputs.S128 .f32)
    (a5 : FVec Ideal Cert.Pre_finite_inputs.S128x128 .f32) (a6 : FVec Ideal Cert.Pre_finite_inputs.S128 .f32)
    (a7 : FVec Ideal Cert.Pre_finite_inputs.S128x128 .f32) (a8 : FVec Ideal Cert.Pre_finite_inputs.S128 .f32)
    (a9 : FVec Ideal Cert.Pre_finite_inputs.S128x128 .f32) (a10 : FVec Ideal Cert.Pre_finite_inputs.S128 .f32)
    (h : Cert.Pre_finite_inputs.fn (F := Ideal) a0 a1 a2 a3 a4 a5 a6 a7 a8 a9 a10 = fun _ => 1#1) :
    ∀ i : Cert.Pre_finite_inputs.S2x800000.Idx, 0 ≤ (a2 i).toInt ∧ (a2 i).toInt < 50000 := by
  intro i
  -- the precondition's one word, as the chain of `and`s the printed function builds
  have e := congrFun h ValueIdx.ix0
  dsimp only [Cert.Pre_finite_inputs.fn, Cert.Pre_finite_inputs.fn_part1, Cert.Pre_finite_inputs.fn_part2,
    Cert.Pre_finite_inputs.fn_part3, andi] at e
  -- the last two conjuncts: the fold of "entry ≥ 0" and the fold of "entry < 50000"
  obtain ⟨⟨-, hge⟩, hlt⟩ := (IntOp.andi_eq_one.1 e).imp_left IntOp.andi_eq_one.1
  -- a fold by `and` over every axis that is 1 met a 1 at every entry
  have hge' := Host.reduce_andi_all _ _ _ _ _ hge i
  have hlt' := Host.reduce_andi_all _ _ _ _ _ hlt i
  -- at entry i the compare is of the entry against the constant itself
  dsimp only [cmpi, broadcastInDim, constantI] at hge' hlt'
  rw [IntOp.cmpi_sge] at hge'
  rw [IntOp.cmpi_slt] at hlt'
  have z : (0#32 : BitVec 32).toInt = 0 := by decide
  have c : (50000#32 : BitVec 32).toInt = 50000 := by decide
  rw [z] at hge'
  rw [c] at hlt'
  exact ⟨hge', hlt'⟩

end Cert.EdgeRange

end
-- ==== Proof.lean ====
/-
  The certificate of a graph-transformer attention layer (node features `x : [50000, 128]`, 800000 edges with features
  `ea : [800000, 128]`, 8 heads of 16 lanes) computed by two dense kernels against its plain reference.

  Both programs compute, per edge and head, `score = exp (clip (Σ_d K[src]·Q[dst]·¼·E) to [−5, 5])`, the message
  `V[src] · score`, and per node the summed messages over the summed scores plus ε (Proof/Spec.lean).  The kernel program
  projects `Q`, `K`, `V` in a first region (bf16 casts, the identity over the extended reals), gathers rows with `take`,
  and in a second region projects the edge features, sums each head's 16 lanes by a product with a 0/1 matrix, and
  spreads the score back by the product with its transpose; the reference reshapes to heads and reduces.  Over the
  extended reals a product with `0` or `1` is exact for every value, so the two per-head sums agree, and only
  commutativity and associativity of the product rearrange a lane's factors.

  The statement's precondition says that every float input is finite and that every entry of the edge list is a row of
  the node table.  The second part is what the value claim uses: `take` answers the NaN word at an index outside the
  table where the reference's indexing clamps, and inside the table both read the same row.  Finiteness is not used.

  The three frames are the generated ones (the reference's is its generated run with the result dropped); the
  idealization rewrote no operation, so `preserves` is trivial.
-/
import proofs.«413665_j11476152615031_3_alg».proof.Defs
import proofs.«413665_j11476152615031_3_alg».proof.Proof.Gen.Kernel
import proofs.«413665_j11476152615031_3_alg».proof.Proof.Gen.Kernel.Skeleton
import proofs.«413665_j11476152615031_3_alg».proof.Proof.Gen.Kernel.Launch
import proofs.«413665_j11476152615031_3_alg».proof.Proof.Gen.Kernel.Points
import proofs.«413665_j11476152615031_3_alg».proof.Proof.Gen.Kernel.Frame
import proofs.«413665_j11476152615031_3_alg».proof.Proof.Gen.KernelIdeal
import proofs.«413665_j11476152615031_3_alg».proof.Proof.Gen.KernelIdeal.Skeleton
import proofs.«413665_j11476152615031_3_alg».proof.Proof.Gen.KernelIdeal.Launch
import proofs.«413665_j11476152615031_3_alg».proof.Proof.Gen.KernelIdeal.Points
import proofs.«413665_j11476152615031_3_alg».proof.Proof.Gen.KernelIdeal.Frame
import proofs.«413665_j11476152615031_3_alg».proof.Proof.Gen.ReferenceIdeal
import proofs.«413665_j11476152615031_3_alg».proof.Proof.Gen.ReferenceIdeal.Run
import proofs.«413665_j11476152615031_3_alg».proof.Proof.Gen.ReferenceIdeal.Read
import proofs.«413665_j11476152615031_3_alg».proof.Proof.Gen.Pre_finite_inputs
import proofs.«413665_j11476152615031_3_alg».proof.Proof.KernelRun
import proofs.«413665_j11476152615031_3_alg».proof.Proof.KernelValue
import proofs.«413665_j11476152615031_3_alg».proof.Proof.RefValue
import proofs.«413665_j11476152615031_3_alg».proof.Proof.EdgeRange
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, with every entry of the edge list a node id, the kernel program's result
    array and the reference's are one function of the arguments, `Spec.H`, index by index. -/
theorem algebraic : Cert.algebraic_KernelIdeal_ReferenceIdeal := by
  intro m ρ m' ρ' hpre hagree
  have hr : ∀ (c : Dev Cert.KernelIdeal.nD) (i : Cert.KernelIdeal.S2x800000.Idx),
      0 ≤ (Cert.KernelIdeal.KValue.aei m c i).toInt ∧ (Cert.KernelIdeal.KValue.aei m c i).toInt < 50000 :=
    fun c => Cert.EdgeRange.edge_index_in_range _ _ _ _ _ _ _ _ _ _ _ (hpre c)
  refine ⟨fun c => Cert.KernelIdeal.Gen.W10 m ρ c (Proc.devRef .tc Cert.KernelIdeal.main_v32),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq]
  obtain ⟨h0, h1, h2, h3, h4, h5, h6, h7, h8, h9, h10⟩ := hagree c
  rw [h0, h1, h2, h3, h4, h5, h6, h7, h8, h9, h10]
  refine funext fun i => ?_
  rw [eq_ix2 i]
  exact (Cert.ReferenceIdeal.RefValue.ref_eq_spec _ _ _ _ _ _ _ _ _ _ _ (hr c) (i 0) (i 1)).trans
    (Cert.KernelIdeal.KValue.result_at m ρ hr c (i 0) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
